-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S262144x2 : Shape := ⟨2, ![262144, 2]⟩
abbrev S8192x512 : Shape := ⟨2, ![8192, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S262144x2 : S_.BroadcastsInDim S262144x2 (![] : Fin 0 → Fin S262144x2.rank)
  reducesTo_S262144x2_S_d0_1 : S262144x2.ReducesTo [0, 1] S_

variable [Facts]

def fn_part1 {F : FTy → Type} [FloatOps F] (main_arg1 : IVec S262144x2 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S262144x2 32 := broadcastInDim S262144x2 ![] bcast_S_S262144x2 main_c_6
  let main_v20 : IVec S262144x2 1 := cmpi .sge main_arg1 main_v19
  let main_c_7 : IVec S_ 32 := constantI S_ 32 8192#32
  let main_v21 : IVec S262144x2 32 := broadcastInDim S262144x2 ![] bcast_S_S262144x2 main_c_7
  let main_v22 : IVec S262144x2 1 := cmpi .slt main_arg1 main_v21
  let main_v23 : IVec S262144x2 1 := andi main_v20 main_v22
  let main_c_8 : IVec S_ 1 := constantI S_ 1 1#1
  let main_v24 : IVec S_ 1 := (fun x v => Host.reduce IntOp.andi x v reducesTo_S262144x2_S_d0_1 h_S_) main_v23 main_c_8
  let main_v25 : IVec S_ 1 := andi main_v18 main_v24
  main_v25

def fn {F : FTy → Type} [FloatOps F] (main_arg0 : IVec S2048 32) (main_arg1 : IVec S262144x2 32) (main_arg2 : FVec F S8192x512 .f32) (main_arg3 : FVec F S512 .f32) (main_arg4 : FVec F S512x128 .f32) (main_arg5 : FVec F S128 .f32) : IVec S_ 1 :=
  let main_v0 : FVec F S8192x512 .f32 := Host.absf main_arg2
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512 .f32 := Host.absf main_arg3
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S2048 : Shape := ⟨1, ![2048]⟩
abbrev S262144x2 : Shape := ⟨2, ![262144, 2]⟩
abbrev S8192x512 : Shape := ⟨2, ![8192, 512]⟩
abbrev S512 : Shape := ⟨1, ![512]⟩
abbrev S512x128 : Shape := ⟨2, ![512, 128]⟩
abbrev S128 : Shape := ⟨1, ![128]⟩
abbrev S262144x1 : Shape := ⟨2, ![262144, 1]⟩
abbrev S262144 : Shape := ⟨1, ![262144]⟩
abbrev S8192 : Shape := ⟨1, ![8192]⟩
abbrev S270336 : Shape := ⟨1, ![270336]⟩
abbrev S_ : Shape := ⟨0, ![]⟩
abbrev S270336x1 : Shape := ⟨2, ![270336, 1]⟩
abbrev S8192x8192 : Shape := ⟨2, ![8192, 8192]⟩
abbrev S270336x2 : Shape := ⟨2, ![270336, 2]⟩
abbrev S1x512 : Shape := ⟨2, ![1, 512]⟩
abbrev S1x128 : Shape := ⟨2, ![1, 128]⟩
abbrev S512x2048 : Shape := ⟨2, ![512, 2048]⟩
abbrev S2048x512 : Shape := ⟨2, ![2048, 512]⟩
abbrev S512x512 : Shape := ⟨2, ![512, 512]⟩
abbrev S8192x128 : Shape := ⟨2, ![8192, 128]⟩
abbrev S2048x128 : Shape := ⟨2, ![2048, 128]⟩
abbrev S2048x1 : Shape := ⟨2, ![2048, 1]⟩

abbrev nBuf : Space → Nat
  | .hbm => 82
  | .vmem => 23
  | .smem => 0
  | _ => 0

abbrev bufTy : (tb : Table) → Fin (tcTables nBuf tb) → BufTy
  | .hbm, ⟨0, _⟩ => ⟨S2048, .i32⟩
  | .hbm, ⟨1, _⟩ => ⟨S262144x2, .i32⟩
  | .hbm, ⟨2, _⟩ => ⟨S8192x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S262144x1, .i32⟩
  | .hbm, ⟨7, _⟩ => ⟨S262144, .i32⟩
  | .hbm, ⟨8, _⟩ => ⟨S262144x1, .i32⟩
  | .hbm, ⟨9, _⟩ => ⟨S262144, .i32⟩
  | .hbm, ⟨10, _⟩ => ⟨S8192, .i32⟩
  | .hbm, ⟨11, _⟩ => ⟨S270336, .i32⟩
  | .hbm, ⟨12, _⟩ => ⟨S270336, .i32⟩
  | .hbm, ⟨13, _⟩ => ⟨S_, .f32⟩
  | .hbm, ⟨14, _⟩ => ⟨S270336, .f32⟩
  | .hbm, ⟨15, _⟩ => ⟨S_, .f32⟩
  | .hbm, ⟨16, _⟩ => ⟨S8192, .f32⟩
  | .hbm, ⟨17, _⟩ => ⟨S270336x1, .i32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .i1⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .i32⟩
  | .hbm, ⟨28, _⟩ => ⟨S270336, .i32⟩
  | .hbm, ⟨29, _⟩ => ⟨S270336, .i1⟩
  | .hbm, ⟨30, _⟩ => ⟨S_, .i32⟩
  | .hbm, ⟨31, _⟩ => ⟨S270336, .i32⟩
  | .hbm, ⟨32, _⟩ => ⟨S270336, .i32⟩
  | .hbm, ⟨33, _⟩ => ⟨S270336, .i32⟩
  | .hbm, ⟨34, _⟩ => ⟨S270336x1, .i32⟩
  | .hbm, ⟨35, _⟩ => ⟨S270336, .f32⟩
  | .hbm, ⟨36, _⟩ => ⟨S_, .i32⟩
  | .hbm, ⟨37, _⟩ => ⟨S270336, .i32⟩
  | .hbm, ⟨38, _⟩ => ⟨S270336, .i1⟩
  | .hbm, ⟨39, _⟩ => ⟨S_, .i32⟩
  | .hbm, ⟨40, _⟩ => ⟨S270336, .i32⟩
  | .hbm, ⟨41, _⟩ => ⟨S270336, .i32⟩
  | .hbm, ⟨42, _⟩ => ⟨S270336, .i32⟩
  | .hbm, ⟨43, _⟩ => ⟨S270336x1, .i32⟩
  | .hbm, ⟨44, _⟩ => ⟨S270336, .f32⟩
  | .hbm, ⟨45, _⟩ => ⟨S270336, .f32⟩
  | .hbm, ⟨46, _⟩ => ⟨S_, .f32⟩
  | .hbm, ⟨47, _⟩ => ⟨S8192x8192, .f32⟩
  | .hbm, ⟨48, _⟩ => ⟨S_, .i32⟩
  | .hbm, ⟨49, _⟩ => ⟨S270336, .i32⟩
  | .hbm, ⟨50, _⟩ => ⟨S270336, .i1⟩
  | .hbm, ⟨51, _⟩ => ⟨S_, .i32⟩
  | .hbm, ⟨52, _⟩ => ⟨S270336, .i32⟩
  | .hbm, ⟨53, _⟩ => ⟨S270336, .i32⟩
  | .hbm, ⟨54, _⟩ => ⟨S270336, .i32⟩
  | .hbm, ⟨55, _⟩ => ⟨S_, .i32⟩
  | .hbm, ⟨56, _⟩ => ⟨S270336, .i32⟩
  | .hbm, ⟨57, _⟩ => ⟨S270336, .i1⟩
  | .hbm, ⟨58, _⟩ => ⟨S_, .i32⟩
  | .hbm, ⟨59, _⟩ => ⟨S270336, .i32⟩
  | .hbm, ⟨60, _⟩ => ⟨S270336, .i32⟩
  | .hbm, ⟨61, _⟩ => ⟨S270336, .i32⟩
  | .hbm, ⟨62, _⟩ => ⟨S270336x1, .i32⟩
  | .hbm, ⟨63, _⟩ => ⟨S270336x1, .i32⟩
  | .hbm, ⟨64, _⟩ => ⟨S270336x2, .i32⟩
  | .hbm, ⟨65, _⟩ => ⟨S8192x8192, .f32⟩
  | .hbm, ⟨66, _⟩ => ⟨S1x512, .f32⟩
  | .hbm, ⟨67, _⟩ => ⟨S1x128, .f32⟩
  | .hbm, ⟨68, _⟩ => ⟨S_, .f32⟩
  | .hbm, ⟨69, _⟩ => ⟨S1x128, .f32⟩
  | .hbm, ⟨70, _⟩ => ⟨S8192x512, .f32⟩
  | .hbm, ⟨71, _⟩ => ⟨S8192x128, .f32⟩
  | .hbm, ⟨72, _⟩ => ⟨S8192x128, .f32⟩
  | .hbm, ⟨73, _⟩ => ⟨S_, .i32⟩
  | .hbm, ⟨74, _⟩ => ⟨S2048, .i32⟩
  | .hbm, ⟨75, _⟩ => ⟨S2048, .i1⟩
  | .hbm, ⟨76, _⟩ => ⟨S_, .i32⟩
  | .hbm, ⟨77, _⟩ => ⟨S2048, .i32⟩
  | .hbm, ⟨78, _⟩ => ⟨S2048, .i32⟩
  | .hbm, ⟨79, _⟩ => ⟨S2048, .i32⟩
  | .hbm, ⟨80, _⟩ => ⟨S2048x1, .i32⟩
  | .hbm, ⟨81, _⟩ => ⟨S2048x128, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S1x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x2048, .f32⟩
  | .local _ .vmem, ⟨16, _⟩ => ⟨S512x2048, .f32⟩
  | .local _ .vmem, ⟨17, _⟩ => ⟨S2048x128, .f32⟩
  | .local _ .vmem, ⟨18, _⟩ => ⟨S2048x128, .f32⟩
  | .local _ .vmem, ⟨19, _⟩ => ⟨S1x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_12 : Ref sig .tc := ⟨.hbm, 73, rfl⟩
abbrev main_v51 : Ref sig .tc := ⟨.hbm, 74, rfl⟩
abbrev main_v52 : Ref sig .tc := ⟨.hbm, 75, rfl⟩
abbrev main_c_13 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![16, 1, 1], ![false, false, false]⟩

def k1_cond2 (i : grid1.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![16, 1, 4], ![false, false, false]⟩

def k2_cond2 (i : grid2.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  slices_S262144x2_S262144x1_0_0 : S262144x2.Slices ![0, 0] S262144x1
  shapeCasts_S262144x1_S262144 : S262144x1.ShapeCasts S262144
  slices_S262144x2_S262144x1_0_1 : S262144x2.Slices ![0, 1] S262144x1
  concatenates_S262144_S8192_S270336_d0 : Shape.Concatenates [S262144, S8192] S270336 0
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S_S8192x8192 : S_.BroadcastsInDim S8192x8192 (![] : Fin 0 → Fin S8192x8192.rank)
  concatenates_S270336x1_S270336x1_S270336x2_d1 : Shape.Concatenates [S270336x1, S270336x1] S270336x2 1
  shapeCasts_S512_S1x512 : S512.ShapeCasts S1x512
  shapeCasts_S128_S1x128 : S128.ShapeCasts S1x128
  bcast_S_S1x128 : S_.BroadcastsInDim S1x128 (![] : Fin 0 → Fin S1x128.rank)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bcast_S_S2048 : S_.BroadcastsInDim S2048 (![] : Fin 0 → Fin S2048.rank)
  bcast_S2048_S2048x1_0 : S2048.BroadcastsInDim S2048x1 (![0] : Fin 1 → Fin S2048x1.rank)
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  scatter_S8192x8192_S270336x2_S270336_n_01_01_1_wf : ScatterDims.WF S8192x8192 S270336x2 S270336 [] [0, 1] [0, 1] 1
  dot_S512x2048_S2048x512_S512x512_1_0_0_1_n_n_wf : DotDims.WF S512x2048 S2048x512 S512x512 [1] [0] [0] [1] [] []
  dot_S512x512_S512x128_S512x128_1_0_0_1_n_n_wf : DotDims.WF S512x512 S512x128 S512x128 [1] [0] [0] [1] [] []
  dot_S512x2048_S2048x128_S512x128_1_0_0_1_n_n_wf : DotDims.WF S512x2048 S2048x128 S512x128 [1] [0] [0] [1] [] []
  gather_S8192x128_S2048x1_S2048x128_1_0_n_n_0_1_1128_wf : GatherDims.WF S8192x128 S2048x1 S2048x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x8192.size a
  hwx0_0 : ∀ i : grid0.Coords, EltTy.bits .f32 = 32 ∨ (Rect.block (s := S8192x8192) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .f32 = 32 ∨ (Rect.block (s := S8192x512) S2048x512.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x512.size a
  hwx0_3 : ∀ i : grid0.Coords, EltTy.bits .f32 = 32 ∨ (Rect.block (s := S8192x512) S512x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x512.size a
  hwx1_0 : ∀ i : grid1.Coords, EltTy.bits .f32 = 32 ∨ (Rect.block (s := S8192x512) S512x512.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S8192x128.size a
  hwx1_3 : ∀ i : grid1.Coords, EltTy.bits .f32 = 32 ∨ (Rect.block (s := S8192x128) S512x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S8192x8192.size a
  hwx2_0 : ∀ i : grid2.Coords, EltTy.bits .f32 = 32 ∨ (Rect.block (s := S8192x8192) S512x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S8192x128.size a
  hwx2_1 : ∀ i : grid2.Coords, EltTy.bits .f32 = 32 ∨ (Rect.block (s := S8192x128) S2048x128.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S8192x128.size a
  hwx2_3 : ∀ i : grid2.Coords, EltTy.bits .f32 = 32 ∨ (Rect.block (s := S8192x128) S512x128.size (cc2_transform_3 i) (hinb2_3 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def scatter_S8192x8192_S270336x2_S270336_n_01_01_1 : ScatterDims S8192x8192 S270336x2 S270336 where
  updateWindowDims := []
  insertedWindowDims := [0, 1]
  scatterDimsToOperandDims := [0, 1]
  indexVectorDim := 1
  wf := scatter_S8192x8192_S270336x2_S270336_n_01_01_1_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def gather_S8192x128_S2048x1_S2048x128_1_0_n_n_0_1_1128 : GatherDims S8192x128 S2048x1 S2048x128 where
  offsetDims := [1]
  collapsedSliceDims := [0]
  operandBatchingDims := []
  startIndicesBatchingDims := []
  startIndexMap := [0]
  indexVectorDim := 1
  sliceSizes := ![1, 128]
  wf := gather_S8192x128_S2048x1_S2048x128_1_0_n_n_0_1_1128_wf

abbrev win0_0 : Pipeline.Window sig grid0 :=
  Pipeline.Window.ofSpec (Memref.whole main_v44) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x512.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v48) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v48) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x128.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v44) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S512x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S2048 : Shape := ⟨1, ![2048]⟩
abbrev S262144x2 : Shape := ⟨2, ![262144, 2]⟩
abbrev S8192x512 : Shape := ⟨2, ![8192, 512]⟩
abbrev S512 : Shape := ⟨1, ![512]⟩
abbrev S512x128 : Shape := ⟨2, ![512, 128]⟩
abbrev S128 : Shape := ⟨1, ![128]⟩
abbrev S262144x1 : Shape := ⟨2, ![262144, 1]⟩
abbrev S262144 : Shape := ⟨1, ![262144]⟩
abbrev S8192x8192 : Shape := ⟨2, ![8192, 8192]⟩
abbrev S_ : Shape := ⟨0, ![]⟩
abbrev S8192 : Shape := ⟨1, ![8192]⟩
abbrev S270336 : Shape := ⟨1, ![270336]⟩
abbrev S270336x1 : Shape := ⟨2, ![270336, 1]⟩
abbrev S270336x512 : Shape := ⟨2, ![270336, 512]⟩
abbrev S1x512 : Shape := ⟨2, ![1, 512]⟩
abbrev S8192x128 : Shape := ⟨2, ![8192, 128]⟩
abbrev S270336x128 : Shape := ⟨2, ![270336, 128]⟩
abbrev S1x128 : Shape := ⟨2, ![1, 128]⟩
abbrev S2048x1 : Shape := ⟨2, ![2048, 1]⟩
abbrev S2048x128 : Shape := ⟨2, ![2048, 128]⟩

abbrev nBuf : Space → Nat
  | .hbm => 141
  | .vmem => 0
  | .smem => 0
  | _ => 0

abbrev hbmTy0_0 (i : Nat) : BufTy := match i % 128 with
  | 0 => ⟨S2048, .i32⟩
  | 1 => ⟨S262144x2, .i32⟩
  | 2 => ⟨S8192x512, .f32⟩
  | 3 => ⟨S512, .f32⟩
  | 4 => ⟨S512x128, .f32⟩
  | 5 => ⟨S128, .f32⟩
  | 6 => ⟨S262144x1, .i32⟩
  | 7 => ⟨S262144, .i32⟩
  | 8 => ⟨S262144x1, .i32⟩
  | 9 => ⟨S262144, .i32⟩
  | 10 => ⟨S8192x8192, .i32⟩
  | 11 => ⟨S8192x8192, .i32⟩
  | 12 => ⟨S_, .i32⟩
  | 13 => ⟨S8192x8192, .i32⟩
  | 14 => ⟨S8192x8192, .i32⟩
  | 15 => ⟨S8192x8192, .i1⟩
  | 16 => ⟨S8192x8192, .f32⟩
  | 17 => ⟨S8192x512, .f32⟩
  | 18 => ⟨S8192, .i32⟩
  | 19 => ⟨S270336, .i32⟩
  | 20 => ⟨S270336, .i32⟩
  | 21 => ⟨S_, .f32⟩
  | 22 => ⟨S270336, .f32⟩
  | 23 => ⟨S_, .f32⟩
  | 24 => ⟨S8192, .f32⟩
  | 25 => ⟨S270336x1, .i32⟩
  | 26 => ⟨S8192, .f32⟩
  | 27 => ⟨S_, .f32⟩
  | 28 => ⟨S8192, .f32⟩
  | 29 => ⟨S8192, .i1⟩
  | 30 => ⟨S8192, .f32⟩
  | 31 => ⟨S_, .f32⟩
  | 32 => ⟨S_, .f32⟩
  | 33 => ⟨S8192, .f32⟩
  | 34 => ⟨S8192, .f32⟩
  | 35 => ⟨S_, .i32⟩
  | 36 => ⟨S270336, .i32⟩
  | 37 => ⟨S270336, .i1⟩
  | 38 => ⟨S_, .i32⟩
  | 39 => ⟨S270336, .i32⟩
  | 40 => ⟨S270336, .i32⟩
  | 41 => ⟨S270336, .i32⟩
  | 42 => ⟨S270336x1, .i32⟩
  | 43 => ⟨S270336, .f32⟩
  | 44 => ⟨S_, .i32⟩
  | 45 => ⟨S270336, .i32⟩
  | 46 => ⟨S270336, .i1⟩
  | 47 => ⟨S_, .i32⟩
  | 48 => ⟨S270336, .i32⟩
  | 49 => ⟨S270336, .i32⟩
  | 50 => ⟨S270336, .i32⟩
  | 51 => ⟨S270336x1, .i32⟩
  | 52 => ⟨S270336, .f32⟩
  | 53 => ⟨S270336, .f32⟩
  | 54 => ⟨S_, .i32⟩
  | 55 => ⟨S270336, .i32⟩
  | 56 => ⟨S270336, .i1⟩
  | 57 => ⟨S_, .i32⟩
  | 58 => ⟨S270336, .i32⟩
  | 59 => ⟨S270336, .i32⟩
  | 60 => ⟨S270336, .i32⟩
  | 61 => ⟨S270336x1, .i32⟩
  | 62 => ⟨S270336x512, .f32⟩
  | 63 => ⟨S270336x1, .f32⟩
  | 64 => ⟨S270336x512, .f32⟩
  | 65 => ⟨S270336x512, .f32⟩
  | 66 => ⟨S_, .f32⟩
  | 67 => ⟨S8192x512, .f32⟩
  | 68 => ⟨S270336x1, .i32⟩
  | 69 => ⟨S8192x512, .f32⟩
  | 70 => ⟨S1x512, .f32⟩
  | 71 => ⟨S8192x512, .f32⟩
  | 72 => ⟨S8192x512, .f32⟩
  | 73 => ⟨S_, .f32⟩
  | 74 => ⟨S8192x512, .f32⟩
  | 75 => ⟨S8192x512, .f32⟩
  | 76 => ⟨S8192x128, .f32⟩
  | 77 => ⟨S8192, .i32⟩
  | 78 => ⟨S270336, .i32⟩
  | 79 => ⟨S270336, .i32⟩
  | 80 => ⟨S_, .f32⟩
  | 81 => ⟨S270336, .f32⟩
  | 82 => ⟨S_, .f32⟩
  | 83 => ⟨S8192, .f32⟩
  | 84 => ⟨S270336x1, .i32⟩
  | 85 => ⟨S8192, .f32⟩
  | 86 => ⟨S_, .f32⟩
  | 87 => ⟨S8192, .f32⟩
  | 88 => ⟨S8192, .i1⟩
  | 89 => ⟨S8192, .f32⟩
  | 90 => ⟨S_, .f32⟩
  | 91 => ⟨S_, .f32⟩
  | 92 => ⟨S8192, .f32⟩
  | 93 => ⟨S8192, .f32⟩
  | 94 => ⟨S_, .i32⟩
  | 95 => ⟨S270336, .i32⟩
  | 96 => ⟨S270336, .i1⟩
  | 97 => ⟨S_, .i32⟩
  | 98 => ⟨S270336, .i32⟩
  | 99 => ⟨S270336, .i32⟩
  | 100 => ⟨S270336, .i32⟩
  | 101 => ⟨S270336x1, .i32⟩
  | 102 => ⟨S270336, .f32⟩
  | 103 => ⟨S_, .i32⟩
  | 104 => ⟨S270336, .i32⟩
  | 105 => ⟨S270336, .i1⟩
  | 106 => ⟨S_, .i32⟩
  | 107 => ⟨S270336, .i32⟩
  | 108 => ⟨S270336, .i32⟩
  | 109 => ⟨S270336, .i32⟩
  | 110 => ⟨S270336x1, .i32⟩
  | 111 => ⟨S270336, .f32⟩
  | 112 => ⟨S270336, .f32⟩
  | 113 => ⟨S_, .i32⟩
  | 114 => ⟨S270336, .i32⟩
  | 115 => ⟨S270336, .i1⟩
  | 116 => ⟨S_, .i32⟩
  | 117 => ⟨S270336, .i32⟩
  | 118 => ⟨S270336, .i32⟩
  | 119 => ⟨S270336, .i32⟩
  | 120 => ⟨S270336x1, .i32⟩
  | 121 => ⟨S270336x128, .f32⟩
  | 122 => ⟨S270336x1, .f32⟩
  | 123 => ⟨S270336x128, .f32⟩
  | 124 => ⟨S270336x128, .f32⟩
  | 125 => ⟨S_, .f32⟩
  | 126 => ⟨S8192x128, .f32⟩
  | 127 => ⟨S270336x1, .i32⟩
  | _ => ⟨S2048, .i32⟩

abbrev hbmTy0_1 (i : Nat) : BufTy := match i % 128 with
  | 0 => ⟨S8192x128, .f32⟩
  | 1 => ⟨S1x128, .f32⟩
  | 2 => ⟨S8192x128, .f32⟩
  | 3 => ⟨S8192x128, .f32⟩
  | 4 => ⟨S_, .i32⟩
  | 5 => ⟨S2048, .i32⟩
  | 6 => ⟨S2048, .i1⟩
  | 7 => ⟨S_, .i32⟩
  | 8 => ⟨S2048, .i32⟩
  | 9 => ⟨S2048, .i32⟩
  | 10 => ⟨S2048, .i32⟩
  | 11 => ⟨S2048x1, .i32⟩
  | 12 => ⟨S2048x128, .f32⟩
  | _ => ⟨S2048, .i32⟩

abbrev hbmTy (i : Nat) : BufTy := match i / 128 with
  | 0 => hbmTy0_0 i
  | 1 => hbmTy0_1 i
  | _ => ⟨S2048, .i32⟩

abbrev bufTy : (tb : Table) → Fin (tcTables nBuf tb) → BufTy
  | .hbm, ⟨i, _⟩ => hbmTy i
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call1_cst : Ref sig .tc := ⟨.hbm, 73, rfl⟩
abbrev main_call1_v0 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_call2_v0 : Ref sig .tc := ⟨.hbm, 91, rfl⟩
abbrev main_call2_v1 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_c_19 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_20 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_21 : Ref sig .tc := ⟨.hbm, 132, rfl⟩
abbrev main_v97 : Ref sig .tc := ⟨.hbm, 133, rfl⟩
abbrev main_v98 : Ref sig .tc := ⟨.hbm, 134, rfl⟩
abbrev main_c_22 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩

abbrev nD : Nat := 1
abbrev τ : Topo := Topo.v7x

variable {F : FTy → Type} [FloatOps F]

class Facts₀ : Prop where
  slices_S262144x2_S262144x1_0_0 : S262144x2.Slices ![0, 0] S262144x1
  shapeCasts_S262144x1_S262144 : S262144x1.ShapeCasts S262144
  slices_S262144x2_S262144x1_0_1 : S262144x2.Slices ![0, 1] S262144x1
  bcast_S_S8192x8192 : S_.BroadcastsInDim S8192x8192 (![] : Fin 0 → Fin S8192x8192.rank)
  concatenates_S262144_S8192_S270336_d0 : Shape.Concatenates [S262144, S8192] S270336 0
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x512_0_1 : S270336x1.BroadcastsInDim S270336x512 (![0, 1] : Fin 2 → Fin S270336x512.rank)
  bcast_S_S8192x512 : S_.BroadcastsInDim S8192x512 (![] : Fin 0 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S270336x1_S270336x128_0_1 : S270336x1.BroadcastsInDim S270336x128 (![0, 1] : Fin 2 → Fin S270336x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S2048 : S_.BroadcastsInDim S2048 (![] : Fin 0 → Fin S2048.rank)
  bcast_S2048_S2048x1_0 : S2048.BroadcastsInDim S2048x1 (![0] : Fin 1 → Fin S2048x1.rank)
  dot_S8192x8192_S8192x512_S8192x512_1_0_0_1_n_n_wf : DotDims.WF S8192x8192 S8192x512 S8192x512 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x512_S270336x1_S270336x512_1_0_n_n_0_1_1512_wf : GatherDims.WF S8192x512 S270336x1 S270336x512 [1] [0] [] [0] [] 1 ![1, 512]
  scatter_S8192x512_S270336x1_S270336x512_1_0_0_1_wf : ScatterDims.WF S8192x512 S270336x1 S270336x512 [1] [0] [0] 1
  dot_S8192x512_S512x128_S8192x128_1_0_0_1_n_n_wf : DotDims.WF S8192x512 S512x128 S8192x128 [1] [0] [0] [1] [] []
  gather_S8192x128_S270336x1_S270336x128_1_0_n_n_0_1_1128_wf : GatherDims.WF S8192x128 S270336x1 S270336x128 [1] [0] [] [0] [] 1 ![1, 128]
  scatter_S8192x128_S270336x1_S270336x128_1_0_0_1_wf : ScatterDims.WF S8192x128 S270336x1 S270336x128 [1] [0] [0] 1
  gather_S8192x128_S2048x1_S2048x128_1_0_n_n_0_1_1128_wf : GatherDims.WF S8192x128 S2048x1 S2048x128 [1] [0] [] [0] [] 1 ![1, 128]

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x512_S270336x1_S270336x512_1_0_n_n_0_1_1512 : GatherDims S8192x512 S270336x1 S270336x512 where
  offsetDims := [1]
  collapsedSliceDims := [0]
  operandBatchingDims := []
  startIndicesBatchingDims := []
  startIndexMap := [0]
  indexVectorDim := 1
  sliceSizes := ![1, 512]
  wf := gather_S8192x512_S270336x1_S270336x512_1_0_n_n_0_1_1512_wf
def scatter_S8192x512_S270336x1_S270336x512_1_0_0_1 : ScatterDims S8192x512 S270336x1 S270336x512 where
  updateWindowDims := [1]
  insertedWindowDims := [0]
  scatterDimsToOperandDims := [0]
  indexVectorDim := 1
  wf := scatter_S8192x512_S270336x1_S270336x512_1_0_0_1_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def gather_S8192x128_S270336x1_S270336x128_1_0_n_n_0_1_1128 : GatherDims S8192x128 S270336x1 S270336x128 where
  offsetDims := [1]
  collapsedSliceDims := [0]
  operandBatchingDims := []
  startIndicesBatchingDims := []
  startIndexMap := [0]
  indexVectorDim := 1
  sliceSizes := ![1, 128]
  wf := gather_S8192x128_S270336x1_S270336x128_1_0_n_n_0_1_1128_wf
def scatter_S8192x128_S270336x1_S270336x128_1_0_0_1 : ScatterDims S8192x128 S270336x1 S270336x128 where
  updateWindowDims := [1]
  insertedWindowDims := [0]
  scatterDimsToOperandDims := [0]
  indexVectorDim := 1
  wf := scatter_S8192x128_S270336x1_S270336x128_1_0_0_1_wf
def gather_S8192x128_S2048x1_S2048x128_1_0_n_n_0_1_1128 : GatherDims S8192x128 S2048x1 S2048x128 where
  offsetDims := [1]
  collapsedSliceDims := [0]
  operandBatchingDims := []
  startIndicesBatchingDims := []
  startIndexMap := [0]
  indexVectorDim := 1
  sliceSizes := ![1, 128]
  wf := gather_S8192x128_S2048x1_S2048x128_1_0_n_n_0_1_1128_wf

class Facts : Prop extends Facts₀ where

variable [Facts]
-- ==== Proof.LibWholeStore.lean ====
/-
  A buffer whose LAST store went through the whole-shape rectangle at zero offsets holds that store's payload,
  whatever was stored before: read back whole, or loaded through the same rectangle.
-/
import Idealize.ShloMosaic.Lib.Pipeline.FrameBody
import Idealize.ShloMosaic.Lib.Pipeline.Value

noncomputable section

namespace Cert.LibWholeStore

open Idealize.ShloMosaic

variable {Val : EltTy → Type} [∀ e, Nonempty (Val e)] {S : Shape} {e : EltTy}

/-- The contents after a list of stores whose last (the head of the list) covers the whole shape read as its payload. -/
theorem read_writes_whole {sig : RefSig} {κ : Kind} {sp : Space} (v : View sig κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load through the whole shape after such a list of stores reads the last store's payload. -/
theorem readCov_whole {sig : RefSig} {κ : Kind} {sp : Space} (v : View sig κ sp S e)
    {off : Fin S.rank → Nat} (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

end Cert.LibWholeStore

end
-- ==== Proof.BRegion0.lean ====
/-
  A matrix product A · B + bias as the pipeline runs it (the first of the program's products also rectifies the sum): a grid of 16 × 1 × 4 points,
  point t standing for the block of 512 rows t / 4 and the step t % 4 along the contracted axis, 2048 columns of A at a
  time.  At step 0 the body clears its accumulator; at every step it adds the product of the two blocks to it; at step 3
  it stores the kernel's closing payload of the accumulator and the bias row (their sum, rectified in the first product) into the output block, which the pipeline writes back after that point
  and at no other.  So the accumulator IS carried from a point to the next: after point t it holds the sum of the
  block products of the steps 0 … t % 4 of t's row block, and the invariant between points says exactly that.

  Below: the body run on whole staging buffers in its three cases (first step, a middle step, last step), what the
  accumulator holds after each point (by recursion on the point), the proof data, and the body obligation at a generic
  point by cases on t % 4.
-/
import proofs.«100943_j2456721293623_1_alg».proof.Proof.Gen.Kernel.Launch
import proofs.«100943_j2456721293623_1_alg».proof.Proof.Gen.Kernel.Points
import proofs.«100943_j2456721293623_1_alg».proof.Proof.Gen.Kernel.Skeleton
import proofs.«100943_j2456721293623_1_alg».proof.Proof.LibWholeStore
import Idealize.ShloMosaic.Lib.Pipeline.Regions
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access. -/
theorem hz : ((![0, 0] : Fin 2 → ℕ)) = fun _ => 0 := by funext a; fin_cases a <;> rfl

/-! ## The body on whole buffers, case by case -/

set_option maxHeartbeats 1000000 in
/-- FIRST STEP (the clearing guard holds, the storing guard does not): the accumulator, whatever it held, ends at the
    block product added to zero; the output buffer is not touched. -/
theorem runA (c : Dev nD) (i : grid0.Coords)
    (arg3 : Memref sig .tc .vmem S512x2048 .f32) (harg3 : arg3.IsWhole) (arg4 : Memref sig .tc .vmem S2048x512 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (hc1 : Scalar.cmpi .ne (Scalar.extui (Scalar.cmpi .eq (BitVec.ofNat 32 (i 2).val) 0#32)) 0#32 = 1#1) (hc2 : ¬ k0_cond2 i = 1#1)
    (xa : Vec F S512x2048 .f32) (xb : Vec F S2048x512 .f32) (xbias : Vec F S1x512 .f32) (xo : Vec F S512x512 .f32) (xs : Vec F S512x512 .f32)
    (E : Set ℕ) (K : PUnit → sProp 𝕄) :
    iprop(owns (c : Thread nD τ) arg3 fullShare xa ∗ owns (c : Thread nD τ) arg4 fullShare xb ∗ owns (c : Thread nD τ) arg5 fullShare xbias
        ∗ owns (c : Thread nD τ) arg6 fullShare xo ∗ owns (c : Thread nD τ) arg7 fullShare xs
        ∗ (iprop(owns (c : Thread nD τ) arg3 fullShare xa ∗ owns (c : Thread nD τ) arg4 fullShare xb ∗ owns (c : Thread nD τ) arg5 fullShare xbias
            ∗ owns (c : Thread nD τ) arg6 fullShare xo
            ∗ owns (c : Thread nD τ) arg7 fullShare (k0_pay2 xa xb k0_pay1)) -∗ K ⟨⟩))
      ⊢ wp frame (wpE (defs₀ (F := F)) Variants.none c none) E (cc0__matmul_kernel_relu i arg3 harg3 arg4 harg4 arg5 harg5 arg6 harg6 arg7 harg7) K := by
  simp only [cc0__matmul_kernel_relu_eq_skeleton]; unfold cc0__matmul_kernel_relu_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    exact harg6.read_unread _
  · iexists _; isplitr; swap; · iexact H7
    ipureintro
    sl_unfold_words
    simp only [Cert.LibWholeStore.read_writes_whole (S := S512x512) _ _ hz, Cert.LibWholeStore.readCov_whole (S := S512x512) _ hz, View.readAt_eq_ld,
      harg3.read_unread, harg4.read_unread, harg5.read_unread, harg7.read_unread, View.ld_unit_zero (S := S512x2048) hz, View.ld_unit_zero (S := S2048x512) hz,
      View.ld_unit_zero (S := S512x512) hz, View.ld_unit_zero (S := S1x512) hz]

set_option maxHeartbeats 1000000 in
/-- A MIDDLE STEP (neither guard holds): the accumulator ends at the block product added to what it held. -/
theorem runB (c : Dev nD) (i : grid0.Coords)
    (arg3 : Memref sig .tc .vmem S512x2048 .f32) (harg3 : arg3.IsWhole) (arg4 : Memref sig .tc .vmem S2048x512 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (hc1 : ¬ Scalar.cmpi .ne (Scalar.extui (Scalar.cmpi .eq (BitVec.ofNat 32 (i 2).val) 0#32)) 0#32 = 1#1) (hc2 : ¬ k0_cond2 i = 1#1)
    (xa : Vec F S512x2048 .f32) (xb : Vec F S2048x512 .f32) (xbias : Vec F S1x512 .f32) (xo : Vec F S512x512 .f32) (xs : Vec F S512x512 .f32)
    (E : Set ℕ) (K : PUnit → sProp 𝕄) :
    iprop(owns (c : Thread nD τ) arg3 fullShare xa ∗ owns (c : Thread nD τ) arg4 fullShare xb ∗ owns (c : Thread nD τ) arg5 fullShare xbias
        ∗ owns (c : Thread nD τ) arg6 fullShare xo ∗ owns (c : Thread nD τ) arg7 fullShare xs
        ∗ (iprop(owns (c : Thread nD τ) arg3 fullShare xa ∗ owns (c : Thread nD τ) arg4 fullShare xb ∗ owns (c : Thread nD τ) arg5 fullShare xbias
            ∗ owns (c : Thread nD τ) arg6 fullShare xo
            ∗ owns (c : Thread nD τ) arg7 fullShare (k0_pay2 xa xb xs)) -∗ K ⟨⟩))
      ⊢ wp frame (wpE (defs₀ (F := F)) Variants.none c none) E (cc0__matmul_kernel_relu i arg3 harg3 arg4 harg4 arg5 harg5 arg6 harg6 arg7 harg7) K := by
  simp only [cc0__matmul_kernel_relu_eq_skeleton]; unfold cc0__matmul_kernel_relu_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    exact harg6.read_unread _
  · iexists _; isplitr; swap; · iexact H7
    ipureintro
    sl_unfold_words
    simp only [Cert.LibWholeStore.read_writes_whole (S := S512x512) _ _ hz, Cert.LibWholeStore.readCov_whole (S := S512x512) _ hz, View.readAt_eq_ld,
      harg3.read_unread, harg4.read_unread, harg5.read_unread, harg7.read_unread, View.ld_unit_zero (S := S512x2048) hz, View.ld_unit_zero (S := S2048x512) hz,
      View.ld_unit_zero (S := S512x512) hz, View.ld_unit_zero (S := S1x512) hz]

set_option maxHeartbeats 1000000 in
/-- LAST STEP (only the storing guard holds): as a middle step, and the output buffer ends at the closing payload of
    the new accumulator and the bias row. -/
theorem runC (c : Dev nD) (i : grid0.Coords)
    (arg3 : Memref sig .tc .vmem S512x2048 .f32) (harg3 : arg3.IsWhole) (arg4 : Memref sig .tc .vmem S2048x512 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (hc1 : ¬ Scalar.cmpi .ne (Scalar.extui (Scalar.cmpi .eq (BitVec.ofNat 32 (i 2).val) 0#32)) 0#32 = 1#1) (hc2 : k0_cond2 i = 1#1)
    (xa : Vec F S512x2048 .f32) (xb : Vec F S2048x512 .f32) (xbias : Vec F S1x512 .f32) (xo : Vec F S512x512 .f32) (xs : Vec F S512x512 .f32)
    (E : Set ℕ) (K : PUnit → sProp 𝕄) :
    iprop(owns (c : Thread nD τ) arg3 fullShare xa ∗ owns (c : Thread nD τ) arg4 fullShare xb ∗ owns (c : Thread nD τ) arg5 fullShare xbias
        ∗ owns (c : Thread nD τ) arg6 fullShare xo ∗ owns (c : Thread nD τ) arg7 fullShare xs
        ∗ (iprop(owns (c : Thread nD τ) arg3 fullShare xa ∗ owns (c : Thread nD τ) arg4 fullShare xb ∗ owns (c : Thread nD τ) arg5 fullShare xbias
            ∗ owns (c : Thread nD τ) arg6 fullShare (k0_pay3 (k0_pay2 xa xb xs) xbias)
            ∗ owns (c : Thread nD τ) arg7 fullShare (k0_pay2 xa xb xs)) -∗ K ⟨⟩))
      ⊢ wp frame (wpE (defs₀ (F := F)) Variants.none c none) E (cc0__matmul_kernel_relu i arg3 harg3 arg4 harg4 arg5 harg5 arg6 harg6 arg7 harg7) K := by
  simp only [cc0__matmul_kernel_relu_eq_skeleton]; unfold cc0__matmul_kernel_relu_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    simp only [Cert.LibWholeStore.read_writes_whole (S := S512x512) _ _ hz, Cert.LibWholeStore.readCov_whole (S := S512x512) _ hz, View.readAt_eq_ld,
      harg3.read_unread, harg4.read_unread, harg5.read_unread, harg7.read_unread, View.ld_unit_zero (S := S512x2048) hz, View.ld_unit_zero (S := S2048x512) hz,
      View.ld_unit_zero (S := S512x512) hz, View.ld_unit_zero (S := S1x512) hz]
  · iexists _; isplitr; swap; · iexact H7
    ipureintro
    sl_unfold_words
    simp only [Cert.LibWholeStore.read_writes_whole (S := S512x512) _ _ hz, Cert.LibWholeStore.readCov_whole (S := S512x512) _ hz, View.readAt_eq_ld,
      harg3.read_unread, harg4.read_unread, harg5.read_unread, harg7.read_unread, View.ld_unit_zero (S := S512x2048) hz, View.ld_unit_zero (S := S2048x512) hz,
      View.ld_unit_zero (S := S512x512) hz, View.ld_unit_zero (S := S1x512) hz]

/-! ## The proof data, at the contents the region is entered with -/

variable (V : (c : Dev nD) → (b : Ref sig .tc) → Buf (Elt F) ((c : Thread nD τ).loc b))

/-- Window w's block of its array at grid point t. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid point numbered n (numbers past the grid wrap; only n < 64 is ever used). -/
def ptOf (n : ℕ) : Fin cfg0.N := ⟨n % 64, Nat.mod_lt _ (by decide)⟩

theorem ptOf_val (t : Fin cfg0.N) : ptOf t.val = t := Fin.ext (Nat.mod_eq_of_lt t.isLt)

/-- What the accumulator holds after point n: the block product of point n added to zero at a first step, and to what
    point n − 1 left otherwise. -/
def accAt (c : Dev nD) : ℕ → Vec F S512x512 .f32
  | 0 => k0_pay2 (iblk V c 0 (ptOf 0)) (iblk V c 1 (ptOf 0)) k0_pay1
  | n + 1 => k0_pay2 (iblk V c 0 (ptOf (n + 1))) (iblk V c 1 (ptOf (n + 1))) (if (n + 1) % 4 = 0 then k0_pay1 else accAt c n)

theorem accAt_first (c : Dev nD) (n : ℕ) (h : n % 4 = 0) :
    accAt V c n = k0_pay2 (iblk V c 0 (ptOf n)) (iblk V c 1 (ptOf n)) k0_pay1 := by
  cases n with
  | zero => rfl
  | succ k =>
    show k0_pay2 _ _ (if (k + 1) % 4 = 0 then k0_pay1 else accAt V c k) = _
    rw [if_pos h]

theorem accAt_next (c : Dev nD) (n : ℕ) (h : n % 4 ≠ 0) :
    accAt V c n = k0_pay2 (iblk V c 0 (ptOf n)) (iblk V c 1 (ptOf n)) (accAt V c (n - 1)) := by
  cases n with
  | zero => exact absurd rfl h
  | succ k =>
    show k0_pay2 _ _ (if (k + 1) % 4 = 0 then k0_pay1 else accAt V c k) = _
    rw [if_neg h]; rfl

/-- The output block a last step stores: the closing payload of the accumulator after that point and the bias row. -/
def outBlk (c : Dev nD) (t : Fin cfg0.N) : Vec F S512x512 .f32 := k0_pay3 (accAt V c t.val) (iblk V c 2 t)

/-- The scoped buffers other than the accumulator, at some contents. -/
abbrev restBut (c : Dev nD) : sProp 𝕄 :=
  Pipeline.scopedRestBut (Ix := Unit) (Name := ℕ) (U := UR sig nD τ) (Lvl := ℕ) (Val := Elt F) spec0 c [cc0_scratch0]

/-- Between points: the accumulator at what the point before left (at anything before the first point), and the other
    scoped buffers. -/
def Φt (c : Dev nD) (t : Fin (cfg0.N + 1)) : sProp 𝕄 :=
  iprop((∃ f : Buf (Elt F) ((c : Thread nD τ).loc cc0_scratch0), ⌜t.val ≠ 0 → f = accAt V c (t.val - 1)⌝
      ∗ owns (c : Thread nD τ) (Memref.whole cc0_scratch0) fullShare f) ∗ restBut c)

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outBlk V c t
  Φ t := Φt V c t
  q _ := fullShare
  owed _ := 0

theorem A_eq (c : Dev nD) (w : Fin cfg0.W) : (dat V c).A w = V c (Pipeline.arrRef spec0 w) := by dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = outBlk V c t := by dsimp only [dat]

/-- An input window's buffer holds its block at every point, fetched there or not. -/
theorem before0 (c : Dev nD) (t : Fin cfg0.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-! ## The guards over the grid: the step along the contracted axis is t % 4 -/

theorem guard1 : ∀ t : Fin cfg0.N,
    Scalar.cmpi .ne (Scalar.extui (Scalar.cmpi .eq (BitVec.ofNat 32 ((grid0.coords t) 2).val) 0#32)) 0#32 = 1#1 ↔ t.val % 4 = 0 := by
  decide +kernel
theorem guard2 : ∀ t : Fin cfg0.N, k0_cond2 (grid0.coords t) = 1#1 ↔ t.val % 4 = 3 := by decide +kernel
/-- The output window is idle, and not written back, at every point but a last step. -/
theorem idle3 : ∀ t : Fin cfg0.N, t.val % 4 ≠ 3 → idle0 3 (grid0.coords t) = true := by decide +kernel
theorem live3 : ∀ t : Fin cfg0.N, t.val % 4 = 3 → idle0 3 (grid0.coords t) = false := by decide +kernel
theorem noflush3 : ∀ t : Fin cfg0.N, t.val % 4 ≠ 3 → (win0 3).flush t = false := by decide +kernel

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- What the body returns at a point that is no last step: the output window's buffer as it was handed over. -/
def bodyPostIdle (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ (∃ d, owns (c : Thread nD τ) (st0_3 t) fullShare ((dat V c).before 3 t d)))

/-- What it returns at a last step: the output window's buffer at the stored block. -/
def bodyPostLive (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem succ_val_sub (t : Fin cfg0.N) : t.succ.val - 1 = t.val := by simp

theorem sound_bodyA (c : Dev nD) (t : Fin cfg0.N) (h0 : t.val % 4 = 0) :
    bodyPre V c t ⊢ wp frame (wpE (defs₀ (F := F)) Variants.none c none) Set.univ (bodyAt0 t) (fun _ => bodyPostIdle V c t) := by
  unfold bodyPre bodyPostIdle bodyAt0
  simp only [before0, before1, before2]
  rw [show (dat V c).Φ t.succ = Φt V c t.succ from rfl, show (dat V c).Φ t.castSucc = Φt V c t.castSucc from rfl,
    show (dat V c).owesAt () t.succ = (dat V c).owesAt () t.castSucc from rfl, after0, after1, after2]
  unfold Φt
  iintro ⟨⟨⟨%fs, -, HS⟩, HR⟩, Ho, ⟨%d0, H0⟩, ⟨%d1, H1⟩, ⟨%d2, H2⟩, ⟨%d3, H3⟩⟩
  iapply (runA c (grid0.coords t) _ _ _ _ _ _ _ _ _ _ ((guard1 t).2 h0) (fun h => by have := (guard2 t).1 h; omega)
    (iblk V c 0 t) (iblk V c 1 t) (iblk V c 2 t) _ fs Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; isplitr; swap; · iexact HS
      ipureintro; intro _
      rw [succ_val_sub, accAt_first V c t.val h0, ptOf_val]
    iexact HR
  isplitl [Ho]; · iexact Ho
  isplitl [H0]; · iexact H0
  isplitl [H1]; · iexact H1
  isplitl [H2]; · iexact H2
  iexists _; iexact H3

theorem sound_bodyB (c : Dev nD) (t : Fin cfg0.N) (h0 : t.val % 4 ≠ 0) (h3 : t.val % 4 ≠ 3) :
    bodyPre V c t ⊢ wp frame (wpE (defs₀ (F := F)) Variants.none c none) Set.univ (bodyAt0 t) (fun _ => bodyPostIdle V c t) := by
  unfold bodyPre bodyPostIdle bodyAt0
  simp only [before0, before1, before2]
  rw [show (dat V c).Φ t.succ = Φt V c t.succ from rfl, show (dat V c).Φ t.castSucc = Φt V c t.castSucc from rfl,
    show (dat V c).owesAt () t.succ = (dat V c).owesAt () t.castSucc from rfl, after0, after1, after2]
  unfold Φt
  iintro ⟨⟨⟨%fs, %hfs, HS⟩, HR⟩, Ho, ⟨%d0, H0⟩, ⟨%d1, H1⟩, ⟨%d2, H2⟩, ⟨%d3, H3⟩⟩
  have hfs' : fs = accAt V c (t.val - 1) := hfs (by show t.val ≠ 0; omega)
  subst hfs'
  iapply (runB c (grid0.coords t) _ _ _ _ _ _ _ _ _ _ (fun h => h0 ((guard1 t).1 h)) (fun h => h3 ((guard2 t).1 h))
    (iblk V c 0 t) (iblk V c 1 t) (iblk V c 2 t) _ (accAt V c (t.val - 1)) Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; isplitr; swap; · iexact HS
      ipureintro; intro _
      rw [succ_val_sub, accAt_next V c t.val h0, ptOf_val]
    iexact HR
  isplitl [Ho]; · iexact Ho
  isplitl [H0]; · iexact H0
  isplitl [H1]; · iexact H1
  isplitl [H2]; · iexact H2
  iexists _; iexact H3

theorem sound_bodyC (c : Dev nD) (t : Fin cfg0.N) (h3 : t.val % 4 = 3) :
    bodyPre V c t ⊢ wp frame (wpE (defs₀ (F := F)) Variants.none c none) Set.univ (bodyAt0 t) (fun _ => bodyPostLive V c t) := by
  unfold bodyPre bodyPostLive bodyAt0
  simp only [before0, before1, before2]
  rw [show (dat V c).Φ t.succ = Φt V c t.succ from rfl, show (dat V c).Φ t.castSucc = Φt V c t.castSucc from rfl,
    show (dat V c).owesAt () t.succ = (dat V c).owesAt () t.castSucc from rfl, after0, after1, after2, after3]
  unfold Φt
  iintro ⟨⟨⟨%fs, %hfs, HS⟩, HR⟩, Ho, ⟨%d0, H0⟩, ⟨%d1, H1⟩, ⟨%d2, H2⟩, ⟨%d3, H3⟩⟩
  have hfs' : fs = accAt V c (t.val - 1) := hfs (by show t.val ≠ 0; omega)
  subst hfs'
  have hacc : k0_pay2 (iblk V c 0 t) (iblk V c 1 t) (accAt V c (t.val - 1)) = accAt V c t.val := by
    rw [accAt_next V c t.val (by omega), ptOf_val]
  iapply (runC c (grid0.coords t) _ _ _ _ _ _ _ _ _ _ (fun h => by have := (guard1 t).1 h; omega) ((guard2 t).2 h3)
    (iblk V c 0 t) (iblk V c 1 t) (iblk V c 2 t) _ (accAt V c (t.val - 1)) Set.univ _)
  isplitl [H0]; · iexact H0
  isplitl [H1]; · iexact H1
  isplitl [H2]; · iexact H2
  isplitl [H3]; · iexact H3
  isplitl [HS]; · iexact HS
  rw [hacc]
  iintro ⟨H0, H1, H2, H3, HS⟩
  isplitl [HS HR]
  · isplitl [HS]
    · iexists _; isplitr; swap; · iexact HS
      ipureintro; intro _
      rw [succ_val_sub]
    iexact HR
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W0, bigSep_W0]
  by_cases h3 : t.val % 4 = 3
  · simp only [live3 t h3]
    exact sound_bodyC V c t h3
  · simp only [idle3 t h3, noflush3 t h3]
    by_cases h0 : t.val % 4 = 0
    · exact sound_bodyA V c t h0
    · exact sound_bodyB V c t h0 h3

/-! ## Into and out of the region -/

/-- The accumulator taken out of the scoped rest. -/
theorem rest_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), owns (c : Thread nD τ) (Memref.whole cc0_scratch0) fullShare f)
          ∗ restBut c) := by
  simp only [owns_whole]
  exact Pipeline.scopedRest_split_of_list spec0 c [cc0_scratch0] (by decide) (by decide)

/-- Before the first point the accumulator is one of the scoped buffers at some contents. -/
theorem Φ_in (c : Dev nD) :
    (Pipeline.scopedRest (Ix := Unit) (Name := ℕ) (U := UR sig nD τ) (Lvl := ℕ) (Val := Elt F) spec0 c : sProp 𝕄) ⊢ (dat V c).Φ 0 := by
  rw [show (dat V c).Φ 0 = Φt V c 0 from rfl, rest_split]
  unfold Φt
  iintro ⟨⟨%f, HS⟩, HR⟩
  isplitl [HS]
  · iexists f; isplitr; · ipureintro; intro h; exact absurd rfl h
    iexact HS
  iexact HR

/-- After the last point what the accumulator holds is forgotten again. -/
theorem Φ_out (c : Dev nD) :
    (dat V c).Φ (Fin.last cfg0.N) ⊢ (Pipeline.scopedRest (Ix := Unit) (Name := ℕ) (U := UR sig nD τ) (Lvl := ℕ) (Val := Elt F) spec0 c : sProp 𝕄) := by
  rw [show (dat V c).Φ (Fin.last cfg0.N) = Φt V c (Fin.last cfg0.N) from rfl, rest_split]
  unfold Φt
  iintro ⟨⟨%f, -, HS⟩, HR⟩
  isplitl [HS]
  · iexists f; iexact HS
  iexact HR

end Cert.Kernel.Reg0

end
-- ==== Proof.BRegion1.lean ====
/-
  The second matrix product, h · W2 + 0, as the pipeline runs it: sixteen grid points, one per block of 512 rows of
  h.  There is a single step along the contracted axis, so at every point the body clears its accumulator, adds the
  block product to it, and stores accumulator + bias row into the output block.  Nothing is carried from one point to
  the next: the accumulator is a scratch buffer whose contents no later point reads before clearing it.

  Below: the body run on whole staging buffers (what each buffer holds afterwards, as the body's own payload terms of
  the input blocks), the proof data (each input window's buffer holds its block of the array, the output window's the
  block product plus bias), and the body obligation at a generic grid point.
-/
import proofs.«100943_j2456721293623_1_alg».proof.Proof.Gen.Kernel.Launch
import proofs.«100943_j2456721293623_1_alg».proof.Proof.Gen.Kernel.Points
import proofs.«100943_j2456721293623_1_alg».proof.Proof.Gen.Kernel.Skeleton
import proofs.«100943_j2456721293623_1_alg».proof.Proof.LibWholeStore
import Idealize.ShloMosaic.Lib.Pipeline.Regions
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access. -/
theorem hz : ((![0, 0] : Fin 2 → ℕ)) = fun _ => 0 := by funext a; fin_cases a <;> rfl

set_option maxHeartbeats 1000000 in
/-- The body at a point where both guards hold (the first and the last step along the contracted axis coincide): from
    the three input buffers at xa, xb, xbias, the output buffer and the accumulator at anything, it ends with the inputs
    as they were, the accumulator at the block product added to zero, and the output buffer at that plus the bias row. -/
theorem run (c : Dev nD) (i : grid1.Coords)
    (arg3 : Memref sig .tc .vmem S512x512 .f32) (harg3 : arg3.IsWhole) (arg4 : Memref sig .tc .vmem S512x128 .f32) (harg4 : arg4.IsWhole)
    (arg5 : Memref sig .tc .vmem S1x128 .f32) (harg5 : arg5.IsWhole) (arg6 : Memref sig .tc .vmem S512x128 .f32) (harg6 : arg6.IsWhole)
    (arg7 : Memref sig .tc .vmem S512x128 .f32) (harg7 : arg7.IsWhole)
    (hc1 : Scalar.cmpi .ne (Scalar.extui (Scalar.cmpi .eq (BitVec.ofNat 32 (i 2).val) 0#32)) 0#32 = 1#1) (hc2 : k1_cond2 i = 1#1)
    (xa : Vec F S512x512 .f32) (xb : Vec F S512x128 .f32) (xbias : Vec F S1x128 .f32) (xo : Vec F S512x128 .f32) (xs : Vec F S512x128 .f32)
    (E : Set ℕ) (K : PUnit → sProp 𝕄) :
    iprop(owns (c : Thread nD τ) arg3 fullShare xa ∗ owns (c : Thread nD τ) arg4 fullShare xb ∗ owns (c : Thread nD τ) arg5 fullShare xbias
        ∗ owns (c : Thread nD τ) arg6 fullShare xo ∗ owns (c : Thread nD τ) arg7 fullShare xs
        ∗ (iprop(owns (c : Thread nD τ) arg3 fullShare xa ∗ owns (c : Thread nD τ) arg4 fullShare xb ∗ owns (c : Thread nD τ) arg5 fullShare xbias
            ∗ owns (c : Thread nD τ) arg6 fullShare (k1_pay3 (k1_pay2 xa xb k1_pay1) xbias)
            ∗ owns (c : Thread nD τ) arg7 fullShare (k1_pay2 xa xb k1_pay1)) -∗ K ⟨⟩))
      ⊢ wp frame (wpE (defs₀ (F := F)) Variants.none c none) E (cc1__matmul_kernel_plain i arg3 harg3 arg4 harg4 arg5 harg5 arg6 harg6 arg7 harg7) K := by
  simp only [cc1__matmul_kernel_plain_eq_skeleton]; unfold cc1__matmul_kernel_plain_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    simp only [Cert.LibWholeStore.read_writes_whole (S := S512x128) _ _ hz, Cert.LibWholeStore.readCov_whole (S := S512x128) _ hz, View.readAt_eq_ld,
      harg3.read_unread, harg4.read_unread, harg5.read_unread, View.ld_unit_zero (S := S512x512) hz, View.ld_unit_zero (S := S512x128) hz, View.ld_unit_zero (S := S1x128) hz]
  · iexists _; isplitr; swap; · iexact H7
    ipureintro
    sl_unfold_words
    simp only [Cert.LibWholeStore.read_writes_whole (S := S512x128) _ _ hz, Cert.LibWholeStore.readCov_whole (S := S512x128) _ hz, View.readAt_eq_ld,
      harg3.read_unread, harg4.read_unread, harg5.read_unread, View.ld_unit_zero (S := S512x512) hz, View.ld_unit_zero (S := S512x128) hz, View.ld_unit_zero (S := S1x128) hz]

/-! ## The proof data, at the contents the region is entered with -/

variable (V : (c : Dev nD) → (b : Ref sig .tc) → Buf (Elt F) ((c : Thread nD τ).loc b))

/-- Window w's block of its array at grid point t. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block at point t: the block product added to zero, plus the bias row. -/
def outBlk (c : Dev nD) (t : Fin cfg1.N) : Vec F S512x128 .f32 :=
  k1_pay3 (k1_pay2 (iblk V c 0 t) (iblk V c 1 t) k1_pay1) (iblk V c 2 t)

/-- Between points the body keeps nothing it relies on: every scoped buffer that is no staging buffer, the
    accumulator among them, at some contents. -/
abbrev Φc (c : Dev nD) : sProp 𝕄 :=
  Pipeline.scopedRest (Ix := Unit) (Name := ℕ) (U := UR sig nD τ) (Lvl := ℕ) (Val := Elt F) spec1 c

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outBlk V c t
  Φ _ := Φc c
  q _ := fullShare
  owed _ := 0

theorem A_eq (c : Dev nD) (w : Fin cfg1.W) : (dat V c).A w = V c (Pipeline.arrRef spec1 w) := by dsimp only [dat]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = outBlk V c t := by dsimp only [dat]

/-- An input window's buffer holds its block at every point, fetched there or not (unfetched, the block index has not
    moved since the point that fetched it). -/
theorem before0 (c : Dev nD) (t : Fin cfg1.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-! ## The guards over the grid -/

/-- The contracted axis has one step: its coordinate is 0 at every point, so both guards hold everywhere and the
    output window is written at every point. -/
theorem guard1 : ∀ t : Fin cfg1.N,
    Scalar.cmpi .ne (Scalar.extui (Scalar.cmpi .eq (BitVec.ofNat 32 ((grid1.coords t) 2).val) 0#32)) 0#32 = 1#1 := by decide +kernel
theorem guard2 : ∀ t : Fin cfg1.N, k1_cond2 (grid1.coords t) = 1#1 := by decide +kernel
theorem live3 : ∀ t : Fin cfg1.N, idle1 3 (grid1.coords t) = false := by decide +kernel

/-! ## The body obligation -/

/-- The accumulator taken out of the scoped rest, and put back. -/
theorem rest_split (c : Dev nD) :
    (Φc (F := F) c : sProp 𝕄)
      = iprop((∃ f : Buf (Elt F) ((c : Thread nD τ).loc cc1_scratch0), owns (c : Thread nD τ) (Memref.whole cc1_scratch0) fullShare f)
          ∗ Pipeline.scopedRestBut (Ix := Unit) (Name := ℕ) (U := UR sig nD τ) (Lvl := ℕ) (Val := Elt F) spec1 c [cc1_scratch0]) := by
  simp only [owns_whole]
  exact Pipeline.scopedRest_split_of_list spec1 c [cc1_scratch0] (by decide) (by decide)

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).Φ t.succ = Φc c from rfl, show (dat V c).Φ t.castSucc = Φc c from rfl,
    show (dat V c).owesAt () t.succ = (dat V c).owesAt () t.castSucc from rfl,
    after0, after1, after2, after3, rest_split]
  iintro ⟨⟨⟨%fs, HS⟩, HR⟩, Ho, ⟨%d0, H0⟩, ⟨%d1, H1⟩, ⟨%d2, H2⟩, ⟨%d3, H3⟩⟩
  iapply (run c (grid1.coords t) _ _ _ _ _ _ _ _ _ _ (guard1 t) (guard2 t) (iblk V c 0 t) (iblk V c 1 t) (iblk V c 2 t) _ fs Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; iexact HS
    iexact HR
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W1, bigSep_W1]
  simp only [live3 t]
  exact sound_body V c t

/-! ## Into and out of the region -/

/-- The invariant is the scoped rest itself, at both ends. -/
theorem Φ_in (c : Dev nD) :
    (Pipeline.scopedRest (Ix := Unit) (Name := ℕ) (U := UR sig nD τ) (Lvl := ℕ) (Val := Elt F) spec1 c : sProp 𝕄) ⊢ (dat V c).Φ 0 := .rfl
theorem Φ_out (c : Dev nD) :
    (dat V c).Φ (Fin.last cfg1.N) ⊢ (Pipeline.scopedRest (Ix := Unit) (Name := ℕ) (U := UR sig nD τ) (Lvl := ℕ) (Val := Elt F) spec1 c : sProp 𝕄) := .rfl

end Cert.Kernel.Reg1

end
-- ==== Proof.BRegion2.lean ====
/-
  A matrix product A · B + bias as the pipeline runs it (the first of the program's products also rectifies the sum): a grid of 16 × 1 × 4 points,
  point t standing for the block of 512 rows t / 4 and the step t % 4 along the contracted axis, 2048 columns of A at a
  time.  At step 0 the body clears its accumulator; at every step it adds the product of the two blocks to it; at step 3
  it stores the kernel's closing payload of the accumulator and the bias row (their sum, rectified in the first product) into the output block, which the pipeline writes back after that point
  and at no other.  So the accumulator IS carried from a point to the next: after point t it holds the sum of the
  block products of the steps 0 … t % 4 of t's row block, and the invariant between points says exactly that.

  Below: the body run on whole staging buffers in its three cases (first step, a middle step, last step), what the
  accumulator holds after each point (by recursion on the point), the proof data, and the body obligation at a generic
  point by cases on t % 4.
-/
import proofs.«100943_j2456721293623_1_alg».proof.Proof.Gen.Kernel.Launch
import proofs.«100943_j2456721293623_1_alg».proof.Proof.Gen.Kernel.Points
import proofs.«100943_j2456721293623_1_alg».proof.Proof.Gen.Kernel.Skeleton
import proofs.«100943_j2456721293623_1_alg».proof.Proof.LibWholeStore
import Idealize.ShloMosaic.Lib.Pipeline.Regions
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access. -/
theorem hz : ((![0, 0] : Fin 2 → ℕ)) = fun _ => 0 := by funext a; fin_cases a <;> rfl

/-! ## The body on whole buffers, case by case -/

set_option maxHeartbeats 1000000 in
/-- FIRST STEP (the clearing guard holds, the storing guard does not): the accumulator, whatever it held, ends at the
    block product added to zero; the output buffer is not touched. -/
theorem runA (c : Dev nD) (i : grid2.Coords)
    (arg3 : Memref sig .tc .vmem S512x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S512x128 .f32) (harg6 : arg6.IsWhole)
    (arg7 : Memref sig .tc .vmem S512x128 .f32) (harg7 : arg7.IsWhole)
    (hc1 : Scalar.cmpi .ne (Scalar.extui (Scalar.cmpi .eq (BitVec.ofNat 32 (i 2).val) 0#32)) 0#32 = 1#1) (hc2 : ¬ k2_cond2 i = 1#1)
    (xa : Vec F S512x2048 .f32) (xb : Vec F S2048x128 .f32) (xbias : Vec F S1x128 .f32) (xo : Vec F S512x128 .f32) (xs : Vec F S512x128 .f32)
    (E : Set ℕ) (K : PUnit → sProp 𝕄) :
    iprop(owns (c : Thread nD τ) arg3 fullShare xa ∗ owns (c : Thread nD τ) arg4 fullShare xb ∗ owns (c : Thread nD τ) arg5 fullShare xbias
        ∗ owns (c : Thread nD τ) arg6 fullShare xo ∗ owns (c : Thread nD τ) arg7 fullShare xs
        ∗ (iprop(owns (c : Thread nD τ) arg3 fullShare xa ∗ owns (c : Thread nD τ) arg4 fullShare xb ∗ owns (c : Thread nD τ) arg5 fullShare xbias
            ∗ owns (c : Thread nD τ) arg6 fullShare xo
            ∗ owns (c : Thread nD τ) arg7 fullShare (k2_pay2 xa xb k2_pay1)) -∗ K ⟨⟩))
      ⊢ wp frame (wpE (defs₀ (F := F)) Variants.none c none) E (cc2__matmul_kernel_plain i arg3 harg3 arg4 harg4 arg5 harg5 arg6 harg6 arg7 harg7) K := by
  simp only [cc2__matmul_kernel_plain_eq_skeleton]; unfold cc2__matmul_kernel_plain_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    exact harg6.read_unread _
  · iexists _; isplitr; swap; · iexact H7
    ipureintro
    sl_unfold_words
    simp only [Cert.LibWholeStore.read_writes_whole (S := S512x128) _ _ hz, Cert.LibWholeStore.readCov_whole (S := S512x128) _ hz, View.readAt_eq_ld,
      harg3.read_unread, harg4.read_unread, harg5.read_unread, harg7.read_unread, View.ld_unit_zero (S := S512x2048) hz, View.ld_unit_zero (S := S2048x128) hz,
      View.ld_unit_zero (S := S512x128) hz, View.ld_unit_zero (S := S1x128) hz]

set_option maxHeartbeats 1000000 in
/-- A MIDDLE STEP (neither guard holds): the accumulator ends at the block product added to what it held. -/
theorem runB (c : Dev nD) (i : grid2.Coords)
    (arg3 : Memref sig .tc .vmem S512x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S512x128 .f32) (harg6 : arg6.IsWhole)
    (arg7 : Memref sig .tc .vmem S512x128 .f32) (harg7 : arg7.IsWhole)
    (hc1 : ¬ Scalar.cmpi .ne (Scalar.extui (Scalar.cmpi .eq (BitVec.ofNat 32 (i 2).val) 0#32)) 0#32 = 1#1) (hc2 : ¬ k2_cond2 i = 1#1)
    (xa : Vec F S512x2048 .f32) (xb : Vec F S2048x128 .f32) (xbias : Vec F S1x128 .f32) (xo : Vec F S512x128 .f32) (xs : Vec F S512x128 .f32)
    (E : Set ℕ) (K : PUnit → sProp 𝕄) :
    iprop(owns (c : Thread nD τ) arg3 fullShare xa ∗ owns (c : Thread nD τ) arg4 fullShare xb ∗ owns (c : Thread nD τ) arg5 fullShare xbias
        ∗ owns (c : Thread nD τ) arg6 fullShare xo ∗ owns (c : Thread nD τ) arg7 fullShare xs
        ∗ (iprop(owns (c : Thread nD τ) arg3 fullShare xa ∗ owns (c : Thread nD τ) arg4 fullShare xb ∗ owns (c : Thread nD τ) arg5 fullShare xbias
            ∗ owns (c : Thread nD τ) arg6 fullShare xo
            ∗ owns (c : Thread nD τ) arg7 fullShare (k2_pay2 xa xb xs)) -∗ K ⟨⟩))
      ⊢ wp frame (wpE (defs₀ (F := F)) Variants.none c none) E (cc2__matmul_kernel_plain i arg3 harg3 arg4 harg4 arg5 harg5 arg6 harg6 arg7 harg7) K := by
  simp only [cc2__matmul_kernel_plain_eq_skeleton]; unfold cc2__matmul_kernel_plain_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    exact harg6.read_unread _
  · iexists _; isplitr; swap; · iexact H7
    ipureintro
    sl_unfold_words
    simp only [Cert.LibWholeStore.read_writes_whole (S := S512x128) _ _ hz, Cert.LibWholeStore.readCov_whole (S := S512x128) _ hz, View.readAt_eq_ld,
      harg3.read_unread, harg4.read_unread, harg5.read_unread, harg7.read_unread, View.ld_unit_zero (S := S512x2048) hz, View.ld_unit_zero (S := S2048x128) hz,
      View.ld_unit_zero (S := S512x128) hz, View.ld_unit_zero (S := S1x128) hz]

set_option maxHeartbeats 1000000 in
/-- LAST STEP (only the storing guard holds): as a middle step, and the output buffer ends at the closing payload of
    the new accumulator and the bias row. -/
theorem runC (c : Dev nD) (i : grid2.Coords)
    (arg3 : Memref sig .tc .vmem S512x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S512x128 .f32) (harg6 : arg6.IsWhole)
    (arg7 : Memref sig .tc .vmem S512x128 .f32) (harg7 : arg7.IsWhole)
    (hc1 : ¬ Scalar.cmpi .ne (Scalar.extui (Scalar.cmpi .eq (BitVec.ofNat 32 (i 2).val) 0#32)) 0#32 = 1#1) (hc2 : k2_cond2 i = 1#1)
    (xa : Vec F S512x2048 .f32) (xb : Vec F S2048x128 .f32) (xbias : Vec F S1x128 .f32) (xo : Vec F S512x128 .f32) (xs : Vec F S512x128 .f32)
    (E : Set ℕ) (K : PUnit → sProp 𝕄) :
    iprop(owns (c : Thread nD τ) arg3 fullShare xa ∗ owns (c : Thread nD τ) arg4 fullShare xb ∗ owns (c : Thread nD τ) arg5 fullShare xbias
        ∗ owns (c : Thread nD τ) arg6 fullShare xo ∗ owns (c : Thread nD τ) arg7 fullShare xs
        ∗ (iprop(owns (c : Thread nD τ) arg3 fullShare xa ∗ owns (c : Thread nD τ) arg4 fullShare xb ∗ owns (c : Thread nD τ) arg5 fullShare xbias
            ∗ owns (c : Thread nD τ) arg6 fullShare (k2_pay3 (k2_pay2 xa xb xs) xbias)
            ∗ owns (c : Thread nD τ) arg7 fullShare (k2_pay2 xa xb xs)) -∗ K ⟨⟩))
      ⊢ wp frame (wpE (defs₀ (F := F)) Variants.none c none) E (cc2__matmul_kernel_plain i arg3 harg3 arg4 harg4 arg5 harg5 arg6 harg6 arg7 harg7) K := by
  simp only [cc2__matmul_kernel_plain_eq_skeleton]; unfold cc2__matmul_kernel_plain_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    simp only [Cert.LibWholeStore.read_writes_whole (S := S512x128) _ _ hz, Cert.LibWholeStore.readCov_whole (S := S512x128) _ hz, View.readAt_eq_ld,
      harg3.read_unread, harg4.read_unread, harg5.read_unread, harg7.read_unread, View.ld_unit_zero (S := S512x2048) hz, View.ld_unit_zero (S := S2048x128) hz,
      View.ld_unit_zero (S := S512x128) hz, View.ld_unit_zero (S := S1x128) hz]
  · iexists _; isplitr; swap; · iexact H7
    ipureintro
    sl_unfold_words
    simp only [Cert.LibWholeStore.read_writes_whole (S := S512x128) _ _ hz, Cert.LibWholeStore.readCov_whole (S := S512x128) _ hz, View.readAt_eq_ld,
      harg3.read_unread, harg4.read_unread, harg5.read_unread, harg7.read_unread, View.ld_unit_zero (S := S512x2048) hz, View.ld_unit_zero (S := S2048x128) hz,
      View.ld_unit_zero (S := S512x128) hz, View.ld_unit_zero (S := S1x128) hz]

/-! ## The proof data, at the contents the region is entered with -/

variable (V : (c : Dev nD) → (b : Ref sig .tc) → Buf (Elt F) ((c : Thread nD τ).loc b))

/-- Window w's block of its array at grid point t. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The grid point numbered n (numbers past the grid wrap; only n < 64 is ever used). -/
def ptOf (n : ℕ) : Fin cfg2.N := ⟨n % 64, Nat.mod_lt _ (by decide)⟩

theorem ptOf_val (t : Fin cfg2.N) : ptOf t.val = t := Fin.ext (Nat.mod_eq_of_lt t.isLt)

/-- What the accumulator holds after point n: the block product of point n added to zero at a first step, and to what
    point n − 1 left otherwise. -/
def accAt (c : Dev nD) : ℕ → Vec F S512x128 .f32
  | 0 => k2_pay2 (iblk V c 0 (ptOf 0)) (iblk V c 1 (ptOf 0)) k2_pay1
  | n + 1 => k2_pay2 (iblk V c 0 (ptOf (n + 1))) (iblk V c 1 (ptOf (n + 1))) (if (n + 1) % 4 = 0 then k2_pay1 else accAt c n)

theorem accAt_first (c : Dev nD) (n : ℕ) (h : n % 4 = 0) :
    accAt V c n = k2_pay2 (iblk V c 0 (ptOf n)) (iblk V c 1 (ptOf n)) k2_pay1 := by
  cases n with
  | zero => rfl
  | succ k =>
    show k2_pay2 _ _ (if (k + 1) % 4 = 0 then k2_pay1 else accAt V c k) = _
    rw [if_pos h]

theorem accAt_next (c : Dev nD) (n : ℕ) (h : n % 4 ≠ 0) :
    accAt V c n = k2_pay2 (iblk V c 0 (ptOf n)) (iblk V c 1 (ptOf n)) (accAt V c (n - 1)) := by
  cases n with
  | zero => exact absurd rfl h
  | succ k =>
    show k2_pay2 _ _ (if (k + 1) % 4 = 0 then k2_pay1 else accAt V c k) = _
    rw [if_neg h]; rfl

/-- The output block a last step stores: the closing payload of the accumulator after that point and the bias row. -/
def outBlk (c : Dev nD) (t : Fin cfg2.N) : Vec F S512x128 .f32 := k2_pay3 (accAt V c t.val) (iblk V c 2 t)

/-- The scoped buffers other than the accumulator, at some contents. -/
abbrev restBut (c : Dev nD) : sProp 𝕄 :=
  Pipeline.scopedRestBut (Ix := Unit) (Name := ℕ) (U := UR sig nD τ) (Lvl := ℕ) (Val := Elt F) spec2 c [cc2_scratch0]

/-- Between points: the accumulator at what the point before left (at anything before the first point), and the other
    scoped buffers. -/
def Φt (c : Dev nD) (t : Fin (cfg2.N + 1)) : sProp 𝕄 :=
  iprop((∃ f : Buf (Elt F) ((c : Thread nD τ).loc cc2_scratch0), ⌜t.val ≠ 0 → f = accAt V c (t.val - 1)⌝
      ∗ owns (c : Thread nD τ) (Memref.whole cc2_scratch0) fullShare f) ∗ restBut c)

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outBlk V c t
  Φ t := Φt V c t
  q _ := fullShare
  owed _ := 0

theorem A_eq (c : Dev nD) (w : Fin cfg2.W) : (dat V c).A w = V c (Pipeline.arrRef spec2 w) := by dsimp only [dat]
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = outBlk V c t := by dsimp only [dat]

/-- An input window's buffer holds its block at every point, fetched there or not. -/
theorem before0 (c : Dev nD) (t : Fin cfg2.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg2.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg2.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-! ## The guards over the grid: the step along the contracted axis is t % 4 -/

theorem guard1 : ∀ t : Fin cfg2.N,
    Scalar.cmpi .ne (Scalar.extui (Scalar.cmpi .eq (BitVec.ofNat 32 ((grid2.coords t) 2).val) 0#32)) 0#32 = 1#1 ↔ t.val % 4 = 0 := by
  decide +kernel
theorem guard2 : ∀ t : Fin cfg2.N, k2_cond2 (grid2.coords t) = 1#1 ↔ t.val % 4 = 3 := by decide +kernel
/-- The output window is idle, and not written back, at every point but a last step. -/
theorem idle3 : ∀ t : Fin cfg2.N, t.val % 4 ≠ 3 → idle2 3 (grid2.coords t) = true := by decide +kernel
theorem live3 : ∀ t : Fin cfg2.N, t.val % 4 = 3 → idle2 3 (grid2.coords t) = false := by decide +kernel
theorem noflush3 : ∀ t : Fin cfg2.N, t.val % 4 ≠ 3 → (win2 3).flush t = false := by decide +kernel

/-! ## The body obligation -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- What the body returns at a point that is no last step: the output window's buffer as it was handed over. -/
def bodyPostIdle (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ (∃ d, owns (c : Thread nD τ) (st2_3 t) fullShare ((dat V c).before 3 t d)))

/-- What it returns at a last step: the output window's buffer at the stored block. -/
def bodyPostLive (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

theorem succ_val_sub (t : Fin cfg2.N) : t.succ.val - 1 = t.val := by simp

theorem sound_bodyA (c : Dev nD) (t : Fin cfg2.N) (h0 : t.val % 4 = 0) :
    bodyPre V c t ⊢ wp frame (wpE (defs₀ (F := F)) Variants.none c none) Set.univ (bodyAt2 t) (fun _ => bodyPostIdle V c t) := by
  unfold bodyPre bodyPostIdle bodyAt2
  simp only [before0, before1, before2]
  rw [show (dat V c).Φ t.succ = Φt V c t.succ from rfl, show (dat V c).Φ t.castSucc = Φt V c t.castSucc from rfl,
    show (dat V c).owesAt () t.succ = (dat V c).owesAt () t.castSucc from rfl, after0, after1, after2]
  unfold Φt
  iintro ⟨⟨⟨%fs, -, HS⟩, HR⟩, Ho, ⟨%d0, H0⟩, ⟨%d1, H1⟩, ⟨%d2, H2⟩, ⟨%d3, H3⟩⟩
  iapply (runA c (grid2.coords t) _ _ _ _ _ _ _ _ _ _ ((guard1 t).2 h0) (fun h => by have := (guard2 t).1 h; omega)
    (iblk V c 0 t) (iblk V c 1 t) (iblk V c 2 t) _ fs Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; isplitr; swap; · iexact HS
      ipureintro; intro _
      rw [succ_val_sub, accAt_first V c t.val h0, ptOf_val]
    iexact HR
  isplitl [Ho]; · iexact Ho
  isplitl [H0]; · iexact H0
  isplitl [H1]; · iexact H1
  isplitl [H2]; · iexact H2
  iexists _; iexact H3

theorem sound_bodyB (c : Dev nD) (t : Fin cfg2.N) (h0 : t.val % 4 ≠ 0) (h3 : t.val % 4 ≠ 3) :
    bodyPre V c t ⊢ wp frame (wpE (defs₀ (F := F)) Variants.none c none) Set.univ (bodyAt2 t) (fun _ => bodyPostIdle V c t) := by
  unfold bodyPre bodyPostIdle bodyAt2
  simp only [before0, before1, before2]
  rw [show (dat V c).Φ t.succ = Φt V c t.succ from rfl, show (dat V c).Φ t.castSucc = Φt V c t.castSucc from rfl,
    show (dat V c).owesAt () t.succ = (dat V c).owesAt () t.castSucc from rfl, after0, after1, after2]
  unfold Φt
  iintro ⟨⟨⟨%fs, %hfs, HS⟩, HR⟩, Ho, ⟨%d0, H0⟩, ⟨%d1, H1⟩, ⟨%d2, H2⟩, ⟨%d3, H3⟩⟩
  have hfs' : fs = accAt V c (t.val - 1) := hfs (by show t.val ≠ 0; omega)
  subst hfs'
  iapply (runB c (grid2.coords t) _ _ _ _ _ _ _ _ _ _ (fun h => h0 ((guard1 t).1 h)) (fun h => h3 ((guard2 t).1 h))
    (iblk V c 0 t) (iblk V c 1 t) (iblk V c 2 t) _ (accAt V c (t.val - 1)) Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; isplitr; swap; · iexact HS
      ipureintro; intro _
      rw [succ_val_sub, accAt_next V c t.val h0, ptOf_val]
    iexact HR
  isplitl [Ho]; · iexact Ho
  isplitl [H0]; · iexact H0
  isplitl [H1]; · iexact H1
  isplitl [H2]; · iexact H2
  iexists _; iexact H3

theorem sound_bodyC (c : Dev nD) (t : Fin cfg2.N) (h3 : t.val % 4 = 3) :
    bodyPre V c t ⊢ wp frame (wpE (defs₀ (F := F)) Variants.none c none) Set.univ (bodyAt2 t) (fun _ => bodyPostLive V c t) := by
  unfold bodyPre bodyPostLive bodyAt2
  simp only [before0, before1, before2]
  rw [show (dat V c).Φ t.succ = Φt V c t.succ from rfl, show (dat V c).Φ t.castSucc = Φt V c t.castSucc from rfl,
    show (dat V c).owesAt () t.succ = (dat V c).owesAt () t.castSucc from rfl, after0, after1, after2, after3]
  unfold Φt
  iintro ⟨⟨⟨%fs, %hfs, HS⟩, HR⟩, Ho, ⟨%d0, H0⟩, ⟨%d1, H1⟩, ⟨%d2, H2⟩, ⟨%d3, H3⟩⟩
  have hfs' : fs = accAt V c (t.val - 1) := hfs (by show t.val ≠ 0; omega)
  subst hfs'
  have hacc : k2_pay2 (iblk V c 0 t) (iblk V c 1 t) (accAt V c (t.val - 1)) = accAt V c t.val := by
    rw [accAt_next V c t.val (by omega), ptOf_val]
  iapply (runC c (grid2.coords t) _ _ _ _ _ _ _ _ _ _ (fun h => by have := (guard1 t).1 h; omega) ((guard2 t).2 h3)
    (iblk V c 0 t) (iblk V c 1 t) (iblk V c 2 t) _ (accAt V c (t.val - 1)) Set.univ _)
  isplitl [H0]; · iexact H0
  isplitl [H1]; · iexact H1
  isplitl [H2]; · iexact H2
  isplitl [H3]; · iexact H3
  isplitl [HS]; · iexact HS
  rw [hacc]
  iintro ⟨H0, H1, H2, H3, HS⟩
  isplitl [HS HR]
  · isplitl [HS]
    · iexists _; isplitr; swap; · iexact HS
      ipureintro; intro _
      rw [succ_val_sub]
    iexact HR
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W2, bigSep_W2]
  by_cases h3 : t.val % 4 = 3
  · simp only [live3 t h3]
    exact sound_bodyC V c t h3
  · simp only [idle3 t h3, noflush3 t h3]
    by_cases h0 : t.val % 4 = 0
    · exact sound_bodyA V c t h0
    · exact sound_bodyB V c t h0 h3

/-! ## Into and out of the region -/

/-- The accumulator taken out of the scoped rest. -/
theorem rest_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), owns (c : Thread nD τ) (Memref.whole cc2_scratch0) fullShare f)
          ∗ restBut c) := by
  simp only [owns_whole]
  exact Pipeline.scopedRest_split_of_list spec2 c [cc2_scratch0] (by decide) (by decide)

/-- Before the first point the accumulator is one of the scoped buffers at some contents. -/
theorem Φ_in (c : Dev nD) :
    (Pipeline.scopedRest (Ix := Unit) (Name := ℕ) (U := UR sig nD τ) (Lvl := ℕ) (Val := Elt F) spec2 c : sProp 𝕄) ⊢ (dat V c).Φ 0 := by
  rw [show (dat V c).Φ 0 = Φt V c 0 from rfl, rest_split]
  unfold Φt
  iintro ⟨⟨%f, HS⟩, HR⟩
  isplitl [HS]
  · iexists f; isplitr; · ipureintro; intro h; exact absurd rfl h
    iexact HS
  iexact HR

/-- After the last point what the accumulator holds is forgotten again. -/
theorem Φ_out (c : Dev nD) :
    (dat V c).Φ (Fin.last cfg2.N) ⊢ (Pipeline.scopedRest (Ix := Unit) (Name := ℕ) (U := UR sig nD τ) (Lvl := ℕ) (Val := Elt F) spec2 c : sProp 𝕄) := by
  rw [show (dat V c).Φ (Fin.last cfg2.N) = Φt V c (Fin.last cfg2.N) from rfl, rest_split]
  unfold Φt
  iintro ⟨⟨%f, -, HS⟩, HR⟩
  isplitl [HS]
  · iexists f; iexact HS
  iexact HR

end Cert.Kernel.Reg2

end
-- ==== Proof.BKAsm.lean ====
/-
  The three matrix products joined along @main.  Between two items of @main every unscoped buffer of the core holds
  known contents: the launch memory, then each stretch of host operations applied, then, after a product, its output
  array at what the pipeline leaves there (the blocks the last steps stored, written back one row block at a time)
  and every other buffer untouched.  Each product is entered from the contents before it and its proof data are
  stated at those contents, so the first product's output is what the second reads, and the first's left operand and
  the second's output are what the third reads.  The run of @main then ends with every unscoped buffer, the result
  and the six arguments among them, at the last of these contents.
-/
import proofs.«100943_j2456721293623_1_alg».proof.Proof.BRegion0
import proofs.«100943_j2456721293623_1_alg».proof.Proof.BRegion1
import proofs.«100943_j2456721293623_1_alg».proof.Proof.BRegion2
import proofs.«100943_j2456721293623_1_alg».proof.Proof.Gen.Kernel.Regions
import Idealize.ShloMosaic.Lib.Pipeline.RegionsLoop

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents between the products -/

/-- What the first product is entered with, read at the TensorCore's references. -/
abbrev E0 : (c : Dev nD) → (b : Ref sig .tc) → Buf (Elt F) ((c : Thread nD τ).loc b) := fun c b => V3 m c b
/-- The first product's output array when it ends. -/
def X0 (c : Dev nD) : Buf (Elt F) ((c : Thread nD τ).loc main_v48) := (Reg0.dat (E0 m) c).arrAt 3 cfg0.N
/-- The contents after the first product. -/
abbrev W4 (c : Dev nD) : Valuation τ sig (Elt F) := Function.update (V3 m c) main_v48 (X0 m c)
abbrev E1 : (c : Dev nD) → (b : Ref sig .tc) → Buf (Elt F) ((c : Thread nD τ).loc b) := fun c b => W4 m c b
/-- The second product's output array when it ends. -/
def X1 (c : Dev nD) : Buf (Elt F) ((c : Thread nD τ).loc main_v49) := (Reg1.dat (E1 m) c).arrAt 3 cfg1.N
abbrev W5 (c : Dev nD) : Valuation τ sig (Elt F) := Function.update (W4 m c) main_v49 (X1 m c)
abbrev E2 : (c : Dev nD) → (b : Ref sig .tc) → Buf (Elt F) ((c : Thread nD τ).loc b) := fun c b => W5 m c b
/-- The third product's output array when it ends. -/
def X2 (c : Dev nD) : Buf (Elt F) ((c : Thread nD τ).loc main_v50) := (Reg2.dat (E2 m) c).arrAt 3 cfg2.N

/-- What the products leave, as the table of unknowns the host side's valuations are written over. -/
def outs : Outs (F := F) := fun _ r c =>
  if h : r = main_v48 then h ▸ X0 m c
  else if h : r = main_v49 then h ▸ X1 m c
  else if h : r = main_v50 then h ▸ X2 m c
  else V3 m c r

theorem outs48 (c : Dev nD) : outs m 4 main_v48 c = X0 m c := by unfold outs; rw [dif_pos rfl]
theorem outs49 (c : Dev nD) : outs m 5 main_v49 c = X1 m c := by
  unfold outs; rw [dif_neg (by decide), dif_pos rfl]
theorem outs50 (c : Dev nD) : outs m 6 main_v50 c = X2 m c := by
  unfold outs; rw [dif_neg (by decide), dif_neg (by decide), dif_pos rfl]

theorem V4_eq (c : Dev nD) : V4 m (outs m) c = W4 m c := by
  show Function.update (V3 m c) main_v48 (outs m 4 main_v48 c) = _
  rw [outs48]
theorem V5_eq (c : Dev nD) : V5 m (outs m) c = W5 m c := by
  show Function.update (V4 m (outs m) c) main_v49 (outs m 5 main_v49 c) = _
  rw [outs49, V4_eq]

/-- A product changes its output array only. -/
theorem V4_keeps (c : Dev nD) (r : Ref sig .tc) (h : r ∉ ([main_v48] : List (Ref sig .tc))) : V4 m (outs m) c r = V3 m c r :=
  V4_of m (outs m) c r h
theorem V5_keeps (c : Dev nD) (r : Ref sig .tc) (h : r ∉ ([main_v49] : List (Ref sig .tc))) : V5 m (outs m) c r = V4 m (outs m) c r :=
  V5_of m (outs m) c r h
theorem V6_keeps (c : Dev nD) (r : Ref sig .tc) (h : r ∉ ([main_v50] : List (Ref sig .tc))) : V6 m (outs m) c r = V5 m (outs m) c r :=
  V6_of m (outs m) c r h
theorem V4_out (c : Dev nD) : V4 m (outs m) c main_v48 = (Reg0.dat (E0 m) c).arrAt 3 cfg0.N := by
  show Function.update (V3 m c) main_v48 (outs m 4 main_v48 c) main_v48 = _
  rw [Function.update_self, outs48]; rfl
theorem V5_out (c : Dev nD) : V5 m (outs m) c main_v49 = (Reg1.dat (E1 m) c).arrAt 3 cfg1.N := by
  show Function.update (V4 m (outs m) c) main_v49 (outs m 5 main_v49 c) main_v49 = _
  rw [Function.update_self, outs49]; rfl
theorem V6_out (c : Dev nD) : V6 m (outs m) c main_v50 = (Reg2.dat (E2 m) c).arrAt 3 cfg2.N := by
  show Function.update (V5 m (outs m) c) main_v50 (outs m 6 main_v50 c) main_v50 = _
  rw [Function.update_self, outs50]; rfl

/-! ## The proof data family and what rides along -/

/-- Every product's proof data, each at the contents it is entered with. -/
def pdats : (p : Fin 3) → (c : Dev nD) → Dat τ (Elt F) Unit ℕ (UR sig nD τ) ℕ (Pipeline.pin (pcfgs (F := F)) adm p) c
  | ⟨0, _⟩ => fun c => Reg0.dat (E0 m) c
  | ⟨1, _⟩ => fun c => Reg1.dat (E1 m) c
  | ⟨2, _⟩ => fun c => Reg2.dat (E2 m) c

abbrev 𝒱₀ : Variants := Variants.none
/-- No core owes another anything. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-- Each product's arrays are the entry contents at its windows' references. -/
theorem hA0 (c : Dev nD) (w : Fin cfg0.W) : (pdats m 0 c).A w = (fun b : Ref sig .tc => V3 m c b) (Pipeline.arrRef spec0 w) := rfl
theorem hA1 (c : Dev nD) (w : Fin cfg1.W) : (pdats m 1 c).A w = (fun b : Ref sig .tc => V4 m (outs m) c b) (Pipeline.arrRef spec1 w) := by
  show W4 m c _ = V4 m (outs m) c _
  rw [V4_eq]
theorem hA2 (c : Dev nD) (w : Fin cfg2.W) : (pdats m 2 c).A w = (fun b : Ref sig .tc => V5 m (outs m) c b) (Pipeline.arrRef spec2 w) := by
  show W5 m c _ = V5 m (outs m) c _
  rw [V5_eq]

/-- The contents a product's proof data are stated at are the contents before it. -/
theorem E0_eq (c : Dev nD) (b : Ref sig .tc) : E0 m c b = V3 m c b := rfl
theorem E1_eq (c : Dev nD) (b : Ref sig .tc) : E1 m c b = V4 m (outs m) c b := (congrFun (V4_eq m c) _).symm
theorem E2_eq (c : Dev nD) (b : Ref sig .tc) : E2 m c b = V5 m (outs m) c b := (congrFun (V5_eq m c) _).symm

/-! ## The products as segments -/

/-- The arrays of product 0 at its exit: the inputs as entered, the output at the folded write-backs. -/
theorem hF0 (c : Dev nD) (w : Fin cfg0.W) :
    (pdats m 0 c).arrAt w cfg0.N = (fun b : Ref sig .tc => V4 m (outs m) c b) (Pipeline.arrRef spec0 w) := by
  match w with
  | ⟨0, _⟩ =>
    show (Reg0.dat (E0 m) c).arrAt 0 cfg0.N = V4 m (outs m) c main_v44
    exact ((Reg0.dat (E0 m) c).arrAt_in 0 rfl _).trans ((Reg0.A_eq (E0 m) c 0).trans ((E0_eq m c main_v44).trans (V4_keeps m c main_v44 (by decide)).symm))
  | ⟨1, _⟩ =>
    show (Reg0.dat (E0 m) c).arrAt 1 cfg0.N = V4 m (outs m) c main_arg2
    exact ((Reg0.dat (E0 m) c).arrAt_in 1 rfl _).trans ((Reg0.A_eq (E0 m) c 1).trans ((E0_eq m c main_arg2).trans (V4_keeps m c main_arg2 (by decide)).symm))
  | ⟨2, _⟩ =>
    show (Reg0.dat (E0 m) c).arrAt 2 cfg0.N = V4 m (outs m) c main_v45
    exact ((Reg0.dat (E0 m) c).arrAt_in 2 rfl _).trans ((Reg0.A_eq (E0 m) c 2).trans ((E0_eq m c main_v45).trans (V4_keeps m c main_v45 (by decide)).symm))
  | ⟨3, _⟩ =>
    show (Reg0.dat (E0 m) c).arrAt 3 cfg0.N = V4 m (outs m) c main_v48
    exact (V4_out m c).symm

/-- Every other buffer is as the product found it. -/
theorem hrest0 (c : Dev nD) : ∀ b : Ref sig .tc, b ∉ Finset.univ.image (Pipeline.arrRef spec0) → V4 m (outs m) c b = V3 m c b :=
  fun b hb => V4_keeps m c b (fun h => hb (by
    rw [List.mem_singleton] at h; subst h
    exact Finset.mem_image.mpr ⟨3, Finset.mem_univ _, rfl⟩))

set_option backward.isDefEq.respectTransparency.types false in
/-- PRODUCT 0 as a segment of @main: entered with every unscoped buffer at the contents before it, left with the
    output array at the folded write-backs and everything else untouched; its arrays are split out of the unscoped
    buffers on the way in and put back on the way out; the accumulator comes out of the scoped rest and goes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (E0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X _ := BI.emp
  Y _ := BI.emp
  Z c := iprop(Pipeline.unscopedRest (Ix := Unit) (Name := ℕ) (U := UR sig nD τ) (Lvl := ℕ) spec0 c (fun b : Ref sig .tc => V3 m c b) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b : Ref sig .tc => V3 m c b) (hA0 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    show _ ⊢ (Reg0.dat (E0 m) c).Φ 0
    iintro ⟨-, -, Hr⟩
    iapply (Reg0.Φ_in (E0 m) c); iexact Hr
  hout c := by
    rw [Pipeline.ownSems0_none]
    show (Reg0.dat (E0 m) c).Φ (Fin.last cfg0.N) ⊢ _
    iintro H
    isplitr; · iempintro
    isplitr; · iempintro
    iapply (Reg0.Φ_out (E0 m) c); iexact H
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b : Ref sig .tc => V3 m c b) (fun b : Ref sig .tc => V4 m (outs m) c b) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The arrays of product 1 at its exit: the inputs as entered, the output at the folded write-backs. -/
theorem hF1 (c : Dev nD) (w : Fin cfg1.W) :
    (pdats m 1 c).arrAt w cfg1.N = (fun b : Ref sig .tc => V5 m (outs m) c b) (Pipeline.arrRef spec1 w) := by
  match w with
  | ⟨0, _⟩ =>
    show (Reg1.dat (E1 m) c).arrAt 0 cfg1.N = V5 m (outs m) c main_v48
    exact ((Reg1.dat (E1 m) c).arrAt_in 0 rfl _).trans ((Reg1.A_eq (E1 m) c 0).trans ((E1_eq m c main_v48).trans (V5_keeps m c main_v48 (by decide)).symm))
  | ⟨1, _⟩ =>
    show (Reg1.dat (E1 m) c).arrAt 1 cfg1.N = V5 m (outs m) c main_arg4
    exact ((Reg1.dat (E1 m) c).arrAt_in 1 rfl _).trans ((Reg1.A_eq (E1 m) c 1).trans ((E1_eq m c main_arg4).trans (V5_keeps m c main_arg4 (by decide)).symm))
  | ⟨2, _⟩ =>
    show (Reg1.dat (E1 m) c).arrAt 2 cfg1.N = V5 m (outs m) c main_v47
    exact ((Reg1.dat (E1 m) c).arrAt_in 2 rfl _).trans ((Reg1.A_eq (E1 m) c 2).trans ((E1_eq m c main_v47).trans (V5_keeps m c main_v47 (by decide)).symm))
  | ⟨3, _⟩ =>
    show (Reg1.dat (E1 m) c).arrAt 3 cfg1.N = V5 m (outs m) c main_v49
    exact (V5_out m c).symm

/-- Every other buffer is as the product found it. -/
theorem hrest1 (c : Dev nD) : ∀ b : Ref sig .tc, b ∉ Finset.univ.image (Pipeline.arrRef spec1) → V5 m (outs m) c b = V4 m (outs m) c b :=
  fun b hb => V5_keeps m c b (fun h => hb (by
    rw [List.mem_singleton] at h; subst h
    exact Finset.mem_image.mpr ⟨3, Finset.mem_univ _, rfl⟩))

set_option backward.isDefEq.respectTransparency.types false in
/-- PRODUCT 1 as a segment of @main: entered with every unscoped buffer at the contents before it, left with the
    output array at the folded write-backs and everything else untouched; its arrays are split out of the unscoped
    buffers on the way in and put back on the way out; the accumulator comes out of the scoped rest and goes back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (E1 m) c).loose
  hwaits := Pipeline.hwaits_of_owed_zero _ _ _ _ L lv 1 fun _ _ => rfl
  pre c := iprop(StableHlo.held (c : Thread nD τ) (Pipeline.ucRefs τ sig) (V4 m (outs m) c) ∗ R c)
  post c := iprop(StableHlo.held (c : Thread nD τ) (Pipeline.ucRefs τ sig) (V5 m (outs m) c) ∗ R c)
  X _ := BI.emp
  Y _ := BI.emp
  Z c := iprop(Pipeline.unscopedRest (Ix := Unit) (Name := ℕ) (U := UR sig nD τ) (Lvl := ℕ) spec1 c (fun b : Ref sig .tc => V4 m (outs m) c b) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b : Ref sig .tc => V4 m (outs m) c b) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    show _ ⊢ (Reg1.dat (E1 m) c).Φ 0
    iintro ⟨-, -, Hr⟩
    iapply (Reg1.Φ_in (E1 m) c); iexact Hr
  hout c := by
    rw [Pipeline.ownSems0_none]
    show (Reg1.dat (E1 m) c).Φ (Fin.last cfg1.N) ⊢ _
    iintro H
    isplitr; · iempintro
    isplitr; · iempintro
    iapply (Reg1.Φ_out (E1 m) c); iexact H
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b : Ref sig .tc => V4 m (outs m) c b) (fun b : Ref sig .tc => V5 m (outs m) c b) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The arrays of product 2 at its exit: the inputs as entered, the output at the folded write-backs. -/
theorem hF2 (c : Dev nD) (w : Fin cfg2.W) :
    (pdats m 2 c).arrAt w cfg2.N = (fun b : Ref sig .tc => V6 m (outs m) c b) (Pipeline.arrRef spec2 w) := by
  match w with
  | ⟨0, _⟩ =>
    show (Reg2.dat (E2 m) c).arrAt 0 cfg2.N = V6 m (outs m) c main_v44
    exact ((Reg2.dat (E2 m) c).arrAt_in 0 rfl _).trans ((Reg2.A_eq (E2 m) c 0).trans ((E2_eq m c main_v44).trans (V6_keeps m c main_v44 (by decide)).symm))
  | ⟨1, _⟩ =>
    show (Reg2.dat (E2 m) c).arrAt 1 cfg2.N = V6 m (outs m) c main_v49
    exact ((Reg2.dat (E2 m) c).arrAt_in 1 rfl _).trans ((Reg2.A_eq (E2 m) c 1).trans ((E2_eq m c main_v49).trans (V6_keeps m c main_v49 (by decide)).symm))
  | ⟨2, _⟩ =>
    show (Reg2.dat (E2 m) c).arrAt 2 cfg2.N = V6 m (outs m) c main_v46
    exact ((Reg2.dat (E2 m) c).arrAt_in 2 rfl _).trans ((Reg2.A_eq (E2 m) c 2).trans ((E2_eq m c main_v46).trans (V6_keeps m c main_v46 (by decide)).symm))
  | ⟨3, _⟩ =>
    show (Reg2.dat (E2 m) c).arrAt 3 cfg2.N = V6 m (outs m) c main_v50
    exact (V6_out m c).symm

/-- Every other buffer is as the product found it. -/
theorem hrest2 (c : Dev nD) : ∀ b : Ref sig .tc, b ∉ Finset.univ.image (Pipeline.arrRef spec2) → V6 m (outs m) c b = V5 m (outs m) c b :=
  fun b hb => V6_keeps m c b (fun h => hb (by
    rw [List.mem_singleton] at h; subst h
    exact Finset.mem_image.mpr ⟨3, Finset.mem_univ _, rfl⟩))

set_option backward.isDefEq.respectTransparency.types false in
/-- PRODUCT 2 as a segment of @main: entered with every unscoped buffer at the contents before it, left with the
    output array at the folded write-backs and everything else untouched; its arrays are split out of the unscoped
    buffers on the way in and put back on the way out; the accumulator comes out of the scoped rest and goes back. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (E2 m) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X _ := BI.emp
  Y _ := BI.emp
  Z c := iprop(Pipeline.unscopedRest (Ix := Unit) (Name := ℕ) (U := UR sig nD τ) (Lvl := ℕ) spec2 c (fun b : Ref sig .tc => V5 m (outs m) c b) ∗ ∃ r, prngReg c r)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b : Ref sig .tc => V5 m (outs m) c b) (hA2 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    show _ ⊢ (Reg2.dat (E2 m) c).Φ 0
    iintro ⟨-, -, Hr⟩
    iapply (Reg2.Φ_in (E2 m) c); iexact Hr
  hout c := by
    rw [Pipeline.ownSems0_none]
    show (Reg2.dat (E2 m) c).Φ (Fin.last cfg2.N) ⊢ _
    iintro H
    isplitr; · iempintro
    isplitr; · iempintro
    iapply (Reg2.Φ_out (E2 m) c); iexact H
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b : Ref sig .tc => V5 m (outs m) c b) (fun b : Ref sig .tc => V6 m (outs m) c b) ((pdats m 2 c).arrAt · cfg2.N) (hF2 m c) (hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Asm

end
-- ==== Proof.BKRun.lean ====
/-
  The run of the kernel program's @main: from any memory with every counter at zero, every weakly fair execution
  ends, nothing faulting, with each unscoped buffer of each core at the last of the contents the assembly names: the
  launch memory carried through the host operations before the products, the three products' outputs, and the host
  operations after them.  The six arguments are among those buffers and no item writes them, so they end as launched
  (the frame); the result is among them too, at the last host operations' value of the third product's output.
-/
import proofs.«100943_j2456721293623_1_alg».proof.Proof.BKAsm

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.Pipeline (Seg HostSeg RegionSeg)

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What rides beside the buffers ends owing nothing. -/
theorem R_owes (c : Dev nD) : R (F := F) c ⊢ (iprop(∃ W, owes (c : Thread nD τ) (0 : CellTallies nD τ sig Unit) W) : sProp 𝕄) := by
  iintro ⟨-, H⟩; iexact H

set_option backward.isDefEq.respectTransparency.types false in
/-- THE RUN: every unscoped buffer ends at the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V7 m (outs m) c b) := by
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m) (reg2 m))
    (fun c Q => by
      rewrite [main_chain c, Seg.run_eq_chain,
        show (segs m (outs m) 𝒱₀ L lv (fun _ => R) () (pdats m) (reg0 m) (reg1 m) (reg2 m) c).map Seg.prog = [
          StableHlo.seq hostOps0,
          StableHlo.seq hostOps0_1,
          StableHlo.seq hostOps0_2,
          Prog.lift (.customCall (Pipeline.entry 0) ()),
          Prog.lift (.customCall (Pipeline.entry 1) ()),
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V7 m (outs m) c))
    (hch := fun c => ⟨.rfl, .rfl, .rfl, .rfl, .rfl, .rfl, .rfl, sep_mono .rfl (R_owes c)⟩)
    (hinit := ?_)
    (QY := fun c s => ∀ b ∈ Pipeline.ucRefs τ sig, s.mem ((c : Thread nD τ).1, b) = V7 m (outs m) c b)
    (hfin := fun c s' => ?_) (hQ := fun _ h => h)
  · -- the launch: the unscoped buffers are held at the launch contents; the rest gives the register and the owes
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (bigSep Finset.univ fun c : Dev nD => iprop(StableHlo.held (c : Thread nD τ) (Pipeline.ucRefs τ sig) (V0 m c) ∗ R c)
            : sProp 𝕄) := by
      have hcore : ∀ c : Dev nD, (iprop(unscopedBufs c (fun b => m ((c.tc : Thread nD τ).loc b)) ∗ unscopedSems0 c
            ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄)
          ⊢ iprop(StableHlo.held (c : Thread nD τ) (Pipeline.ucRefs τ sig) (V0 m c) ∗ R c) := by
        intro c
        rw [← Pipeline.unscopedBufs_held (Ix := Unit) (Name := ℕ) (U := UR sig nD τ) (Lvl := ℕ) c (V0 m c)]
        iintro ⟨Hh, -, HO, -, Hp, -⟩
        isplitl [Hh]; · iexact Hh
        isplitl [Hp]; · iexists _; iexact Hp
        iexists ∅; iexact HO
      exact bigSep_mono fun c _ => hcore c
    iintro ⟨H, -⟩
    imodintro
    iapply hsplit; iexact H
  · -- the end: every unscoped buffer read off the last valuation
    unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro; exact h
    · iexact HSI

/-- THE FRAME: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (V7_main_arg0 m (outs m) c),
     (h c _ (mem_uc main_arg1 (by decide))).trans (V7_main_arg1 m (outs m) c),
     (h c _ (mem_uc main_arg2 (by decide))).trans (V7_main_arg2 m (outs m) c),
     (h c _ (mem_uc main_arg3 (by decide))).trans (V7_main_arg3 m (outs m) c),
     (h c _ (mem_uc main_arg4 (by decide))).trans (V7_main_arg4 m (outs m) c),
     (h c _ (mem_uc main_arg5 (by decide))).trans (V7_main_arg5 m (outs m) c)⟩) (run_all m ρ)

/-- THE RUN WITH ITS RESULT: the result array ends at the last valuation's, the arguments as launched. -/
theorem run_result : θ_run defs (onTc (τ := τ) (main (F := F))) ⟨m, fun _ => 0, ρ⟩ (fun r => ∀ c : Dev nD,
      r.2.mem ((c.tc : Thread nD τ).loc main_v57) = V7 m (outs m) c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v57 (by decide)),
     (h c _ (mem_uc main_arg0 (by decide))).trans (V7_main_arg0 m (outs m) c),
     (h c _ (mem_uc main_arg1 (by decide))).trans (V7_main_arg1 m (outs m) c),
     (h c _ (mem_uc main_arg2 (by decide))).trans (V7_main_arg2 m (outs m) c),
     (h c _ (mem_uc main_arg3 (by decide))).trans (V7_main_arg3 m (outs m) c),
     (h c _ (mem_uc main_arg4 (by decide))).trans (V7_main_arg4 m (outs m) c),
     (h c _ (mem_uc main_arg5 (by decide))).trans (V7_main_arg5 m (outs m) c)⟩) (run_all m ρ)

end Cert.Kernel.Asm

end
-- ==== Proof.Region0.lean ====
/-
  A matrix product A · B + bias as the pipeline runs it (the first of the program's products also rectifies the sum): a grid of 16 × 1 × 4 points,
  point t standing for the block of 512 rows t / 4 and the step t % 4 along the contracted axis, 2048 columns of A at a
  time.  At step 0 the body clears its accumulator; at every step it adds the product of the two blocks to it; at step 3
  it stores the kernel's closing payload of the accumulator and the bias row (their sum, rectified in the first product) into the output block, which the pipeline writes back after that point
  and at no other.  So the accumulator IS carried from a point to the next: after point t it holds the sum of the
  block products of the steps 0 … t % 4 of t's row block, and the invariant between points says exactly that.

  Below: the body run on whole staging buffers in its three cases (first step, a middle step, last step), what the
  accumulator holds after each point (by recursion on the point), the proof data, and the body obligation at a generic
  point by cases on t % 4.
-/
import proofs.«100943_j2456721293623_1_alg».proof.Proof.Gen.KernelIdeal.Launch
import proofs.«100943_j2456721293623_1_alg».proof.Proof.Gen.KernelIdeal.Points
import proofs.«100943_j2456721293623_1_alg».proof.Proof.Gen.KernelIdeal.Skeleton
import proofs.«100943_j2456721293623_1_alg».proof.Proof.LibWholeStore
import Idealize.ShloMosaic.Lib.Pipeline.Regions
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access. -/
theorem hz : ((![0, 0] : Fin 2 → ℕ)) = fun _ => 0 := by funext a; fin_cases a <;> rfl

/-! ## The body on whole buffers, case by case -/

set_option maxHeartbeats 1000000 in
/-- FIRST STEP (the clearing guard holds, the storing guard does not): the accumulator, whatever it held, ends at the
    block product added to zero; the output buffer is not touched. -/
theorem runA (c : Dev nD) (i : grid0.Coords)
    (arg3 : Memref sig .tc .vmem S512x2048 .f32) (harg3 : arg3.IsWhole) (arg4 : Memref sig .tc .vmem S2048x512 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (hc1 : Scalar.cmpi .ne (Scalar.extui (Scalar.cmpi .eq (BitVec.ofNat 32 (i 2).val) 0#32)) 0#32 = 1#1) (hc2 : ¬ k0_cond2 i = 1#1)
    (xa : Vec F S512x2048 .f32) (xb : Vec F S2048x512 .f32) (xbias : Vec F S1x512 .f32) (xo : Vec F S512x512 .f32) (xs : Vec F S512x512 .f32)
    (E : Set ℕ) (K : PUnit → sProp 𝕄) :
    iprop(owns (c : Thread nD τ) arg3 fullShare xa ∗ owns (c : Thread nD τ) arg4 fullShare xb ∗ owns (c : Thread nD τ) arg5 fullShare xbias
        ∗ owns (c : Thread nD τ) arg6 fullShare xo ∗ owns (c : Thread nD τ) arg7 fullShare xs
        ∗ (iprop(owns (c : Thread nD τ) arg3 fullShare xa ∗ owns (c : Thread nD τ) arg4 fullShare xb ∗ owns (c : Thread nD τ) arg5 fullShare xbias
            ∗ owns (c : Thread nD τ) arg6 fullShare xo
            ∗ owns (c : Thread nD τ) arg7 fullShare (k0_pay2 xa xb k0_pay1)) -∗ K ⟨⟩))
      ⊢ wp frame (wpE (defs₀ (F := F)) Variants.none c none) E (cc0__matmul_kernel_relu i arg3 harg3 arg4 harg4 arg5 harg5 arg6 harg6 arg7 harg7) K := by
  simp only [cc0__matmul_kernel_relu_eq_skeleton]; unfold cc0__matmul_kernel_relu_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    exact harg6.read_unread _
  · iexists _; isplitr; swap; · iexact H7
    ipureintro
    sl_unfold_words
    simp only [Cert.LibWholeStore.read_writes_whole (S := S512x512) _ _ hz, Cert.LibWholeStore.readCov_whole (S := S512x512) _ hz, View.readAt_eq_ld,
      harg3.read_unread, harg4.read_unread, harg5.read_unread, harg7.read_unread, View.ld_unit_zero (S := S512x2048) hz, View.ld_unit_zero (S := S2048x512) hz,
      View.ld_unit_zero (S := S512x512) hz, View.ld_unit_zero (S := S1x512) hz]

set_option maxHeartbeats 1000000 in
/-- A MIDDLE STEP (neither guard holds): the accumulator ends at the block product added to what it held. -/
theorem runB (c : Dev nD) (i : grid0.Coords)
    (arg3 : Memref sig .tc .vmem S512x2048 .f32) (harg3 : arg3.IsWhole) (arg4 : Memref sig .tc .vmem S2048x512 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (hc1 : ¬ Scalar.cmpi .ne (Scalar.extui (Scalar.cmpi .eq (BitVec.ofNat 32 (i 2).val) 0#32)) 0#32 = 1#1) (hc2 : ¬ k0_cond2 i = 1#1)
    (xa : Vec F S512x2048 .f32) (xb : Vec F S2048x512 .f32) (xbias : Vec F S1x512 .f32) (xo : Vec F S512x512 .f32) (xs : Vec F S512x512 .f32)
    (E : Set ℕ) (K : PUnit → sProp 𝕄) :
    iprop(owns (c : Thread nD τ) arg3 fullShare xa ∗ owns (c : Thread nD τ) arg4 fullShare xb ∗ owns (c : Thread nD τ) arg5 fullShare xbias
        ∗ owns (c : Thread nD τ) arg6 fullShare xo ∗ owns (c : Thread nD τ) arg7 fullShare xs
        ∗ (iprop(owns (c : Thread nD τ) arg3 fullShare xa ∗ owns (c : Thread nD τ) arg4 fullShare xb ∗ owns (c : Thread nD τ) arg5 fullShare xbias
            ∗ owns (c : Thread nD τ) arg6 fullShare xo
            ∗ owns (c : Thread nD τ) arg7 fullShare (k0_pay2 xa xb xs)) -∗ K ⟨⟩))
      ⊢ wp frame (wpE (defs₀ (F := F)) Variants.none c none) E (cc0__matmul_kernel_relu i arg3 harg3 arg4 harg4 arg5 harg5 arg6 harg6 arg7 harg7) K := by
  simp only [cc0__matmul_kernel_relu_eq_skeleton]; unfold cc0__matmul_kernel_relu_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    exact harg6.read_unread _
  · iexists _; isplitr; swap; · iexact H7
    ipureintro
    sl_unfold_words
    simp only [Cert.LibWholeStore.read_writes_whole (S := S512x512) _ _ hz, Cert.LibWholeStore.readCov_whole (S := S512x512) _ hz, View.readAt_eq_ld,
      harg3.read_unread, harg4.read_unread, harg5.read_unread, harg7.read_unread, View.ld_unit_zero (S := S512x2048) hz, View.ld_unit_zero (S := S2048x512) hz,
      View.ld_unit_zero (S := S512x512) hz, View.ld_unit_zero (S := S1x512) hz]

set_option maxHeartbeats 1000000 in
/-- LAST STEP (only the storing guard holds): as a middle step, and the output buffer ends at the closing payload of
    the new accumulator and the bias row. -/
theorem runC (c : Dev nD) (i : grid0.Coords)
    (arg3 : Memref sig .tc .vmem S512x2048 .f32) (harg3 : arg3.IsWhole) (arg4 : Memref sig .tc .vmem S2048x512 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (hc1 : ¬ Scalar.cmpi .ne (Scalar.extui (Scalar.cmpi .eq (BitVec.ofNat 32 (i 2).val) 0#32)) 0#32 = 1#1) (hc2 : k0_cond2 i = 1#1)
    (xa : Vec F S512x2048 .f32) (xb : Vec F S2048x512 .f32) (xbias : Vec F S1x512 .f32) (xo : Vec F S512x512 .f32) (xs : Vec F S512x512 .f32)
    (E : Set ℕ) (K : PUnit → sProp 𝕄) :
    iprop(owns (c : Thread nD τ) arg3 fullShare xa ∗ owns (c : Thread nD τ) arg4 fullShare xb ∗ owns (c : Thread nD τ) arg5 fullShare xbias
        ∗ owns (c : Thread nD τ) arg6 fullShare xo ∗ owns (c : Thread nD τ) arg7 fullShare xs
        ∗ (iprop(owns (c : Thread nD τ) arg3 fullShare xa ∗ owns (c : Thread nD τ) arg4 fullShare xb ∗ owns (c : Thread nD τ) arg5 fullShare xbias
            ∗ owns (c : Thread nD τ) arg6 fullShare (k0_pay3 (k0_pay2 xa xb xs) xbias)
            ∗ owns (c : Thread nD τ) arg7 fullShare (k0_pay2 xa xb xs)) -∗ K ⟨⟩))
      ⊢ wp frame (wpE (defs₀ (F := F)) Variants.none c none) E (cc0__matmul_kernel_relu i arg3 harg3 arg4 harg4 arg5 harg5 arg6 harg6 arg7 harg7) K := by
  simp only [cc0__matmul_kernel_relu_eq_skeleton]; unfold cc0__matmul_kernel_relu_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    simp only [Cert.LibWholeStore.read_writes_whole (S := S512x512) _ _ hz, Cert.LibWholeStore.readCov_whole (S := S512x512) _ hz, View.readAt_eq_ld,
      harg3.read_unread, harg4.read_unread, harg5.read_unread, harg7.read_unread, View.ld_unit_zero (S := S512x2048) hz, View.ld_unit_zero (S := S2048x512) hz,
      View.ld_unit_zero (S := S512x512) hz, View.ld_unit_zero (S := S1x512) hz]
  · iexists _; isplitr; swap; · iexact H7
    ipureintro
    sl_unfold_words
    simp only [Cert.LibWholeStore.read_writes_whole (S := S512x512) _ _ hz, Cert.LibWholeStore.readCov_whole (S := S512x512) _ hz, View.readAt_eq_ld,
      harg3.read_unread, harg4.read_unread, harg5.read_unread, harg7.read_unread, View.ld_unit_zero (S := S512x2048) hz, View.ld_unit_zero (S := S2048x512) hz,
      View.ld_unit_zero (S := S512x512) hz, View.ld_unit_zero (S := S1x512) hz]

/-! ## The proof data, at the contents the region is entered with -/

variable (V : (c : Dev nD) → (b : Ref sig .tc) → Buf (Elt F) ((c : Thread nD τ).loc b))

/-- Window w's block of its array at grid point t. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid point numbered n (numbers past the grid wrap; only n < 64 is ever used). -/
def ptOf (n : ℕ) : Fin cfg0.N := ⟨n % 64, Nat.mod_lt _ (by decide)⟩

theorem ptOf_val (t : Fin cfg0.N) : ptOf t.val = t := Fin.ext (Nat.mod_eq_of_lt t.isLt)

/-- What the accumulator holds after point n: the block product of point n added to zero at a first step, and to what
    point n − 1 left otherwise. -/
def accAt (c : Dev nD) : ℕ → Vec F S512x512 .f32
  | 0 => k0_pay2 (iblk V c 0 (ptOf 0)) (iblk V c 1 (ptOf 0)) k0_pay1
  | n + 1 => k0_pay2 (iblk V c 0 (ptOf (n + 1))) (iblk V c 1 (ptOf (n + 1))) (if (n + 1) % 4 = 0 then k0_pay1 else accAt c n)

theorem accAt_first (c : Dev nD) (n : ℕ) (h : n % 4 = 0) :
    accAt V c n = k0_pay2 (iblk V c 0 (ptOf n)) (iblk V c 1 (ptOf n)) k0_pay1 := by
  cases n with
  | zero => rfl
  | succ k =>
    show k0_pay2 _ _ (if (k + 1) % 4 = 0 then k0_pay1 else accAt V c k) = _
    rw [if_pos h]

theorem accAt_next (c : Dev nD) (n : ℕ) (h : n % 4 ≠ 0) :
    accAt V c n = k0_pay2 (iblk V c 0 (ptOf n)) (iblk V c 1 (ptOf n)) (accAt V c (n - 1)) := by
  cases n with
  | zero => exact absurd rfl h
  | succ k =>
    show k0_pay2 _ _ (if (k + 1) % 4 = 0 then k0_pay1 else accAt V c k) = _
    rw [if_neg h]; rfl

/-- The output block a last step stores: the closing payload of the accumulator after that point and the bias row. -/
def outBlk (c : Dev nD) (t : Fin cfg0.N) : Vec F S512x512 .f32 := k0_pay3 (accAt V c t.val) (iblk V c 2 t)

/-- The scoped buffers other than the accumulator, at some contents. -/
abbrev restBut (c : Dev nD) : sProp 𝕄 :=
  Pipeline.scopedRestBut (Ix := Unit) (Name := ℕ) (U := UR sig nD τ) (Lvl := ℕ) (Val := Elt F) spec0 c [cc0_scratch0]

/-- Between points: the accumulator at what the point before left (at anything before the first point), and the other
    scoped buffers. -/
def Φt (c : Dev nD) (t : Fin (cfg0.N + 1)) : sProp 𝕄 :=
  iprop((∃ f : Buf (Elt F) ((c : Thread nD τ).loc cc0_scratch0), ⌜t.val ≠ 0 → f = accAt V c (t.val - 1)⌝
      ∗ owns (c : Thread nD τ) (Memref.whole cc0_scratch0) fullShare f) ∗ restBut c)

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outBlk V c t
  Φ t := Φt V c t
  q _ := fullShare
  owed _ := 0

theorem A_eq (c : Dev nD) (w : Fin cfg0.W) : (dat V c).A w = V c (Pipeline.arrRef spec0 w) := by dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = outBlk V c t := by dsimp only [dat]

/-- An input window's buffer holds its block at every point, fetched there or not. -/
theorem before0 (c : Dev nD) (t : Fin cfg0.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-! ## The guards over the grid: the step along the contracted axis is t % 4 -/

theorem guard1 : ∀ t : Fin cfg0.N,
    Scalar.cmpi .ne (Scalar.extui (Scalar.cmpi .eq (BitVec.ofNat 32 ((grid0.coords t) 2).val) 0#32)) 0#32 = 1#1 ↔ t.val % 4 = 0 := by
  decide +kernel
theorem guard2 : ∀ t : Fin cfg0.N, k0_cond2 (grid0.coords t) = 1#1 ↔ t.val % 4 = 3 := by decide +kernel
/-- The output window is idle, and not written back, at every point but a last step. -/
theorem idle3 : ∀ t : Fin cfg0.N, t.val % 4 ≠ 3 → idle0 3 (grid0.coords t) = true := by decide +kernel
theorem live3 : ∀ t : Fin cfg0.N, t.val % 4 = 3 → idle0 3 (grid0.coords t) = false := by decide +kernel
theorem noflush3 : ∀ t : Fin cfg0.N, t.val % 4 ≠ 3 → (win0 3).flush t = false := by decide +kernel

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- What the body returns at a point that is no last step: the output window's buffer as it was handed over. -/
def bodyPostIdle (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ (∃ d, owns (c : Thread nD τ) (st0_3 t) fullShare ((dat V c).before 3 t d)))

/-- What it returns at a last step: the output window's buffer at the stored block. -/
def bodyPostLive (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem succ_val_sub (t : Fin cfg0.N) : t.succ.val - 1 = t.val := by simp

theorem sound_bodyA (c : Dev nD) (t : Fin cfg0.N) (h0 : t.val % 4 = 0) :
    bodyPre V c t ⊢ wp frame (wpE (defs₀ (F := F)) Variants.none c none) Set.univ (bodyAt0 t) (fun _ => bodyPostIdle V c t) := by
  unfold bodyPre bodyPostIdle bodyAt0
  simp only [before0, before1, before2]
  rw [show (dat V c).Φ t.succ = Φt V c t.succ from rfl, show (dat V c).Φ t.castSucc = Φt V c t.castSucc from rfl,
    show (dat V c).owesAt () t.succ = (dat V c).owesAt () t.castSucc from rfl, after0, after1, after2]
  unfold Φt
  iintro ⟨⟨⟨%fs, -, HS⟩, HR⟩, Ho, ⟨%d0, H0⟩, ⟨%d1, H1⟩, ⟨%d2, H2⟩, ⟨%d3, H3⟩⟩
  iapply (runA c (grid0.coords t) _ _ _ _ _ _ _ _ _ _ ((guard1 t).2 h0) (fun h => by have := (guard2 t).1 h; omega)
    (iblk V c 0 t) (iblk V c 1 t) (iblk V c 2 t) _ fs Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; isplitr; swap; · iexact HS
      ipureintro; intro _
      rw [succ_val_sub, accAt_first V c t.val h0, ptOf_val]
    iexact HR
  isplitl [Ho]; · iexact Ho
  isplitl [H0]; · iexact H0
  isplitl [H1]; · iexact H1
  isplitl [H2]; · iexact H2
  iexists _; iexact H3

theorem sound_bodyB (c : Dev nD) (t : Fin cfg0.N) (h0 : t.val % 4 ≠ 0) (h3 : t.val % 4 ≠ 3) :
    bodyPre V c t ⊢ wp frame (wpE (defs₀ (F := F)) Variants.none c none) Set.univ (bodyAt0 t) (fun _ => bodyPostIdle V c t) := by
  unfold bodyPre bodyPostIdle bodyAt0
  simp only [before0, before1, before2]
  rw [show (dat V c).Φ t.succ = Φt V c t.succ from rfl, show (dat V c).Φ t.castSucc = Φt V c t.castSucc from rfl,
    show (dat V c).owesAt () t.succ = (dat V c).owesAt () t.castSucc from rfl, after0, after1, after2]
  unfold Φt
  iintro ⟨⟨⟨%fs, %hfs, HS⟩, HR⟩, Ho, ⟨%d0, H0⟩, ⟨%d1, H1⟩, ⟨%d2, H2⟩, ⟨%d3, H3⟩⟩
  have hfs' : fs = accAt V c (t.val - 1) := hfs (by show t.val ≠ 0; omega)
  subst hfs'
  iapply (runB c (grid0.coords t) _ _ _ _ _ _ _ _ _ _ (fun h => h0 ((guard1 t).1 h)) (fun h => h3 ((guard2 t).1 h))
    (iblk V c 0 t) (iblk V c 1 t) (iblk V c 2 t) _ (accAt V c (t.val - 1)) Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; isplitr; swap; · iexact HS
      ipureintro; intro _
      rw [succ_val_sub, accAt_next V c t.val h0, ptOf_val]
    iexact HR
  isplitl [Ho]; · iexact Ho
  isplitl [H0]; · iexact H0
  isplitl [H1]; · iexact H1
  isplitl [H2]; · iexact H2
  iexists _; iexact H3

theorem sound_bodyC (c : Dev nD) (t : Fin cfg0.N) (h3 : t.val % 4 = 3) :
    bodyPre V c t ⊢ wp frame (wpE (defs₀ (F := F)) Variants.none c none) Set.univ (bodyAt0 t) (fun _ => bodyPostLive V c t) := by
  unfold bodyPre bodyPostLive bodyAt0
  simp only [before0, before1, before2]
  rw [show (dat V c).Φ t.succ = Φt V c t.succ from rfl, show (dat V c).Φ t.castSucc = Φt V c t.castSucc from rfl,
    show (dat V c).owesAt () t.succ = (dat V c).owesAt () t.castSucc from rfl, after0, after1, after2, after3]
  unfold Φt
  iintro ⟨⟨⟨%fs, %hfs, HS⟩, HR⟩, Ho, ⟨%d0, H0⟩, ⟨%d1, H1⟩, ⟨%d2, H2⟩, ⟨%d3, H3⟩⟩
  have hfs' : fs = accAt V c (t.val - 1) := hfs (by show t.val ≠ 0; omega)
  subst hfs'
  have hacc : k0_pay2 (iblk V c 0 t) (iblk V c 1 t) (accAt V c (t.val - 1)) = accAt V c t.val := by
    rw [accAt_next V c t.val (by omega), ptOf_val]
  iapply (runC c (grid0.coords t) _ _ _ _ _ _ _ _ _ _ (fun h => by have := (guard1 t).1 h; omega) ((guard2 t).2 h3)
    (iblk V c 0 t) (iblk V c 1 t) (iblk V c 2 t) _ (accAt V c (t.val - 1)) Set.univ _)
  isplitl [H0]; · iexact H0
  isplitl [H1]; · iexact H1
  isplitl [H2]; · iexact H2
  isplitl [H3]; · iexact H3
  isplitl [HS]; · iexact HS
  rw [hacc]
  iintro ⟨H0, H1, H2, H3, HS⟩
  isplitl [HS HR]
  · isplitl [HS]
    · iexists _; isplitr; swap; · iexact HS
      ipureintro; intro _
      rw [succ_val_sub]
    iexact HR
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W0, bigSep_W0]
  by_cases h3 : t.val % 4 = 3
  · simp only [live3 t h3]
    exact sound_bodyC V c t h3
  · simp only [idle3 t h3, noflush3 t h3]
    by_cases h0 : t.val % 4 = 0
    · exact sound_bodyA V c t h0
    · exact sound_bodyB V c t h0 h3

/-! ## Into and out of the region -/

/-- The accumulator taken out of the scoped rest. -/
theorem rest_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), owns (c : Thread nD τ) (Memref.whole cc0_scratch0) fullShare f)
          ∗ restBut c) := by
  simp only [owns_whole]
  exact Pipeline.scopedRest_split_of_list spec0 c [cc0_scratch0] (by decide) (by decide)

/-- Before the first point the accumulator is one of the scoped buffers at some contents. -/
theorem Φ_in (c : Dev nD) :
    (Pipeline.scopedRest (Ix := Unit) (Name := ℕ) (U := UR sig nD τ) (Lvl := ℕ) (Val := Elt F) spec0 c : sProp 𝕄) ⊢ (dat V c).Φ 0 := by
  rw [show (dat V c).Φ 0 = Φt V c 0 from rfl, rest_split]
  unfold Φt
  iintro ⟨⟨%f, HS⟩, HR⟩
  isplitl [HS]
  · iexists f; isplitr; · ipureintro; intro h; exact absurd rfl h
    iexact HS
  iexact HR

/-- After the last point what the accumulator holds is forgotten again. -/
theorem Φ_out (c : Dev nD) :
    (dat V c).Φ (Fin.last cfg0.N) ⊢ (Pipeline.scopedRest (Ix := Unit) (Name := ℕ) (U := UR sig nD τ) (Lvl := ℕ) (Val := Elt F) spec0 c : sProp 𝕄) := by
  rw [show (dat V c).Φ (Fin.last cfg0.N) = Φt V c (Fin.last cfg0.N) from rfl, rest_split]
  unfold Φt
  iintro ⟨⟨%f, -, HS⟩, HR⟩
  isplitl [HS]
  · iexists f; iexact HS
  iexact HR

end Cert.KernelIdeal.Reg0

end
-- ==== Proof.Region1.lean ====
/-
  The second matrix product, h · W2 + 0, as the pipeline runs it: sixteen grid points, one per block of 512 rows of
  h.  There is a single step along the contracted axis, so at every point the body clears its accumulator, adds the
  block product to it, and stores accumulator + bias row into the output block.  Nothing is carried from one point to
  the next: the accumulator is a scratch buffer whose contents no later point reads before clearing it.

  Below: the body run on whole staging buffers (what each buffer holds afterwards, as the body's own payload terms of
  the input blocks), the proof data (each input window's buffer holds its block of the array, the output window's the
  block product plus bias), and the body obligation at a generic grid point.
-/
import proofs.«100943_j2456721293623_1_alg».proof.Proof.Gen.KernelIdeal.Launch
import proofs.«100943_j2456721293623_1_alg».proof.Proof.Gen.KernelIdeal.Points
import proofs.«100943_j2456721293623_1_alg».proof.Proof.Gen.KernelIdeal.Skeleton
import proofs.«100943_j2456721293623_1_alg».proof.Proof.LibWholeStore
import Idealize.ShloMosaic.Lib.Pipeline.Regions
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access. -/
theorem hz : ((![0, 0] : Fin 2 → ℕ)) = fun _ => 0 := by funext a; fin_cases a <;> rfl

set_option maxHeartbeats 1000000 in
/-- The body at a point where both guards hold (the first and the last step along the contracted axis coincide): from
    the three input buffers at xa, xb, xbias, the output buffer and the accumulator at anything, it ends with the inputs
    as they were, the accumulator at the block product added to zero, and the output buffer at that plus the bias row. -/
theorem run (c : Dev nD) (i : grid1.Coords)
    (arg3 : Memref sig .tc .vmem S512x512 .f32) (harg3 : arg3.IsWhole) (arg4 : Memref sig .tc .vmem S512x128 .f32) (harg4 : arg4.IsWhole)
    (arg5 : Memref sig .tc .vmem S1x128 .f32) (harg5 : arg5.IsWhole) (arg6 : Memref sig .tc .vmem S512x128 .f32) (harg6 : arg6.IsWhole)
    (arg7 : Memref sig .tc .vmem S512x128 .f32) (harg7 : arg7.IsWhole)
    (hc1 : Scalar.cmpi .ne (Scalar.extui (Scalar.cmpi .eq (BitVec.ofNat 32 (i 2).val) 0#32)) 0#32 = 1#1) (hc2 : k1_cond2 i = 1#1)
    (xa : Vec F S512x512 .f32) (xb : Vec F S512x128 .f32) (xbias : Vec F S1x128 .f32) (xo : Vec F S512x128 .f32) (xs : Vec F S512x128 .f32)
    (E : Set ℕ) (K : PUnit → sProp 𝕄) :
    iprop(owns (c : Thread nD τ) arg3 fullShare xa ∗ owns (c : Thread nD τ) arg4 fullShare xb ∗ owns (c : Thread nD τ) arg5 fullShare xbias
        ∗ owns (c : Thread nD τ) arg6 fullShare xo ∗ owns (c : Thread nD τ) arg7 fullShare xs
        ∗ (iprop(owns (c : Thread nD τ) arg3 fullShare xa ∗ owns (c : Thread nD τ) arg4 fullShare xb ∗ owns (c : Thread nD τ) arg5 fullShare xbias
            ∗ owns (c : Thread nD τ) arg6 fullShare (k1_pay3 (k1_pay2 xa xb k1_pay1) xbias)
            ∗ owns (c : Thread nD τ) arg7 fullShare (k1_pay2 xa xb k1_pay1)) -∗ K ⟨⟩))
      ⊢ wp frame (wpE (defs₀ (F := F)) Variants.none c none) E (cc1__matmul_kernel_plain i arg3 harg3 arg4 harg4 arg5 harg5 arg6 harg6 arg7 harg7) K := by
  simp only [cc1__matmul_kernel_plain_eq_skeleton]; unfold cc1__matmul_kernel_plain_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    simp only [Cert.LibWholeStore.read_writes_whole (S := S512x128) _ _ hz, Cert.LibWholeStore.readCov_whole (S := S512x128) _ hz, View.readAt_eq_ld,
      harg3.read_unread, harg4.read_unread, harg5.read_unread, View.ld_unit_zero (S := S512x512) hz, View.ld_unit_zero (S := S512x128) hz, View.ld_unit_zero (S := S1x128) hz]
  · iexists _; isplitr; swap; · iexact H7
    ipureintro
    sl_unfold_words
    simp only [Cert.LibWholeStore.read_writes_whole (S := S512x128) _ _ hz, Cert.LibWholeStore.readCov_whole (S := S512x128) _ hz, View.readAt_eq_ld,
      harg3.read_unread, harg4.read_unread, harg5.read_unread, View.ld_unit_zero (S := S512x512) hz, View.ld_unit_zero (S := S512x128) hz, View.ld_unit_zero (S := S1x128) hz]

/-! ## The proof data, at the contents the region is entered with -/

variable (V : (c : Dev nD) → (b : Ref sig .tc) → Buf (Elt F) ((c : Thread nD τ).loc b))

/-- Window w's block of its array at grid point t. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block at point t: the block product added to zero, plus the bias row. -/
def outBlk (c : Dev nD) (t : Fin cfg1.N) : Vec F S512x128 .f32 :=
  k1_pay3 (k1_pay2 (iblk V c 0 t) (iblk V c 1 t) k1_pay1) (iblk V c 2 t)

/-- Between points the body keeps nothing it relies on: every scoped buffer that is no staging buffer, the
    accumulator among them, at some contents. -/
abbrev Φc (c : Dev nD) : sProp 𝕄 :=
  Pipeline.scopedRest (Ix := Unit) (Name := ℕ) (U := UR sig nD τ) (Lvl := ℕ) (Val := Elt F) spec1 c

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outBlk V c t
  Φ _ := Φc c
  q _ := fullShare
  owed _ := 0

theorem A_eq (c : Dev nD) (w : Fin cfg1.W) : (dat V c).A w = V c (Pipeline.arrRef spec1 w) := by dsimp only [dat]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = outBlk V c t := by dsimp only [dat]

/-- An input window's buffer holds its block at every point, fetched there or not (unfetched, the block index has not
    moved since the point that fetched it). -/
theorem before0 (c : Dev nD) (t : Fin cfg1.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-! ## The guards over the grid -/

/-- The contracted axis has one step: its coordinate is 0 at every point, so both guards hold everywhere and the
    output window is written at every point. -/
theorem guard1 : ∀ t : Fin cfg1.N,
    Scalar.cmpi .ne (Scalar.extui (Scalar.cmpi .eq (BitVec.ofNat 32 ((grid1.coords t) 2).val) 0#32)) 0#32 = 1#1 := by decide +kernel
theorem guard2 : ∀ t : Fin cfg1.N, k1_cond2 (grid1.coords t) = 1#1 := by decide +kernel
theorem live3 : ∀ t : Fin cfg1.N, idle1 3 (grid1.coords t) = false := by decide +kernel

/-! ## The body obligation -/

/-- The accumulator taken out of the scoped rest, and put back. -/
theorem rest_split (c : Dev nD) :
    (Φc (F := F) c : sProp 𝕄)
      = iprop((∃ f : Buf (Elt F) ((c : Thread nD τ).loc cc1_scratch0), owns (c : Thread nD τ) (Memref.whole cc1_scratch0) fullShare f)
          ∗ Pipeline.scopedRestBut (Ix := Unit) (Name := ℕ) (U := UR sig nD τ) (Lvl := ℕ) (Val := Elt F) spec1 c [cc1_scratch0]) := by
  simp only [owns_whole]
  exact Pipeline.scopedRest_split_of_list spec1 c [cc1_scratch0] (by decide) (by decide)

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).Φ t.succ = Φc c from rfl, show (dat V c).Φ t.castSucc = Φc c from rfl,
    show (dat V c).owesAt () t.succ = (dat V c).owesAt () t.castSucc from rfl,
    after0, after1, after2, after3, rest_split]
  iintro ⟨⟨⟨%fs, HS⟩, HR⟩, Ho, ⟨%d0, H0⟩, ⟨%d1, H1⟩, ⟨%d2, H2⟩, ⟨%d3, H3⟩⟩
  iapply (run c (grid1.coords t) _ _ _ _ _ _ _ _ _ _ (guard1 t) (guard2 t) (iblk V c 0 t) (iblk V c 1 t) (iblk V c 2 t) _ fs Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; iexact HS
    iexact HR
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W1, bigSep_W1]
  simp only [live3 t]
  exact sound_body V c t

/-! ## Into and out of the region -/

/-- The invariant is the scoped rest itself, at both ends. -/
theorem Φ_in (c : Dev nD) :
    (Pipeline.scopedRest (Ix := Unit) (Name := ℕ) (U := UR sig nD τ) (Lvl := ℕ) (Val := Elt F) spec1 c : sProp 𝕄) ⊢ (dat V c).Φ 0 := .rfl
theorem Φ_out (c : Dev nD) :
    (dat V c).Φ (Fin.last cfg1.N) ⊢ (Pipeline.scopedRest (Ix := Unit) (Name := ℕ) (U := UR sig nD τ) (Lvl := ℕ) (Val := Elt F) spec1 c : sProp 𝕄) := .rfl

end Cert.KernelIdeal.Reg1

end
-- ==== Proof.Region2.lean ====
/-
  A matrix product A · B + bias as the pipeline runs it (the first of the program's products also rectifies the sum): a grid of 16 × 1 × 4 points,
  point t standing for the block of 512 rows t / 4 and the step t % 4 along the contracted axis, 2048 columns of A at a
  time.  At step 0 the body clears its accumulator; at every step it adds the product of the two blocks to it; at step 3
  it stores the kernel's closing payload of the accumulator and the bias row (their sum, rectified in the first product) into the output block, which the pipeline writes back after that point
  and at no other.  So the accumulator IS carried from a point to the next: after point t it holds the sum of the
  block products of the steps 0 … t % 4 of t's row block, and the invariant between points says exactly that.

  Below: the body run on whole staging buffers in its three cases (first step, a middle step, last step), what the
  accumulator holds after each point (by recursion on the point), the proof data, and the body obligation at a generic
  point by cases on t % 4.
-/
import proofs.«100943_j2456721293623_1_alg».proof.Proof.Gen.KernelIdeal.Launch
import proofs.«100943_j2456721293623_1_alg».proof.Proof.Gen.KernelIdeal.Points
import proofs.«100943_j2456721293623_1_alg».proof.Proof.Gen.KernelIdeal.Skeleton
import proofs.«100943_j2456721293623_1_alg».proof.Proof.LibWholeStore
import Idealize.ShloMosaic.Lib.Pipeline.Regions
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access. -/
theorem hz : ((![0, 0] : Fin 2 → ℕ)) = fun _ => 0 := by funext a; fin_cases a <;> rfl

/-! ## The body on whole buffers, case by case -/

set_option maxHeartbeats 1000000 in
/-- FIRST STEP (the clearing guard holds, the storing guard does not): the accumulator, whatever it held, ends at the
    block product added to zero; the output buffer is not touched. -/
theorem runA (c : Dev nD) (i : grid2.Coords)
    (arg3 : Memref sig .tc .vmem S512x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S512x128 .f32) (harg6 : arg6.IsWhole)
    (arg7 : Memref sig .tc .vmem S512x128 .f32) (harg7 : arg7.IsWhole)
    (hc1 : Scalar.cmpi .ne (Scalar.extui (Scalar.cmpi .eq (BitVec.ofNat 32 (i 2).val) 0#32)) 0#32 = 1#1) (hc2 : ¬ k2_cond2 i = 1#1)
    (xa : Vec F S512x2048 .f32) (xb : Vec F S2048x128 .f32) (xbias : Vec F S1x128 .f32) (xo : Vec F S512x128 .f32) (xs : Vec F S512x128 .f32)
    (E : Set ℕ) (K : PUnit → sProp 𝕄) :
    iprop(owns (c : Thread nD τ) arg3 fullShare xa ∗ owns (c : Thread nD τ) arg4 fullShare xb ∗ owns (c : Thread nD τ) arg5 fullShare xbias
        ∗ owns (c : Thread nD τ) arg6 fullShare xo ∗ owns (c : Thread nD τ) arg7 fullShare xs
        ∗ (iprop(owns (c : Thread nD τ) arg3 fullShare xa ∗ owns (c : Thread nD τ) arg4 fullShare xb ∗ owns (c : Thread nD τ) arg5 fullShare xbias
            ∗ owns (c : Thread nD τ) arg6 fullShare xo
            ∗ owns (c : Thread nD τ) arg7 fullShare (k2_pay2 xa xb k2_pay1)) -∗ K ⟨⟩))
      ⊢ wp frame (wpE (defs₀ (F := F)) Variants.none c none) E (cc2__matmul_kernel_plain i arg3 harg3 arg4 harg4 arg5 harg5 arg6 harg6 arg7 harg7) K := by
  simp only [cc2__matmul_kernel_plain_eq_skeleton]; unfold cc2__matmul_kernel_plain_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    exact harg6.read_unread _
  · iexists _; isplitr; swap; · iexact H7
    ipureintro
    sl_unfold_words
    simp only [Cert.LibWholeStore.read_writes_whole (S := S512x128) _ _ hz, Cert.LibWholeStore.readCov_whole (S := S512x128) _ hz, View.readAt_eq_ld,
      harg3.read_unread, harg4.read_unread, harg5.read_unread, harg7.read_unread, View.ld_unit_zero (S := S512x2048) hz, View.ld_unit_zero (S := S2048x128) hz,
      View.ld_unit_zero (S := S512x128) hz, View.ld_unit_zero (S := S1x128) hz]

set_option maxHeartbeats 1000000 in
/-- A MIDDLE STEP (neither guard holds): the accumulator ends at the block product added to what it held. -/
theorem runB (c : Dev nD) (i : grid2.Coords)
    (arg3 : Memref sig .tc .vmem S512x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S512x128 .f32) (harg6 : arg6.IsWhole)
    (arg7 : Memref sig .tc .vmem S512x128 .f32) (harg7 : arg7.IsWhole)
    (hc1 : ¬ Scalar.cmpi .ne (Scalar.extui (Scalar.cmpi .eq (BitVec.ofNat 32 (i 2).val) 0#32)) 0#32 = 1#1) (hc2 : ¬ k2_cond2 i = 1#1)
    (xa : Vec F S512x2048 .f32) (xb : Vec F S2048x128 .f32) (xbias : Vec F S1x128 .f32) (xo : Vec F S512x128 .f32) (xs : Vec F S512x128 .f32)
    (E : Set ℕ) (K : PUnit → sProp 𝕄) :
    iprop(owns (c : Thread nD τ) arg3 fullShare xa ∗ owns (c : Thread nD τ) arg4 fullShare xb ∗ owns (c : Thread nD τ) arg5 fullShare xbias
        ∗ owns (c : Thread nD τ) arg6 fullShare xo ∗ owns (c : Thread nD τ) arg7 fullShare xs
        ∗ (iprop(owns (c : Thread nD τ) arg3 fullShare xa ∗ owns (c : Thread nD τ) arg4 fullShare xb ∗ owns (c : Thread nD τ) arg5 fullShare xbias
            ∗ owns (c : Thread nD τ) arg6 fullShare xo
            ∗ owns (c : Thread nD τ) arg7 fullShare (k2_pay2 xa xb xs)) -∗ K ⟨⟩))
      ⊢ wp frame (wpE (defs₀ (F := F)) Variants.none c none) E (cc2__matmul_kernel_plain i arg3 harg3 arg4 harg4 arg5 harg5 arg6 harg6 arg7 harg7) K := by
  simp only [cc2__matmul_kernel_plain_eq_skeleton]; unfold cc2__matmul_kernel_plain_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    exact harg6.read_unread _
  · iexists _; isplitr; swap; · iexact H7
    ipureintro
    sl_unfold_words
    simp only [Cert.LibWholeStore.read_writes_whole (S := S512x128) _ _ hz, Cert.LibWholeStore.readCov_whole (S := S512x128) _ hz, View.readAt_eq_ld,
      harg3.read_unread, harg4.read_unread, harg5.read_unread, harg7.read_unread, View.ld_unit_zero (S := S512x2048) hz, View.ld_unit_zero (S := S2048x128) hz,
      View.ld_unit_zero (S := S512x128) hz, View.ld_unit_zero (S := S1x128) hz]

set_option maxHeartbeats 1000000 in
/-- LAST STEP (only the storing guard holds): as a middle step, and the output buffer ends at the closing payload of
    the new accumulator and the bias row. -/
theorem runC (c : Dev nD) (i : grid2.Coords)
    (arg3 : Memref sig .tc .vmem S512x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S512x128 .f32) (harg6 : arg6.IsWhole)
    (arg7 : Memref sig .tc .vmem S512x128 .f32) (harg7 : arg7.IsWhole)
    (hc1 : ¬ Scalar.cmpi .ne (Scalar.extui (Scalar.cmpi .eq (BitVec.ofNat 32 (i 2).val) 0#32)) 0#32 = 1#1) (hc2 : k2_cond2 i = 1#1)
    (xa : Vec F S512x2048 .f32) (xb : Vec F S2048x128 .f32) (xbias : Vec F S1x128 .f32) (xo : Vec F S512x128 .f32) (xs : Vec F S512x128 .f32)
    (E : Set ℕ) (K : PUnit → sProp 𝕄) :
    iprop(owns (c : Thread nD τ) arg3 fullShare xa ∗ owns (c : Thread nD τ) arg4 fullShare xb ∗ owns (c : Thread nD τ) arg5 fullShare xbias
        ∗ owns (c : Thread nD τ) arg6 fullShare xo ∗ owns (c : Thread nD τ) arg7 fullShare xs
        ∗ (iprop(owns (c : Thread nD τ) arg3 fullShare xa ∗ owns (c : Thread nD τ) arg4 fullShare xb ∗ owns (c : Thread nD τ) arg5 fullShare xbias
            ∗ owns (c : Thread nD τ) arg6 fullShare (k2_pay3 (k2_pay2 xa xb xs) xbias)
            ∗ owns (c : Thread nD τ) arg7 fullShare (k2_pay2 xa xb xs)) -∗ K ⟨⟩))
      ⊢ wp frame (wpE (defs₀ (F := F)) Variants.none c none) E (cc2__matmul_kernel_plain i arg3 harg3 arg4 harg4 arg5 harg5 arg6 harg6 arg7 harg7) K := by
  simp only [cc2__matmul_kernel_plain_eq_skeleton]; unfold cc2__matmul_kernel_plain_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    simp only [Cert.LibWholeStore.read_writes_whole (S := S512x128) _ _ hz, Cert.LibWholeStore.readCov_whole (S := S512x128) _ hz, View.readAt_eq_ld,
      harg3.read_unread, harg4.read_unread, harg5.read_unread, harg7.read_unread, View.ld_unit_zero (S := S512x2048) hz, View.ld_unit_zero (S := S2048x128) hz,
      View.ld_unit_zero (S := S512x128) hz, View.ld_unit_zero (S := S1x128) hz]
  · iexists _; isplitr; swap; · iexact H7
    ipureintro
    sl_unfold_words
    simp only [Cert.LibWholeStore.read_writes_whole (S := S512x128) _ _ hz, Cert.LibWholeStore.readCov_whole (S := S512x128) _ hz, View.readAt_eq_ld,
      harg3.read_unread, harg4.read_unread, harg5.read_unread, harg7.read_unread, View.ld_unit_zero (S := S512x2048) hz, View.ld_unit_zero (S := S2048x128) hz,
      View.ld_unit_zero (S := S512x128) hz, View.ld_unit_zero (S := S1x128) hz]

/-! ## The proof data, at the contents the region is entered with -/

variable (V : (c : Dev nD) → (b : Ref sig .tc) → Buf (Elt F) ((c : Thread nD τ).loc b))

/-- Window w's block of its array at grid point t. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The grid point numbered n (numbers past the grid wrap; only n < 64 is ever used). -/
def ptOf (n : ℕ) : Fin cfg2.N := ⟨n % 64, Nat.mod_lt _ (by decide)⟩

theorem ptOf_val (t : Fin cfg2.N) : ptOf t.val = t := Fin.ext (Nat.mod_eq_of_lt t.isLt)

/-- What the accumulator holds after point n: the block product of point n added to zero at a first step, and to what
    point n − 1 left otherwise. -/
def accAt (c : Dev nD) : ℕ → Vec F S512x128 .f32
  | 0 => k2_pay2 (iblk V c 0 (ptOf 0)) (iblk V c 1 (ptOf 0)) k2_pay1
  | n + 1 => k2_pay2 (iblk V c 0 (ptOf (n + 1))) (iblk V c 1 (ptOf (n + 1))) (if (n + 1) % 4 = 0 then k2_pay1 else accAt c n)

theorem accAt_first (c : Dev nD) (n : ℕ) (h : n % 4 = 0) :
    accAt V c n = k2_pay2 (iblk V c 0 (ptOf n)) (iblk V c 1 (ptOf n)) k2_pay1 := by
  cases n with
  | zero => rfl
  | succ k =>
    show k2_pay2 _ _ (if (k + 1) % 4 = 0 then k2_pay1 else accAt V c k) = _
    rw [if_pos h]

theorem accAt_next (c : Dev nD) (n : ℕ) (h : n % 4 ≠ 0) :
    accAt V c n = k2_pay2 (iblk V c 0 (ptOf n)) (iblk V c 1 (ptOf n)) (accAt V c (n - 1)) := by
  cases n with
  | zero => exact absurd rfl h
  | succ k =>
    show k2_pay2 _ _ (if (k + 1) % 4 = 0 then k2_pay1 else accAt V c k) = _
    rw [if_neg h]; rfl

/-- The output block a last step stores: the closing payload of the accumulator after that point and the bias row. -/
def outBlk (c : Dev nD) (t : Fin cfg2.N) : Vec F S512x128 .f32 := k2_pay3 (accAt V c t.val) (iblk V c 2 t)

/-- The scoped buffers other than the accumulator, at some contents. -/
abbrev restBut (c : Dev nD) : sProp 𝕄 :=
  Pipeline.scopedRestBut (Ix := Unit) (Name := ℕ) (U := UR sig nD τ) (Lvl := ℕ) (Val := Elt F) spec2 c [cc2_scratch0]

/-- Between points: the accumulator at what the point before left (at anything before the first point), and the other
    scoped buffers. -/
def Φt (c : Dev nD) (t : Fin (cfg2.N + 1)) : sProp 𝕄 :=
  iprop((∃ f : Buf (Elt F) ((c : Thread nD τ).loc cc2_scratch0), ⌜t.val ≠ 0 → f = accAt V c (t.val - 1)⌝
      ∗ owns (c : Thread nD τ) (Memref.whole cc2_scratch0) fullShare f) ∗ restBut c)

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outBlk V c t
  Φ t := Φt V c t
  q _ := fullShare
  owed _ := 0

theorem A_eq (c : Dev nD) (w : Fin cfg2.W) : (dat V c).A w = V c (Pipeline.arrRef spec2 w) := by dsimp only [dat]
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = outBlk V c t := by dsimp only [dat]

/-- An input window's buffer holds its block at every point, fetched there or not. -/
theorem before0 (c : Dev nD) (t : Fin cfg2.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg2.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg2.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-! ## The guards over the grid: the step along the contracted axis is t % 4 -/

theorem guard1 : ∀ t : Fin cfg2.N,
    Scalar.cmpi .ne (Scalar.extui (Scalar.cmpi .eq (BitVec.ofNat 32 ((grid2.coords t) 2).val) 0#32)) 0#32 = 1#1 ↔ t.val % 4 = 0 := by
  decide +kernel
theorem guard2 : ∀ t : Fin cfg2.N, k2_cond2 (grid2.coords t) = 1#1 ↔ t.val % 4 = 3 := by decide +kernel
/-- The output window is idle, and not written back, at every point but a last step. -/
theorem idle3 : ∀ t : Fin cfg2.N, t.val % 4 ≠ 3 → idle2 3 (grid2.coords t) = true := by decide +kernel
theorem live3 : ∀ t : Fin cfg2.N, t.val % 4 = 3 → idle2 3 (grid2.coords t) = false := by decide +kernel
theorem noflush3 : ∀ t : Fin cfg2.N, t.val % 4 ≠ 3 → (win2 3).flush t = false := by decide +kernel

/-! ## The body obligation -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- What the body returns at a point that is no last step: the output window's buffer as it was handed over. -/
def bodyPostIdle (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ (∃ d, owns (c : Thread nD τ) (st2_3 t) fullShare ((dat V c).before 3 t d)))

/-- What it returns at a last step: the output window's buffer at the stored block. -/
def bodyPostLive (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

theorem succ_val_sub (t : Fin cfg2.N) : t.succ.val - 1 = t.val := by simp

theorem sound_bodyA (c : Dev nD) (t : Fin cfg2.N) (h0 : t.val % 4 = 0) :
    bodyPre V c t ⊢ wp frame (wpE (defs₀ (F := F)) Variants.none c none) Set.univ (bodyAt2 t) (fun _ => bodyPostIdle V c t) := by
  unfold bodyPre bodyPostIdle bodyAt2
  simp only [before0, before1, before2]
  rw [show (dat V c).Φ t.succ = Φt V c t.succ from rfl, show (dat V c).Φ t.castSucc = Φt V c t.castSucc from rfl,
    show (dat V c).owesAt () t.succ = (dat V c).owesAt () t.castSucc from rfl, after0, after1, after2]
  unfold Φt
  iintro ⟨⟨⟨%fs, -, HS⟩, HR⟩, Ho, ⟨%d0, H0⟩, ⟨%d1, H1⟩, ⟨%d2, H2⟩, ⟨%d3, H3⟩⟩
  iapply (runA c (grid2.coords t) _ _ _ _ _ _ _ _ _ _ ((guard1 t).2 h0) (fun h => by have := (guard2 t).1 h; omega)
    (iblk V c 0 t) (iblk V c 1 t) (iblk V c 2 t) _ fs Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; isplitr; swap; · iexact HS
      ipureintro; intro _
      rw [succ_val_sub, accAt_first V c t.val h0, ptOf_val]
    iexact HR
  isplitl [Ho]; · iexact Ho
  isplitl [H0]; · iexact H0
  isplitl [H1]; · iexact H1
  isplitl [H2]; · iexact H2
  iexists _; iexact H3

theorem sound_bodyB (c : Dev nD) (t : Fin cfg2.N) (h0 : t.val % 4 ≠ 0) (h3 : t.val % 4 ≠ 3) :
    bodyPre V c t ⊢ wp frame (wpE (defs₀ (F := F)) Variants.none c none) Set.univ (bodyAt2 t) (fun _ => bodyPostIdle V c t) := by
  unfold bodyPre bodyPostIdle bodyAt2
  simp only [before0, before1, before2]
  rw [show (dat V c).Φ t.succ = Φt V c t.succ from rfl, show (dat V c).Φ t.castSucc = Φt V c t.castSucc from rfl,
    show (dat V c).owesAt () t.succ = (dat V c).owesAt () t.castSucc from rfl, after0, after1, after2]
  unfold Φt
  iintro ⟨⟨⟨%fs, %hfs, HS⟩, HR⟩, Ho, ⟨%d0, H0⟩, ⟨%d1, H1⟩, ⟨%d2, H2⟩, ⟨%d3, H3⟩⟩
  have hfs' : fs = accAt V c (t.val - 1) := hfs (by show t.val ≠ 0; omega)
  subst hfs'
  iapply (runB c (grid2.coords t) _ _ _ _ _ _ _ _ _ _ (fun h => h0 ((guard1 t).1 h)) (fun h => h3 ((guard2 t).1 h))
    (iblk V c 0 t) (iblk V c 1 t) (iblk V c 2 t) _ (accAt V c (t.val - 1)) Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; isplitr; swap; · iexact HS
      ipureintro; intro _
      rw [succ_val_sub, accAt_next V c t.val h0, ptOf_val]
    iexact HR
  isplitl [Ho]; · iexact Ho
  isplitl [H0]; · iexact H0
  isplitl [H1]; · iexact H1
  isplitl [H2]; · iexact H2
  iexists _; iexact H3

theorem sound_bodyC (c : Dev nD) (t : Fin cfg2.N) (h3 : t.val % 4 = 3) :
    bodyPre V c t ⊢ wp frame (wpE (defs₀ (F := F)) Variants.none c none) Set.univ (bodyAt2 t) (fun _ => bodyPostLive V c t) := by
  unfold bodyPre bodyPostLive bodyAt2
  simp only [before0, before1, before2]
  rw [show (dat V c).Φ t.succ = Φt V c t.succ from rfl, show (dat V c).Φ t.castSucc = Φt V c t.castSucc from rfl,
    show (dat V c).owesAt () t.succ = (dat V c).owesAt () t.castSucc from rfl, after0, after1, after2, after3]
  unfold Φt
  iintro ⟨⟨⟨%fs, %hfs, HS⟩, HR⟩, Ho, ⟨%d0, H0⟩, ⟨%d1, H1⟩, ⟨%d2, H2⟩, ⟨%d3, H3⟩⟩
  have hfs' : fs = accAt V c (t.val - 1) := hfs (by show t.val ≠ 0; omega)
  subst hfs'
  have hacc : k2_pay2 (iblk V c 0 t) (iblk V c 1 t) (accAt V c (t.val - 1)) = accAt V c t.val := by
    rw [accAt_next V c t.val (by omega), ptOf_val]
  iapply (runC c (grid2.coords t) _ _ _ _ _ _ _ _ _ _ (fun h => by have := (guard1 t).1 h; omega) ((guard2 t).2 h3)
    (iblk V c 0 t) (iblk V c 1 t) (iblk V c 2 t) _ (accAt V c (t.val - 1)) Set.univ _)
  isplitl [H0]; · iexact H0
  isplitl [H1]; · iexact H1
  isplitl [H2]; · iexact H2
  isplitl [H3]; · iexact H3
  isplitl [HS]; · iexact HS
  rw [hacc]
  iintro ⟨H0, H1, H2, H3, HS⟩
  isplitl [HS HR]
  · isplitl [HS]
    · iexists _; isplitr; swap; · iexact HS
      ipureintro; intro _
      rw [succ_val_sub]
    iexact HR
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W2, bigSep_W2]
  by_cases h3 : t.val % 4 = 3
  · simp only [live3 t h3]
    exact sound_bodyC V c t h3
  · simp only [idle3 t h3, noflush3 t h3]
    by_cases h0 : t.val % 4 = 0
    · exact sound_bodyA V c t h0
    · exact sound_bodyB V c t h0 h3

/-! ## Into and out of the region -/

/-- The accumulator taken out of the scoped rest. -/
theorem rest_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), owns (c : Thread nD τ) (Memref.whole cc2_scratch0) fullShare f)
          ∗ restBut c) := by
  simp only [owns_whole]
  exact Pipeline.scopedRest_split_of_list spec2 c [cc2_scratch0] (by decide) (by decide)

/-- Before the first point the accumulator is one of the scoped buffers at some contents. -/
theorem Φ_in (c : Dev nD) :
    (Pipeline.scopedRest (Ix := Unit) (Name := ℕ) (U := UR sig nD τ) (Lvl := ℕ) (Val := Elt F) spec2 c : sProp 𝕄) ⊢ (dat V c).Φ 0 := by
  rw [show (dat V c).Φ 0 = Φt V c 0 from rfl, rest_split]
  unfold Φt
  iintro ⟨⟨%f, HS⟩, HR⟩
  isplitl [HS]
  · iexists f; isplitr; · ipureintro; intro h; exact absurd rfl h
    iexact HS
  iexact HR

/-- After the last point what the accumulator holds is forgotten again. -/
theorem Φ_out (c : Dev nD) :
    (dat V c).Φ (Fin.last cfg2.N) ⊢ (Pipeline.scopedRest (Ix := Unit) (Name := ℕ) (U := UR sig nD τ) (Lvl := ℕ) (Val := Elt F) spec2 c : sProp 𝕄) := by
  rw [show (dat V c).Φ (Fin.last cfg2.N) = Φt V c (Fin.last cfg2.N) from rfl, rest_split]
  unfold Φt
  iintro ⟨⟨%f, -, HS⟩, HR⟩
  isplitl [HS]
  · iexists f; iexact HS
  iexact HR

end Cert.KernelIdeal.Reg2

end
-- ==== Proof.KAsm.lean ====
/-
  The three matrix products joined along @main.  Between two items of @main every unscoped buffer of the core holds
  known contents: the launch memory, then each stretch of host operations applied, then, after a product, its output
  array at what the pipeline leaves there (the blocks the last steps stored, written back one row block at a time)
  and every other buffer untouched.  Each product is entered from the contents before it and its proof data are
  stated at those contents, so the first product's output is what the second reads, and the first's left operand and
  the second's output are what the third reads.  The run of @main then ends with every unscoped buffer, the result
  and the six arguments among them, at the last of these contents.
-/
import proofs.«100943_j2456721293623_1_alg».proof.Proof.Region0
import proofs.«100943_j2456721293623_1_alg».proof.Proof.Region1
import proofs.«100943_j2456721293623_1_alg».proof.Proof.Region2
import proofs.«100943_j2456721293623_1_alg».proof.Proof.Gen.KernelIdeal.Regions
import Idealize.ShloMosaic.Lib.Pipeline.RegionsLoop

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents between the products -/

/-- What the first product is entered with, read at the TensorCore's references. -/
abbrev E0 : (c : Dev nD) → (b : Ref sig .tc) → Buf (Elt F) ((c : Thread nD τ).loc b) := fun c b => V3 m c b
/-- The first product's output array when it ends. -/
def X0 (c : Dev nD) : Buf (Elt F) ((c : Thread nD τ).loc main_v48) := (Reg0.dat (E0 m) c).arrAt 3 cfg0.N
/-- The contents after the first product. -/
abbrev W4 (c : Dev nD) : Valuation τ sig (Elt F) := Function.update (V3 m c) main_v48 (X0 m c)
abbrev E1 : (c : Dev nD) → (b : Ref sig .tc) → Buf (Elt F) ((c : Thread nD τ).loc b) := fun c b => W4 m c b
/-- The second product's output array when it ends. -/
def X1 (c : Dev nD) : Buf (Elt F) ((c : Thread nD τ).loc main_v49) := (Reg1.dat (E1 m) c).arrAt 3 cfg1.N
abbrev W5 (c : Dev nD) : Valuation τ sig (Elt F) := Function.update (W4 m c) main_v49 (X1 m c)
abbrev E2 : (c : Dev nD) → (b : Ref sig .tc) → Buf (Elt F) ((c : Thread nD τ).loc b) := fun c b => W5 m c b
/-- The third product's output array when it ends. -/
def X2 (c : Dev nD) : Buf (Elt F) ((c : Thread nD τ).loc main_v50) := (Reg2.dat (E2 m) c).arrAt 3 cfg2.N

/-- What the products leave, as the table of unknowns the host side's valuations are written over. -/
def outs : Outs (F := F) := fun _ r c =>
  if h : r = main_v48 then h ▸ X0 m c
  else if h : r = main_v49 then h ▸ X1 m c
  else if h : r = main_v50 then h ▸ X2 m c
  else V3 m c r

theorem outs48 (c : Dev nD) : outs m 4 main_v48 c = X0 m c := by unfold outs; rw [dif_pos rfl]
theorem outs49 (c : Dev nD) : outs m 5 main_v49 c = X1 m c := by
  unfold outs; rw [dif_neg (by decide), dif_pos rfl]
theorem outs50 (c : Dev nD) : outs m 6 main_v50 c = X2 m c := by
  unfold outs; rw [dif_neg (by decide), dif_neg (by decide), dif_pos rfl]

theorem V4_eq (c : Dev nD) : V4 m (outs m) c = W4 m c := by
  show Function.update (V3 m c) main_v48 (outs m 4 main_v48 c) = _
  rw [outs48]
theorem V5_eq (c : Dev nD) : V5 m (outs m) c = W5 m c := by
  show Function.update (V4 m (outs m) c) main_v49 (outs m 5 main_v49 c) = _
  rw [outs49, V4_eq]

/-- A product changes its output array only. -/
theorem V4_keeps (c : Dev nD) (r : Ref sig .tc) (h : r ∉ ([main_v48] : List (Ref sig .tc))) : V4 m (outs m) c r = V3 m c r :=
  V4_of m (outs m) c r h
theorem V5_keeps (c : Dev nD) (r : Ref sig .tc) (h : r ∉ ([main_v49] : List (Ref sig .tc))) : V5 m (outs m) c r = V4 m (outs m) c r :=
  V5_of m (outs m) c r h
theorem V6_keeps (c : Dev nD) (r : Ref sig .tc) (h : r ∉ ([main_v50] : List (Ref sig .tc))) : V6 m (outs m) c r = V5 m (outs m) c r :=
  V6_of m (outs m) c r h
theorem V4_out (c : Dev nD) : V4 m (outs m) c main_v48 = (Reg0.dat (E0 m) c).arrAt 3 cfg0.N := by
  show Function.update (V3 m c) main_v48 (outs m 4 main_v48 c) main_v48 = _
  rw [Function.update_self, outs48]; rfl
theorem V5_out (c : Dev nD) : V5 m (outs m) c main_v49 = (Reg1.dat (E1 m) c).arrAt 3 cfg1.N := by
  show Function.update (V4 m (outs m) c) main_v49 (outs m 5 main_v49 c) main_v49 = _
  rw [Function.update_self, outs49]; rfl
theorem V6_out (c : Dev nD) : V6 m (outs m) c main_v50 = (Reg2.dat (E2 m) c).arrAt 3 cfg2.N := by
  show Function.update (V5 m (outs m) c) main_v50 (outs m 6 main_v50 c) main_v50 = _
  rw [Function.update_self, outs50]; rfl

/-! ## The proof data family and what rides along -/

/-- Every product's proof data, each at the contents it is entered with. -/
def pdats : (p : Fin 3) → (c : Dev nD) → Dat τ (Elt F) Unit ℕ (UR sig nD τ) ℕ (Pipeline.pin (pcfgs (F := F)) adm p) c
  | ⟨0, _⟩ => fun c => Reg0.dat (E0 m) c
  | ⟨1, _⟩ => fun c => Reg1.dat (E1 m) c
  | ⟨2, _⟩ => fun c => Reg2.dat (E2 m) c

abbrev 𝒱₀ : Variants := Variants.none
/-- No core owes another anything. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-- Each product's arrays are the entry contents at its windows' references. -/
theorem hA0 (c : Dev nD) (w : Fin cfg0.W) : (pdats m 0 c).A w = (fun b : Ref sig .tc => V3 m c b) (Pipeline.arrRef spec0 w) := rfl
theorem hA1 (c : Dev nD) (w : Fin cfg1.W) : (pdats m 1 c).A w = (fun b : Ref sig .tc => V4 m (outs m) c b) (Pipeline.arrRef spec1 w) := by
  show W4 m c _ = V4 m (outs m) c _
  rw [V4_eq]
theorem hA2 (c : Dev nD) (w : Fin cfg2.W) : (pdats m 2 c).A w = (fun b : Ref sig .tc => V5 m (outs m) c b) (Pipeline.arrRef spec2 w) := by
  show W5 m c _ = V5 m (outs m) c _
  rw [V5_eq]

/-- The contents a product's proof data are stated at are the contents before it. -/
theorem E0_eq (c : Dev nD) (b : Ref sig .tc) : E0 m c b = V3 m c b := rfl
theorem E1_eq (c : Dev nD) (b : Ref sig .tc) : E1 m c b = V4 m (outs m) c b := (congrFun (V4_eq m c) _).symm
theorem E2_eq (c : Dev nD) (b : Ref sig .tc) : E2 m c b = V5 m (outs m) c b := (congrFun (V5_eq m c) _).symm

/-! ## The products as segments -/

/-- The arrays of product 0 at its exit: the inputs as entered, the output at the folded write-backs. -/
theorem hF0 (c : Dev nD) (w : Fin cfg0.W) :
    (pdats m 0 c).arrAt w cfg0.N = (fun b : Ref sig .tc => V4 m (outs m) c b) (Pipeline.arrRef spec0 w) := by
  match w with
  | ⟨0, _⟩ =>
    show (Reg0.dat (E0 m) c).arrAt 0 cfg0.N = V4 m (outs m) c main_v44
    exact ((Reg0.dat (E0 m) c).arrAt_in 0 rfl _).trans ((Reg0.A_eq (E0 m) c 0).trans ((E0_eq m c main_v44).trans (V4_keeps m c main_v44 (by decide)).symm))
  | ⟨1, _⟩ =>
    show (Reg0.dat (E0 m) c).arrAt 1 cfg0.N = V4 m (outs m) c main_arg2
    exact ((Reg0.dat (E0 m) c).arrAt_in 1 rfl _).trans ((Reg0.A_eq (E0 m) c 1).trans ((E0_eq m c main_arg2).trans (V4_keeps m c main_arg2 (by decide)).symm))
  | ⟨2, _⟩ =>
    show (Reg0.dat (E0 m) c).arrAt 2 cfg0.N = V4 m (outs m) c main_v45
    exact ((Reg0.dat (E0 m) c).arrAt_in 2 rfl _).trans ((Reg0.A_eq (E0 m) c 2).trans ((E0_eq m c main_v45).trans (V4_keeps m c main_v45 (by decide)).symm))
  | ⟨3, _⟩ =>
    show (Reg0.dat (E0 m) c).arrAt 3 cfg0.N = V4 m (outs m) c main_v48
    exact (V4_out m c).symm

/-- Every other buffer is as the product found it. -/
theorem hrest0 (c : Dev nD) : ∀ b : Ref sig .tc, b ∉ Finset.univ.image (Pipeline.arrRef spec0) → V4 m (outs m) c b = V3 m c b :=
  fun b hb => V4_keeps m c b (fun h => hb (by
    rw [List.mem_singleton] at h; subst h
    exact Finset.mem_image.mpr ⟨3, Finset.mem_univ _, rfl⟩))

set_option backward.isDefEq.respectTransparency.types false in
/-- PRODUCT 0 as a segment of @main: entered with every unscoped buffer at the contents before it, left with the
    output array at the folded write-backs and everything else untouched; its arrays are split out of the unscoped
    buffers on the way in and put back on the way out; the accumulator comes out of the scoped rest and goes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (E0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X _ := BI.emp
  Y _ := BI.emp
  Z c := iprop(Pipeline.unscopedRest (Ix := Unit) (Name := ℕ) (U := UR sig nD τ) (Lvl := ℕ) spec0 c (fun b : Ref sig .tc => V3 m c b) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b : Ref sig .tc => V3 m c b) (hA0 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    show _ ⊢ (Reg0.dat (E0 m) c).Φ 0
    iintro ⟨-, -, Hr⟩
    iapply (Reg0.Φ_in (E0 m) c); iexact Hr
  hout c := by
    rw [Pipeline.ownSems0_none]
    show (Reg0.dat (E0 m) c).Φ (Fin.last cfg0.N) ⊢ _
    iintro H
    isplitr; · iempintro
    isplitr; · iempintro
    iapply (Reg0.Φ_out (E0 m) c); iexact H
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b : Ref sig .tc => V3 m c b) (fun b : Ref sig .tc => V4 m (outs m) c b) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The arrays of product 1 at its exit: the inputs as entered, the output at the folded write-backs. -/
theorem hF1 (c : Dev nD) (w : Fin cfg1.W) :
    (pdats m 1 c).arrAt w cfg1.N = (fun b : Ref sig .tc => V5 m (outs m) c b) (Pipeline.arrRef spec1 w) := by
  match w with
  | ⟨0, _⟩ =>
    show (Reg1.dat (E1 m) c).arrAt 0 cfg1.N = V5 m (outs m) c main_v48
    exact ((Reg1.dat (E1 m) c).arrAt_in 0 rfl _).trans ((Reg1.A_eq (E1 m) c 0).trans ((E1_eq m c main_v48).trans (V5_keeps m c main_v48 (by decide)).symm))
  | ⟨1, _⟩ =>
    show (Reg1.dat (E1 m) c).arrAt 1 cfg1.N = V5 m (outs m) c main_arg4
    exact ((Reg1.dat (E1 m) c).arrAt_in 1 rfl _).trans ((Reg1.A_eq (E1 m) c 1).trans ((E1_eq m c main_arg4).trans (V5_keeps m c main_arg4 (by decide)).symm))
  | ⟨2, _⟩ =>
    show (Reg1.dat (E1 m) c).arrAt 2 cfg1.N = V5 m (outs m) c main_v47
    exact ((Reg1.dat (E1 m) c).arrAt_in 2 rfl _).trans ((Reg1.A_eq (E1 m) c 2).trans ((E1_eq m c main_v47).trans (V5_keeps m c main_v47 (by decide)).symm))
  | ⟨3, _⟩ =>
    show (Reg1.dat (E1 m) c).arrAt 3 cfg1.N = V5 m (outs m) c main_v49
    exact (V5_out m c).symm

/-- Every other buffer is as the product found it. -/
theorem hrest1 (c : Dev nD) : ∀ b : Ref sig .tc, b ∉ Finset.univ.image (Pipeline.arrRef spec1) → V5 m (outs m) c b = V4 m (outs m) c b :=
  fun b hb => V5_keeps m c b (fun h => hb (by
    rw [List.mem_singleton] at h; subst h
    exact Finset.mem_image.mpr ⟨3, Finset.mem_univ _, rfl⟩))

set_option backward.isDefEq.respectTransparency.types false in
/-- PRODUCT 1 as a segment of @main: entered with every unscoped buffer at the contents before it, left with the
    output array at the folded write-backs and everything else untouched; its arrays are split out of the unscoped
    buffers on the way in and put back on the way out; the accumulator comes out of the scoped rest and goes back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (E1 m) c).loose
  hwaits := Pipeline.hwaits_of_owed_zero _ _ _ _ L lv 1 fun _ _ => rfl
  pre c := iprop(StableHlo.held (c : Thread nD τ) (Pipeline.ucRefs τ sig) (V4 m (outs m) c) ∗ R c)
  post c := iprop(StableHlo.held (c : Thread nD τ) (Pipeline.ucRefs τ sig) (V5 m (outs m) c) ∗ R c)
  X _ := BI.emp
  Y _ := BI.emp
  Z c := iprop(Pipeline.unscopedRest (Ix := Unit) (Name := ℕ) (U := UR sig nD τ) (Lvl := ℕ) spec1 c (fun b : Ref sig .tc => V4 m (outs m) c b) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b : Ref sig .tc => V4 m (outs m) c b) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    show _ ⊢ (Reg1.dat (E1 m) c).Φ 0
    iintro ⟨-, -, Hr⟩
    iapply (Reg1.Φ_in (E1 m) c); iexact Hr
  hout c := by
    rw [Pipeline.ownSems0_none]
    show (Reg1.dat (E1 m) c).Φ (Fin.last cfg1.N) ⊢ _
    iintro H
    isplitr; · iempintro
    isplitr; · iempintro
    iapply (Reg1.Φ_out (E1 m) c); iexact H
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b : Ref sig .tc => V4 m (outs m) c b) (fun b : Ref sig .tc => V5 m (outs m) c b) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The arrays of product 2 at its exit: the inputs as entered, the output at the folded write-backs. -/
theorem hF2 (c : Dev nD) (w : Fin cfg2.W) :
    (pdats m 2 c).arrAt w cfg2.N = (fun b : Ref sig .tc => V6 m (outs m) c b) (Pipeline.arrRef spec2 w) := by
  match w with
  | ⟨0, _⟩ =>
    show (Reg2.dat (E2 m) c).arrAt 0 cfg2.N = V6 m (outs m) c main_v44
    exact ((Reg2.dat (E2 m) c).arrAt_in 0 rfl _).trans ((Reg2.A_eq (E2 m) c 0).trans ((E2_eq m c main_v44).trans (V6_keeps m c main_v44 (by decide)).symm))
  | ⟨1, _⟩ =>
    show (Reg2.dat (E2 m) c).arrAt 1 cfg2.N = V6 m (outs m) c main_v49
    exact ((Reg2.dat (E2 m) c).arrAt_in 1 rfl _).trans ((Reg2.A_eq (E2 m) c 1).trans ((E2_eq m c main_v49).trans (V6_keeps m c main_v49 (by decide)).symm))
  | ⟨2, _⟩ =>
    show (Reg2.dat (E2 m) c).arrAt 2 cfg2.N = V6 m (outs m) c main_v46
    exact ((Reg2.dat (E2 m) c).arrAt_in 2 rfl _).trans ((Reg2.A_eq (E2 m) c 2).trans ((E2_eq m c main_v46).trans (V6_keeps m c main_v46 (by decide)).symm))
  | ⟨3, _⟩ =>
    show (Reg2.dat (E2 m) c).arrAt 3 cfg2.N = V6 m (outs m) c main_v50
    exact (V6_out m c).symm

/-- Every other buffer is as the product found it. -/
theorem hrest2 (c : Dev nD) : ∀ b : Ref sig .tc, b ∉ Finset.univ.image (Pipeline.arrRef spec2) → V6 m (outs m) c b = V5 m (outs m) c b :=
  fun b hb => V6_keeps m c b (fun h => hb (by
    rw [List.mem_singleton] at h; subst h
    exact Finset.mem_image.mpr ⟨3, Finset.mem_univ _, rfl⟩))

set_option backward.isDefEq.respectTransparency.types false in
/-- PRODUCT 2 as a segment of @main: entered with every unscoped buffer at the contents before it, left with the
    output array at the folded write-backs and everything else untouched; its arrays are split out of the unscoped
    buffers on the way in and put back on the way out; the accumulator comes out of the scoped rest and goes back. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (E2 m) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X _ := BI.emp
  Y _ := BI.emp
  Z c := iprop(Pipeline.unscopedRest (Ix := Unit) (Name := ℕ) (U := UR sig nD τ) (Lvl := ℕ) spec2 c (fun b : Ref sig .tc => V5 m (outs m) c b) ∗ ∃ r, prngReg c r)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b : Ref sig .tc => V5 m (outs m) c b) (hA2 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    show _ ⊢ (Reg2.dat (E2 m) c).Φ 0
    iintro ⟨-, -, Hr⟩
    iapply (Reg2.Φ_in (E2 m) c); iexact Hr
  hout c := by
    rw [Pipeline.ownSems0_none]
    show (Reg2.dat (E2 m) c).Φ (Fin.last cfg2.N) ⊢ _
    iintro H
    isplitr; · iempintro
    isplitr; · iempintro
    iapply (Reg2.Φ_out (E2 m) c); iexact H
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b : Ref sig .tc => V5 m (outs m) c b) (fun b : Ref sig .tc => V6 m (outs m) c b) ((pdats m 2 c).arrAt · cfg2.N) (hF2 m c) (hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Asm

end
-- ==== Proof.KRun.lean ====
/-
  The run of the kernel program's @main: from any memory with every counter at zero, every weakly fair execution
  ends, nothing faulting, with each unscoped buffer of each core at the last of the contents the assembly names: the
  launch memory carried through the host operations before the products, the three products' outputs, and the host
  operations after them.  The six arguments are among those buffers and no item writes them, so they end as launched
  (the frame); the result is among them too, at the last host operations' value of the third product's output.
-/
import proofs.«100943_j2456721293623_1_alg».proof.Proof.KAsm

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.Pipeline (Seg HostSeg RegionSeg)

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What rides beside the buffers ends owing nothing. -/
theorem R_owes (c : Dev nD) : R (F := F) c ⊢ (iprop(∃ W, owes (c : Thread nD τ) (0 : CellTallies nD τ sig Unit) W) : sProp 𝕄) := by
  iintro ⟨-, H⟩; iexact H

set_option backward.isDefEq.respectTransparency.types false in
/-- THE RUN: every unscoped buffer ends at the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V7 m (outs m) c b) := by
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m) (reg2 m))
    (fun c Q => by
      rewrite [main_chain c, Seg.run_eq_chain,
        show (segs m (outs m) 𝒱₀ L lv (fun _ => R) () (pdats m) (reg0 m) (reg1 m) (reg2 m) c).map Seg.prog = [
          StableHlo.seq hostOps0,
          StableHlo.seq hostOps0_1,
          StableHlo.seq hostOps0_2,
          Prog.lift (.customCall (Pipeline.entry 0) ()),
          Prog.lift (.customCall (Pipeline.entry 1) ()),
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V7 m (outs m) c))
    (hch := fun c => ⟨.rfl, .rfl, .rfl, .rfl, .rfl, .rfl, .rfl, sep_mono .rfl (R_owes c)⟩)
    (hinit := ?_)
    (QY := fun c s => ∀ b ∈ Pipeline.ucRefs τ sig, s.mem ((c : Thread nD τ).1, b) = V7 m (outs m) c b)
    (hfin := fun c s' => ?_) (hQ := fun _ h => h)
  · -- the launch: the unscoped buffers are held at the launch contents; the rest gives the register and the owes
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (bigSep Finset.univ fun c : Dev nD => iprop(StableHlo.held (c : Thread nD τ) (Pipeline.ucRefs τ sig) (V0 m c) ∗ R c)
            : sProp 𝕄) := by
      have hcore : ∀ c : Dev nD, (iprop(unscopedBufs c (fun b => m ((c.tc : Thread nD τ).loc b)) ∗ unscopedSems0 c
            ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄)
          ⊢ iprop(StableHlo.held (c : Thread nD τ) (Pipeline.ucRefs τ sig) (V0 m c) ∗ R c) := by
        intro c
        rw [← Pipeline.unscopedBufs_held (Ix := Unit) (Name := ℕ) (U := UR sig nD τ) (Lvl := ℕ) c (V0 m c)]
        iintro ⟨Hh, -, HO, -, Hp, -⟩
        isplitl [Hh]; · iexact Hh
        isplitl [Hp]; · iexists _; iexact Hp
        iexists ∅; iexact HO
      exact bigSep_mono fun c _ => hcore c
    iintro ⟨H, -⟩
    imodintro
    iapply hsplit; iexact H
  · -- the end: every unscoped buffer read off the last valuation
    unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro; exact h
    · iexact HSI

/-- THE FRAME: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (V7_main_arg0 m (outs m) c),
     (h c _ (mem_uc main_arg1 (by decide))).trans (V7_main_arg1 m (outs m) c),
     (h c _ (mem_uc main_arg2 (by decide))).trans (V7_main_arg2 m (outs m) c),
     (h c _ (mem_uc main_arg3 (by decide))).trans (V7_main_arg3 m (outs m) c),
     (h c _ (mem_uc main_arg4 (by decide))).trans (V7_main_arg4 m (outs m) c),
     (h c _ (mem_uc main_arg5 (by decide))).trans (V7_main_arg5 m (outs m) c)⟩) (run_all m ρ)

/-- THE RUN WITH ITS RESULT: the result array ends at the last valuation's, the arguments as launched. -/
theorem run_result : θ_run defs (onTc (τ := τ) (main (F := F))) ⟨m, fun _ => 0, ρ⟩ (fun r => ∀ c : Dev nD,
      r.2.mem ((c.tc : Thread nD τ).loc main_v57) = V7 m (outs m) c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v57 (by decide)),
     (h c _ (mem_uc main_arg0 (by decide))).trans (V7_main_arg0 m (outs m) c),
     (h c _ (mem_uc main_arg1 (by decide))).trans (V7_main_arg1 m (outs m) c),
     (h c _ (mem_uc main_arg2 (by decide))).trans (V7_main_arg2 m (outs m) c),
     (h c _ (mem_uc main_arg3 (by decide))).trans (V7_main_arg3 m (outs m) c),
     (h c _ (mem_uc main_arg4 (by decide))).trans (V7_main_arg4 m (outs m) c),
     (h c _ (mem_uc main_arg5 (by decide))).trans (V7_main_arg5 m (outs m) c)⟩) (run_all m ρ)

end Cert.KernelIdeal.Asm

end
-- ==== Proof.LibGatherRows.lean ====
/-
  A gather of rows, read at an index.

  What `h[idx]` of a matrix `h : [N, D]` at a column of row numbers `idx : [E, 1]` lowers to: a `stablehlo.gather`
  whose one offset axis is the result's second (offset_dims `[1]`), whose operand row axis is collapsed and is the one
  axis a start index addresses (collapsed_slice_dims `[0]`, start_index_map `[0]`, index_vector_dim `1`), with slices of
  one whole row (slice_sizes `[1, D]`). Result element `(e, q)` is the operand at row `idx[e, 0]`, read as a signed
  integer and clamped into `[0, N − 1]`, and column `q`.
-/
import Idealize.ShloMosaic.PureOps.Ideal
import Idealize.ShloMosaic.Lib.ValueIdx

noncomputable section

namespace Cert.LibGatherRows

open Idealize.ShloMosaic Idealize.ShloMosaic.ValueIdx

/-- The row a start index names: the signed word clamped into `[0, N − 1]`. -/
def clampRow {w : Nat} (N : Nat) (hN : 0 < N) (b : BitVec w) : Fin N := ⟨min b.toInt.toNat (N - 1), by omega⟩

/-! ## The coordinates of the operand index

For a result index `(e, q)`. The operand's row axis is collapsed and is the one axis the start index addresses: its
slice has size one, so its start is the signed word `idx[e, 0]` clamped into `[0, N − 1]`, and it carries no offset
coordinate. The operand's column axis is the one kept axis and no start index addresses it: its start is `0` and its
offset coordinate is the result's coordinate on the one offset axis, the column `q`. No axis is a batching axis. Each
fact is read off the record once its lists are the stated literals. -/

section Coordinates

variable {N E D w : Nat}
  (d : GatherDims (⟨2, ![N, D]⟩ : Shape) (⟨2, ![E, 1]⟩ : Shape) (⟨2, ![E, D]⟩ : Shape))
  (hoff : d.offsetDims = [1]) (hcoll : d.collapsedSliceDims = [0]) (hob : d.operandBatchingDims = [])
  (hsim : d.startIndexMap = [0]) (hivd : d.indexVectorDim = 1)

include hoff hcoll hob hsim hivd

/-- The start-indices index result index `(e, q)` reads: the batch coordinate `e` on axis 0 (the result's one batch
    axis is its first) and the one component, `0`, on the index vector's axis. -/
theorem siIdx_row (e : Fin E) (q : Fin D) (c : Fin d.startIndexMap.length) :
    d.siIdx (ix2 e q) c = ix2 e (0 : Fin 1) := by
  obtain ⟨od, cd, ob, sb, sm, iv, ss, wf⟩ := d
  subst hoff hcoll hob hsim hivd
  funext b
  refine Fin.ext ?_
  match b with
  | ⟨0, _⟩ => rfl
  | ⟨1, _⟩ =>
    have hc : c.val < 1 := c.isLt
    show c.val = 0
    omega

/-- On the operand's row axis the slice starts at the signed start index clamped into `[0, N − 1]`. -/
theorem start_row (idx : IVec (⟨2, ![E, 1]⟩ : Shape) w) (e : Fin E) (q : Fin D) :
    d.start (ix2 e q) idx 0 = min (idx (ix2 e (0 : Fin 1))).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, siIdx_row d hoff hcoll hob hsim hivd e q, hsl]
  rfl

/-- On the operand's column axis, which no start index addresses, the slice starts at `0`. -/
theorem start_col (idx : IVec (⟨2, ![E, 1]⟩ : Shape) w) (e : Fin E) (q : Fin D) :
    d.start (ix2 e q) idx 1 = 0 := by
  unfold GatherDims.start
  exact dif_neg fun h => Nat.one_ne_zero (congrArg Fin.val (List.mem_singleton.mp (hsim ▸ h)))

/-- No operand axis is a batching axis: the batching coordinate is `0`. -/
theorem batchCoord_zero (e : Fin E) (q : Fin D) (a : Fin 2) : d.batchCoord (ix2 e q) a = 0 :=
  d.batchCoord_eq_zero _ a (by rw [hob]; exact List.not_mem_nil)

/-- The operand's row axis is collapsed: its offset coordinate is `0`. -/
theorem offCoord_row (e : Fin E) (q : Fin D) : d.offCoord (ix2 e q) 0 = 0 :=
  d.offCoord_eq_zero _ 0 fun h => ((d.mem_sKept 0).mp h).1 (by rw [hcoll]; exact List.mem_singleton.mpr rfl)

/-- The operand's column axis is its one kept axis, read by the result's one offset axis: its offset coordinate is
    the result's column. -/
theorem offCoord_col (e : Fin E) (q : Fin D) : d.offCoord (ix2 e q) 1 = q.val := by
  obtain ⟨od, cd, ob, sb, sm, iv, ss, wf⟩ := d
  subst hoff hcoll hob hsim hivd
  rfl

end Coordinates

/-- THE GATHER OF ROWS READ AT `(e, q)`: the operand at the clamped row `idx[e, 0]` names and at column `q`. -/
theorem gatherRows_apply {α : Type} {N E D w : Nat} (hN : 0 < N)
    (d : GatherDims (⟨2, ![N, D]⟩ : Shape) (⟨2, ![E, 1]⟩ : Shape) (⟨2, ![E, D]⟩ : Shape))
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec (⟨2, ![E, 1]⟩ : Shape) w) (e : Fin E) (q : Fin D) :
    Host.gather d x idx (ix2 e q) = x (ix2 (clampRow N hN (idx (ix2 e (0 : Fin 1)))) q) := by
  unfold Host.gather
  refine congrArg x ?_
  funext a
  refine Fin.ext ?_
  match a with
  | ⟨0, _⟩ =>
    show d.start (ix2 e q) idx 0 + d.batchCoord (ix2 e q) 0 + d.offCoord (ix2 e q) 0
      = min (idx (ix2 e (0 : Fin 1))).toInt.toNat (N - 1)
    rw [start_row d hoff hcoll hob hsim hivd idx e q, batchCoord_zero d hoff hcoll hob hsim hivd e q 0,
      offCoord_row d hoff hcoll hob hsim hivd e q]
    rfl
  | ⟨1, _⟩ =>
    show d.start (ix2 e q) idx 1 + d.batchCoord (ix2 e q) 1 + d.offCoord (ix2 e q) 1 = q.val
    rw [start_col d hoff hcoll hob hsim hivd idx e q, batchCoord_zero d hoff hcoll hob hsim hivd e q 1,
      offCoord_col d hoff hcoll hob hsim hivd e q]
    omega

end Cert.LibGatherRows

end
-- ==== Proof.Spec.lean ====
/-
  The two programs as functions of the argument arrays, over the extended reals.

  A graph on 8192 nodes is given by a table of 262144 directed edges (source, target); every node also gets an
  edge to itself, so there are 270336 edges in all.  The in-degree of node v (self edge counted) is deg v ≥ 1, and
  an edge e from s to d carries the weight nrm e = deg(s)^(-1/2) · deg(d)^(-1/2), a real number.

  The reference sends, for a node feature X : [8192, C], the message X[s] · nrm e along every edge and sums the
  messages arriving at each node (agg).  The kernel first builds the weighted adjacency matrix
  adj[d, s] = Σ over the edges e from s to d of nrm e  and multiplies: (adj · X)[d] = Σ_s adj[d, s] · X[s].
  Exchanging the two finite sums shows these agree; on the extended reals the exchange needs the distributive
  law, which holds because every weight and every entry of X is a real number.
-/
import Idealize.ShloMosaic.PureOps.Ideal
import Idealize.ShloMosaic.Lib.ValueIdx
import proofs.«100943_j2456721293623_1_alg».proof.Proof.LibGatherRows

noncomputable section

open scoped BigOperators

namespace Cert.Spec

open Idealize.ShloMosaic Idealize.ShloMosaic.ValueIdx

/-- The edge table: 262144 rows (source, target) of 32-bit words. -/
abbrev EdgeTab : Type := IVec (⟨2, ![262144, 2]⟩ : Shape) 32

/-- Every entry of the edge table is a node id: a word in [0, 8192). -/
def InRange (ei : EdgeTab) : Prop := ∀ (e : Fin 262144) (a : Fin 2), (ei (ix2 e a)).toNat < 8192

/-- Every entry of a matrix is a real number. -/
def Real2 {a b : ℕ} (X : Fin a → Fin b → EReal) : Prop := ∀ i j, ∃ r : ℝ, X i j = (r : EReal)
/-- Every entry of a vector is a real number. -/
def Real1 {a : ℕ} (X : Fin a → EReal) : Prop := ∀ i, ∃ r : ℝ, X i = (r : EReal)

/-- Endpoint a (0 the source, 1 the target) of edge e of the extended list: the table's word for e < 262144,
    and node e − 262144 (its self edge) after that. -/
def node (ei : EdgeTab) (a : Fin 2) (e : Fin 270336) : ℕ :=
  if h : e.val < 262144 then (ei (ix2 ⟨e.val, h⟩ a)).toNat else e.val - 262144

/-- The endpoint as a row of an 8192-row array (clamped; the endpoint itself when the table is in range). -/
def nodeC (ei : EdgeTab) (a : Fin 2) (e : Fin 270336) : Fin 8192 := ⟨min (node ei a e) 8191, by omega⟩

theorem node_lt {ei : EdgeTab} (hr : InRange ei) (a : Fin 2) (e : Fin 270336) : node ei a e < 8192 := by
  unfold node; split
  · exact hr _ _
  · have := e.isLt; omega

theorem nodeC_val {ei : EdgeTab} (hr : InRange ei) (a : Fin 2) (e : Fin 270336) : (nodeC ei a e).val = node ei a e := by
  have := node_lt hr a e
  show min (node ei a e) 8191 = node ei a e
  omega

/-- In-degree of node v, self edge included. -/
def degE (ei : EdgeTab) (v : Fin 8192) : EReal :=
  0 + ∑ e : Fin 270336, if node ei 1 e = v.val then (1 : EReal) else 0

/-- deg^(-1/2), and 0 for a node nothing points to (there is none: every node points to itself). -/
def disE (ei : EdgeTab) (v : Fin 8192) : EReal := if 0 < degE ei v then Ideal.rsqrt (degE ei v) else 0

/-- The weight of edge e. -/
def nrmE (ei : EdgeTab) (e : Fin 270336) : EReal := disE ei (nodeC ei 0 e) * disE ei (nodeC ei 1 e)

/-- The weighted adjacency matrix: entry (d, s) sums the weights of the edges from s to d. -/
def adjE (ei : EdgeTab) (d s : Fin 8192) : EReal :=
  0 + ∑ e : Fin 270336, if node ei 1 e = d.val ∧ node ei 0 e = s.val then nrmE ei e else 0

/-- Message passing: node d receives X[source e] · nrm e from every edge e that points to it. -/
def aggE {C : ℕ} (ei : EdgeTab) (X : Fin 8192 → Fin C → EReal) (d : Fin 8192) (j : Fin C) : EReal :=
  0 + ∑ e : Fin 270336, if node ei 1 e = d.val then X (nodeC ei 0 e) j * nrmE ei e else 0

/-- A matrix product. -/
def mmE {M K N : ℕ} (A : Fin M → Fin K → EReal) (B : Fin K → Fin N → EReal) (i : Fin M) (j : Fin N) : EReal :=
  ∑ k : Fin K, A i k * B k j

/-! ## The kernel: three matrix products around the adjacency matrix -/

def hK (ei : EdgeTab) (W1 : Fin 8192 → Fin 512 → EReal) (b1 : Fin 512 → EReal) (d : Fin 8192) (j : Fin 512) : EReal :=
  max (mmE (adjE ei) W1 d j + b1 j) 0
def gK (ei : EdgeTab) (W1 : Fin 8192 → Fin 512 → EReal) (b1 : Fin 512 → EReal) (W2 : Fin 512 → Fin 128 → EReal)
    (d : Fin 8192) (r : Fin 128) : EReal :=
  mmE (hK ei W1 b1) W2 d r + 0
def outK (ei : EdgeTab) (W1 : Fin 8192 → Fin 512 → EReal) (b1 : Fin 512 → EReal) (W2 : Fin 512 → Fin 128 → EReal)
    (b2 : Fin 128 → EReal) (d : Fin 8192) (r : Fin 128) : EReal :=
  mmE (adjE ei) (gK ei W1 b1 W2) d r + b2 r

/-! ## The reference: two rounds of message passing -/

def hR (ei : EdgeTab) (W1 : Fin 8192 → Fin 512 → EReal) (b1 : Fin 512 → EReal) (d : Fin 8192) (j : Fin 512) : EReal :=
  max (aggE ei W1 d j + b1 j) 0
def gR (ei : EdgeTab) (W1 : Fin 8192 → Fin 512 → EReal) (b1 : Fin 512 → EReal) (W2 : Fin 512 → Fin 128 → EReal)
    (d : Fin 8192) (r : Fin 128) : EReal :=
  mmE (hR ei W1 b1) W2 d r
def outR (ei : EdgeTab) (W1 : Fin 8192 → Fin 512 → EReal) (b1 : Fin 512 → EReal) (W2 : Fin 512 → Fin 128 → EReal)
    (b2 : Fin 128 → EReal) (d : Fin 8192) (r : Fin 128) : EReal :=
  aggE ei (gR ei W1 b1 W2) d r + b2 r

/-! ## The rows the result keeps -/

/-- A possibly negative row word counted from the end, as array indexing reads it. -/
def wrapW (w : BitVec 32) : BitVec 32 := if w.toInt < 0 then w + 8192#32 else w

/-- The row of an 8192-row array a row word names: wrapped, then clamped. -/
def rowOf (w : BitVec 32) : Fin 8192 := Cert.LibGatherRows.clampRow 8192 (by decide) (wrapW w)

/-- The result: the rows of out the 2048 row words name. -/
def resE (rg : IVec (⟨1, ![2048]⟩ : Shape) 32) (out : Fin 8192 → Fin 128 → EReal) :
    (⟨2, ![2048, 128]⟩ : Shape).Idx → EReal :=
  fun i => out (rowOf (rg (ix1 (i 0)))) (i 1)

end Cert.Spec

end
-- ==== Proof.LibPairScatter.lean ====
/-
  A scatter-add of scalars at pairs of indices, read at an index, over the extended reals.

  What accumulating a VECTOR of updates upd : [E] into a matrix x : [N, M] at positions given by a two-column
  table of indices idx : [E, 2] lowers to: a stablehlo.scatter with an add body that has no update window axis
  (update_window_dims []), whose two operand axes are both inserted (inserted_window_dims [0, 1]) and both
  addressed by the index vector (scatter_dims_to_operand_dims [0, 1], index_vector_dim 1): update e is added to
  the element (idx[e, 0], idx[e, 1]) of the operand. Over the extended reals element (v, c) of the result is the
  operand's plus the sum of upd[e] over the positions e whose two indices, read as signed integers and NOT
  clamped, are v and c: an update one of whose signed indices is no coordinate of the operand is dropped.
-/
import Idealize.ShloMosaic.PureOps.Ideal
import Idealize.ShloMosaic.Lib.ValueIdx
import Idealize.ShloMosaic.Lib.ValueIdxRank1

noncomputable section

open scoped BigOperators

namespace Cert.LibPairScatter

open Idealize.ShloMosaic Idealize.ShloMosaic.ValueIdx

/-! ## The coordinates of the landing index

For an update index (e). Both operand axes are inserted, so both window coordinates are 0; both are addressed by
the index vector, axis 0 by its component 0 and axis 1 by its component 1, so the windows start at the signed words
idx[e, 0] and idx[e, 1]. Each fact is read off the record once its four lists are the stated literals. -/

section Coordinates

variable {N M E w : Nat}
  (s : ScatterDims (⟨2, ![N, M]⟩ : Shape) (⟨2, ![E, 2]⟩ : Shape) (⟨1, ![E]⟩ : Shape))
  (huw : s.updateWindowDims = []) (hiw : s.insertedWindowDims = [0, 1])
  (hsd : s.scatterDimsToOperandDims = [0, 1]) (hiv : s.indexVectorDim = 1)

include huw hiw hsd hiv

/-- On the operand's first axis the window starts at the signed first index of the update. -/
theorem start_fst (idx : IVec (⟨2, ![E, 2]⟩ : Shape) w) (e : Fin E) :
    s.start (ix1 e) idx 0 = (idx (ix2 e (0 : Fin 2))).toInt := by
  obtain ⟨uw, iw, sd, iv, wf⟩ := s
  subst huw hiw hsd hiv
  unfold ScatterDims.start
  rw [dif_pos (show (0 : Fin 2) ∈ ([0, 1] : List (Fin 2)) by decide)]
  refine congrArg (fun i => (idx i).toInt) ?_
  funext b
  refine Fin.ext ?_
  match b with
  | ⟨0, _⟩ => rfl
  | ⟨1, _⟩ => rfl

/-- On the operand's second axis the window starts at the signed second index of the update. -/
theorem start_snd (idx : IVec (⟨2, ![E, 2]⟩ : Shape) w) (e : Fin E) :
    s.start (ix1 e) idx 1 = (idx (ix2 e (1 : Fin 2))).toInt := by
  obtain ⟨uw, iw, sd, iv, wf⟩ := s
  subst huw hiw hsd hiv
  unfold ScatterDims.start
  rw [dif_pos (show (1 : Fin 2) ∈ ([0, 1] : List (Fin 2)) by decide)]
  refine congrArg (fun i => (idx i).toInt) ?_
  funext b
  refine Fin.ext ?_
  match b with
  | ⟨0, _⟩ => rfl
  | ⟨1, _⟩ => rfl

/-- Both operand axes are inserted: every window coordinate is 0. -/
theorem window_zero (e : Fin E) (a : Fin 2) : s.window (ix1 e) a = 0 := by
  obtain ⟨uw, iw, sd, iv, wf⟩ := s
  subst huw hiw hsd hiv
  match a with
  | ⟨0, _⟩ => rfl
  | ⟨1, _⟩ => rfl

/-! ## Where an update lands -/

/-- WHERE AN UPDATE LANDS: update e lands on (v, c) exactly when its two signed indices are v and c. Left to right
    the landing index exists, so both starts are nonnegative and their toNat are v and c; right to left both
    coordinates are in range (v < N, c < M) and the index built from them is (v, c). -/
theorem resultIdx?_eq_some_iff (idx : IVec (⟨2, ![E, 2]⟩ : Shape) w) (e : Fin E) (v : Fin N) (c : Fin M) :
    s.resultIdx? (ix1 e) idx = some (ix2 v c)
      ↔ (idx (ix2 e (0 : Fin 2))).toInt = (v.val : ℤ) ∧ (idx (ix2 e (1 : Fin 2))).toInt = (c.val : ℤ) := by
  have h0 := start_fst s huw hiw hsd hiv idx e
  have h1 := start_snd s huw hiw hsd hiv idx e
  have w0 := window_zero s huw hiw hsd hiv e 0
  have w1 := window_zero s huw hiw hsd hiv e 1
  unfold ScatterDims.resultIdx?
  constructor
  · intro h
    split at h
    · rename_i hr
      have hf := Option.some.inj h
      have e0 := congrArg Fin.val (congrFun hf 0)
      have e1 := congrArg Fin.val (congrFun hf 1)
      have r0 := (hr 0).1
      have r1 := (hr 1).1
      simp only [h0, h1, w0, w1] at e0 e1 r0 r1
      change _ = v.val at e0
      change _ = c.val at e1
      exact ⟨by omega, by omega⟩
    · exact absurd h (by simp)
  · rintro ⟨hv, hc⟩
    have hr : ∀ a, 0 ≤ s.start (ix1 e) idx a + s.window (ix1 e) a ∧
        s.start (ix1 e) idx a + s.window (ix1 e) a < (⟨2, ![N, M]⟩ : Shape).size a := by
      intro a
      match a with
      | ⟨0, _⟩ =>
        show 0 ≤ s.start (ix1 e) idx 0 + s.window (ix1 e) 0 ∧
          s.start (ix1 e) idx 0 + s.window (ix1 e) 0 < (N : ℤ)
        rw [h0, w0, hv]; have := v.isLt; omega
      | ⟨1, _⟩ =>
        show 0 ≤ s.start (ix1 e) idx 1 + s.window (ix1 e) 1 ∧
          s.start (ix1 e) idx 1 + s.window (ix1 e) 1 < (M : ℤ)
        rw [h1, w1, hc]; have := c.isLt; omega
    rw [dif_pos hr]
    refine congrArg some ?_
    funext a
    refine Fin.ext ?_
    match a with
    | ⟨0, _⟩ =>
      show (s.start (ix1 e) idx 0 + s.window (ix1 e) 0).toNat = v.val
      rw [h0, w0, hv]; omega
    | ⟨1, _⟩ =>
      show (s.start (ix1 e) idx 1 + s.window (ix1 e) 1).toNat = c.val
      rw [h1, w1, hc]; omega

end Coordinates

/-! ## The sum over the landing updates -/

/-- The sum of the updates that land on (v, c) is the sum over all positions e of upd[e] guarded by "the two signed
    indices of e are v and c": the filtered sum is a sum of guarded terms over all update indices, which are the
    positions themselves; the guard is the landing condition. -/
theorem sum_landing {N M E w : Nat}
    (s : ScatterDims (⟨2, ![N, M]⟩ : Shape) (⟨2, ![E, 2]⟩ : Shape) (⟨1, ![E]⟩ : Shape))
    (huw : s.updateWindowDims = []) (hiw : s.insertedWindowDims = [0, 1])
    (hsd : s.scatterDimsToOperandDims = [0, 1]) (hiv : s.indexVectorDim = 1)
    (idx : IVec (⟨2, ![E, 2]⟩ : Shape) w) (upd : (⟨1, ![E]⟩ : Shape).Idx → EReal) (v : Fin N) (c : Fin M) :
    (∑ j ∈ Finset.univ.filter (fun j => s.resultIdx? j idx = some (ix2 v c)), upd j)
      = ∑ e : Fin E, if (idx (ix2 e (0 : Fin 2))).toInt = (v.val : ℤ) ∧ (idx (ix2 e (1 : Fin 2))).toInt = (c.val : ℤ)
          then upd (ix1 e) else 0 := by
  rw [Finset.sum_filter, ← Equiv.sum_comp (idxEquiv1 (n := E)).symm]
  refine Finset.sum_congr rfl fun e _ => ?_
  exact if_congr (resultIdx?_eq_some_iff s huw hiw hsd hiv idx e v c) rfl rfl

/-- THE SCATTER-ADD OF SCALARS AT INDEX PAIRS READ AT (v, c): for any dimension-number record of this form, the
    operand's element plus the sum over the positions e whose two signed indices are v and c of the update upd[e]. -/
theorem pairScatterAdd_apply {φ : FTy} {N M E w : Nat}
    (s : ScatterDims (⟨2, ![N, M]⟩ : Shape) (⟨2, ![E, 2]⟩ : Shape) (⟨1, ![E]⟩ : Shape))
    (huw : s.updateWindowDims = []) (hiw : s.insertedWindowDims = [0, 1])
    (hsd : s.scatterDimsToOperandDims = [0, 1]) (hiv : s.indexVectorDim = 1)
    (x : FVec Ideal (⟨2, ![N, M]⟩ : Shape) φ) (idx : IVec (⟨2, ![E, 2]⟩ : Shape) w)
    (upd : FVec Ideal (⟨1, ![E]⟩ : Shape) φ) (v : Fin N) (c : Fin M) :
    Host.scatterAdd s x idx upd (ix2 v c)
      = x (ix2 v c) + ∑ e : Fin E,
          if (idx (ix2 e (0 : Fin 2))).toInt = (v.val : ℤ) ∧ (idx (ix2 e (1 : Fin 2))).toInt = (c.val : ℤ)
            then upd (ix1 e) else 0 := by
  exact congrArg (x (ix2 v c) + ·) (sum_landing s huw hiw hsd hiv idx upd v c)

end Cert.LibPairScatter

end
-- ==== Proof.LibVecScatter.lean ====
/-
  A scatter-add of scalars into a vector, read at an index, over the extended reals.

  What a count of occurrences, or a segment sum of a VECTOR of updates `upd : [E]` at a column of indices
  `idx : [E, 1]` into an operand `x : [N]`, lowers to: a `stablehlo.scatter` with an add body that has no update
  window at all (update_window_dims `[]`), whose one operand axis is inserted (inserted_window_dims `[0]`) and is
  the axis the index vector addresses (scatter_dims_to_operand_dims `[0]`, index_vector_dim `1`): the scalar
  `upd[e]` is added to the entry `idx[e, 0]` of the operand. Over the extended reals entry `v` of the result is the
  operand's entry plus the sum of `upd[e]` over the positions `e` whose index word `idx[e, 0]`, read as a signed
  integer and NOT clamped, is `v`; a position whose signed index is no entry of the operand adds nothing anywhere.
-/
import Idealize.ShloMosaic.PureOps.Ideal
import Idealize.ShloMosaic.Lib.ValueIdx

noncomputable section

open scoped BigOperators

namespace Cert.LibVecScatter

open Idealize.ShloMosaic Idealize.ShloMosaic.ValueIdx

/-! ## A rank-1 index set is its coordinate -/

/-- The indices of a vector of length `n` are the numbers below `n`. -/
def idxEquiv1 {n : Nat} : (⟨1, ![n]⟩ : Shape).Idx ≃ Fin n where
  toFun i := i 0
  invFun a := ix1 a
  left_inv i := (eq_ix1 i).symm
  right_inv _ := rfl

/-- … so a sum over them is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Where a scalar update lands

The operand has one axis. It is inserted, so an update has no window coordinate on it; it is the axis the index
vector addresses, so the window of update `e` starts at the signed word `idx[e, 0]`. The landing coordinate,
start plus window coordinate, is therefore that signed word itself. -/

section Landing

variable {N E w : Nat}
  (s : ScatterDims (⟨1, ![N]⟩ : Shape) (⟨2, ![E, 1]⟩ : Shape) (⟨1, ![E]⟩ : Shape))
  (huw : s.updateWindowDims = []) (hiw : s.insertedWindowDims = [0])
  (hsd : s.scatterDimsToOperandDims = [0]) (hiv : s.indexVectorDim = 1)

include huw hiw hsd hiv

/-- The landing coordinate of update `e` on the operand's axis is its signed index word. -/
theorem landing_coord (idx : IVec (⟨2, ![E, 1]⟩ : Shape) w) (e : Fin E) :
    s.start (ix1 e) idx 0 + (s.window (ix1 e) 0 : ℤ) = (idx (ix2 e (0 : Fin 1))).toInt := by
  obtain ⟨uw, iw, sd, iv, wf⟩ := s
  subst huw hiw hsd hiv
  have hwin : (ScatterDims.mk [] [0] [0] 1 wf).window (ix1 e) 0 = 0 := rfl
  have hst : (ScatterDims.mk [] [0] [0] 1 wf).start (ix1 e) idx 0 = (idx (ix2 e (0 : Fin 1))).toInt := by
    unfold ScatterDims.start
    rw [dif_pos (List.mem_singleton.mpr rfl)]
    refine congrArg (fun i => (idx i).toInt) (funext fun b => Fin.ext ?_)
    match b with
    | ⟨0, _⟩ => rfl
    | ⟨1, _⟩ => rfl
  rw [hwin, hst]
  simp

/-- WHERE A SCALAR UPDATE LANDS: update `e` lands on entry `v` exactly when its signed index word is `v`. If the
    landing index exists its coordinate, the `toNat` of a nonnegative integer, is `v`; conversely the signed word
    `v` is in range because `v < N`. -/
theorem resultIdx?_eq_some_iff (idx : IVec (⟨2, ![E, 1]⟩ : Shape) w) (e : Fin E) (v : Fin N) :
    s.resultIdx? (ix1 e) idx = some (ix1 v) ↔ (idx (ix2 e (0 : Fin 1))).toInt = (v.val : ℤ) := by
  have hc := landing_coord s huw hiw hsd hiv idx e
  unfold ScatterDims.resultIdx?
  constructor
  · intro h
    split at h
    · rename_i hr
      have e0 := congrArg Fin.val (congrFun (Option.some.inj h) 0)
      have r0 := (hr 0).1
      rw [hc] at r0
      simp only [hc] at e0
      change _ = v.val at e0
      omega
    · exact absurd h (by simp)
  · intro hv
    have hr : ∀ a, 0 ≤ s.start (ix1 e) idx a + s.window (ix1 e) a ∧
        s.start (ix1 e) idx a + s.window (ix1 e) a < (⟨1, ![N]⟩ : Shape).size a := by
      intro a
      match a with
      | ⟨0, _⟩ =>
        show 0 ≤ s.start (ix1 e) idx 0 + s.window (ix1 e) 0 ∧ s.start (ix1 e) idx 0 + s.window (ix1 e) 0 < (N : ℤ)
        rw [hc, hv]; have := v.isLt; omega
    rw [dif_pos hr]
    refine congrArg some (funext fun a => Fin.ext ?_)
    match a with
    | ⟨0, _⟩ =>
      show (s.start (ix1 e) idx 0 + s.window (ix1 e) 0).toNat = v.val
      rw [hc, hv]; omega

end Landing

/-! ## The scatter-add read at an entry -/

/-- THE SCATTER-ADD OF SCALARS READ AT `v`: for any dimension-number record of this form, the operand's entry plus
    the sum over the positions `e` whose signed index word is `v` of the scalar `upd[e]`. The sum over the updates
    that land on `v` is a sum of guarded terms over all positions, and the guard is the landing condition. -/
theorem vecScatterAdd_apply {φ : FTy} {N E w : Nat}
    (s : ScatterDims (⟨1, ![N]⟩ : Shape) (⟨2, ![E, 1]⟩ : Shape) (⟨1, ![E]⟩ : Shape))
    (huw : s.updateWindowDims = []) (hiw : s.insertedWindowDims = [0])
    (hsd : s.scatterDimsToOperandDims = [0]) (hiv : s.indexVectorDim = 1)
    (x : FVec Ideal (⟨1, ![N]⟩ : Shape) φ) (idx : IVec (⟨2, ![E, 1]⟩ : Shape) w)
    (upd : FVec Ideal (⟨1, ![E]⟩ : Shape) φ) (v : Fin N) :
    Host.scatterAdd s x idx upd (ix1 v)
      = x (ix1 v) + ∑ e : Fin E, if (idx (ix2 e (0 : Fin 1))).toInt = (v.val : ℤ) then upd (ix1 e) else 0 := by
  refine congrArg (x (ix1 v) + ·) ?_
  rw [Finset.sum_filter, sum_idx1]
  exact Finset.sum_congr rfl fun e _ => if_congr (resultIdx?_eq_some_iff s huw hiw hsd hiv idx e v) rfl rfl

end Cert.LibVecScatter

end
-- ==== Proof.KernelHost.lean ====
/-
  The kernel program's host side at Ideal: what the operations before the three matrix products leave in the arrays
  those products read (the weighted adjacency matrix, the two biases as rows, a zero row), and what the operations
  after them make of the last product (the rows the row words name).
-/
import proofs.«100943_j2456721293623_1_alg».proof.Proof.Gen.KernelIdeal.Regions
import proofs.«100943_j2456721293623_1_alg».proof.Proof.Spec
import proofs.«100943_j2456721293623_1_alg».proof.Proof.LibGatherRows
import proofs.«100943_j2456721293623_1_alg».proof.Proof.LibPairScatter
import proofs.«100943_j2456721293623_1_alg».proof.Proof.LibVecScatter
import Idealize.ShloMosaic.Lib.StableHlo.Run
import Idealize.ShloMosaic.Lib.Pipeline.Value
import Idealize.ShloMosaic.Lib.StableHlo.Predicate
import Idealize.ShloMosaic.Lib.IdealHost

set_option maxRecDepth 16384
noncomputable section

open scoped BigOperators

namespace Cert.KernelIdeal.HostValue

open Idealize.ShloMosaic Idealize.ShloMosaic.TcCoe Idealize.ShloMosaic.ValueIdx Cert.KernelIdeal Cert.KernelIdeal.Gen

variable [Cert.KernelIdeal.Facts]
variable (m : (ℓ : Loc nD τ sig) → Buf (Elt Ideal) ℓ) (c : Dev nD)

/-- The argument arrays on core c. -/
abbrev a0 : IVec S2048 32 := m ((c : Thread nD τ).loc main_arg0)
abbrev a1 : IVec S262144x2 32 := m ((c : Thread nD τ).loc main_arg1)
abbrev a2 : FVec Ideal S8192x512 .f32 := m ((c : Thread nD τ).loc main_arg2)
abbrev a3 : FVec Ideal S512 .f32 := m ((c : Thread nD τ).loc main_arg3)
abbrev a4 : FVec Ideal S512x128 .f32 := m ((c : Thread nD τ).loc main_arg4)
abbrev a5 : FVec Ideal S128 .f32 := m ((c : Thread nD τ).loc main_arg5)

/-! ## Words and small facts -/

/-- A rank-1 index built from its one coordinate, in the two spellings in use. -/
theorem ofFin_eq_ix1 {n : Nat} (p : Fin n) : Shape.Idx.ofFin p = ix1 p :=
  funext fun a => by match a with | ⟨0, _⟩ => rfl

/-- Row p of a one-column table, in the two spellings in use. -/
theorem ixP_eq_ix2 {n : Nat} (p : Fin n) : StableHlo.Predicate.ixP p = ix2 p (0 : Fin 1) :=
  funext fun a => by match a with | ⟨0, _⟩ => rfl | ⟨1, _⟩ => rfl

/-- The bit of a decided proposition is set exactly when the proposition holds. -/
theorem ofBool_decide_eq_one (p : Prop) [Decidable p] : BitVec.ofBool (decide p) = 1#1 ↔ p := by
  by_cases h : p
  · simp [h]
  · simp [h]

/-- A vector laid out as a column: entry (p, 0) of the column is entry p of the vector. -/
theorem bcast_col_apply {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  refine broadcastInDim_apply _ h v _ (ix1 p) ?_
  intro a
  match a with
  | ⟨0, _⟩ =>
    show p.val = if n = 1 then 0 else p.val
    have := p.isLt
    split <;> omega

/-- The wrap of one word as the program computes it (compare with zero, add the extent, select) is the wrap of
    array indexing: the extent is added when the word is negative. -/
theorem wrap_word (w : BitVec 32) :
    Scalar.select (IntOp.cmpi .slt w 0#32) (IntOp.addi w 8192#32) w = Cert.Spec.wrapW w := by
  have h0 : (0#32 : BitVec 32).toInt = 0 := by decide
  have hc : IntOp.cmpi .slt w 0#32 = 1#1 ↔ w.toInt < 0 := by
    show BitVec.ofBool (w.slt 0#32) = 1#1 ↔ _
    cases hb : w.slt 0#32 <;> simp only [BitVec.slt, h0, decide_eq_true_eq, decide_eq_false_iff_not] at hb
    · exact ⟨fun h => absurd h (by decide), fun h => absurd h hb⟩
    · exact ⟨fun _ => hb, fun _ => rfl⟩
  unfold Cert.Spec.wrapW Scalar.select
  exact if_congr hc rfl rfl

/-- The same for a vector of words, read at an index. -/
theorem wrap_vec_apply {s : Shape} (h : S_.BroadcastsInDim s ![]) (x : IVec s 32) (i : s.Idx) :
    select (cmpi .slt x (broadcastInDim s ![] h (constantI S_ 32 0#32)))
      (addi x (broadcastInDim s ![] h (constantI S_ 32 8192#32))) x i = Cert.Spec.wrapW (x i) :=
  wrap_word (x i)

/-- A vector viewed as one row: entry (0, j) of the row is entry j of the vector (both sit at row-major position j). -/
theorem cast_row_apply {α : Type} {n : Nat} (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply x h (ix2 (0 : Fin 1) j) (ix1 j) ?_
  rw [Shape.rowMajor_val_two, Shape.rowMajor_val_one]
  show j.val = 0 * n + j.val
  omega

/-! ## The extended edge lists

Column a of the edge table followed by the node numbers 0 … 8191: the sources (a = 0) and targets (a = 1) of the
270336 extended edges, as words. -/

/-- The word of endpoint a of extended edge e: the table's for e < 262144, the node number e − 262144 after that. -/
def nodeW (E : Cert.Spec.EdgeTab) (a : Fin 2) (e : Fin 270336) : BitVec 32 :=
  if h : e.val < 262144 then E (ix2 ⟨e.val, h⟩ a) else BitVec.ofNat 32 (e.val - 262144)

/-- Its value is the endpoint. -/
theorem nodeW_toNat (E : Cert.Spec.EdgeTab) (a : Fin 2) (e : Fin 270336) : (nodeW E a e).toNat = Cert.Spec.node E a e := by
  unfold nodeW Cert.Spec.node
  split
  · rfl
  · rw [BitVec.toNat_ofNat]
    exact Nat.mod_eq_of_lt (by have := e.isLt; omega)

/-- In range the word reads the same signed. -/
theorem nodeW_toInt {E : Cert.Spec.EdgeTab} (hr : Cert.Spec.InRange E) (a : Fin 2) (e : Fin 270336) :
    (nodeW E a e).toInt = (Cert.Spec.node E a e : ℤ) := by
  have h := Cert.Spec.node_lt hr a e
  rw [StableHlo.Predicate.toInt_eq_toNat_of_lt (by rw [nodeW_toNat]; omega), nodeW_toNat]

/-- In range the wrap leaves the word as it is. -/
theorem wrapW_nodeW {E : Cert.Spec.EdgeTab} (hr : Cert.Spec.InRange E) (a : Fin 2) (e : Fin 270336) :
    Cert.Spec.wrapW (nodeW E a e) = nodeW E a e := by
  unfold Cert.Spec.wrapW
  rw [if_neg]
  rw [nodeW_toInt hr]
  omega

/-- The clamped row the word names is the endpoint as a row. -/
theorem clamp_nodeW (E : Cert.Spec.EdgeTab) (hr : Cert.Spec.InRange E) (a : Fin 2) (e : Fin 270336) (h : min (nodeW E a e).toInt.toNat (8192 - 1) < 8192) :
    (⟨min (nodeW E a e).toInt.toNat (8192 - 1), h⟩ : Fin 8192) = Cert.Spec.nodeC E a e := by
  refine Fin.ext ?_
  show min (nodeW E a e).toInt.toNat (8192 - 1) = min (Cert.Spec.node E a e) 8191
  rw [nodeW_toInt hr]
  simp

/-- Column o of the edge table, as a vector, followed by the node numbers: read at e. -/
theorem extCol_apply (o : Nat) (a : Fin 2) (ha : a.val = o) (hs : S262144x2.Slices ![0, o] S262144x1) (E : IVec S262144x2 32)
    (e : Fin 270336) :
    concatenate S270336 0
        [⟨S262144, shapeCast S262144 (extractStridedSlice S262144x1 ![0, o] E hs) shapeCasts_S262144x1_S262144⟩,
          ⟨S8192, iotaInDim S8192 32 0⟩] concatenates_S262144_S8192_S270336_d0 (ix1 e)
      = nodeW E a e := by
  unfold nodeW
  split
  · rename_i h
    rw [concatenate_pair_apply_left (s₁ := S262144) (s₂ := S8192) (0 : Fin 1) _ _ _ (ix1 e) rfl (ix1 (⟨e.val, h⟩ : Fin 262144))
      (by intro b; match b with | ⟨0, _⟩ => rfl)]
    rw [shapeCast_apply (s := S262144x1) (t := S262144) _ _ (ix1 (⟨e.val, h⟩ : Fin 262144)) (ix2 (⟨e.val, h⟩ : Fin 262144) (0 : Fin 1))
      (by rw [Shape.rowMajor_val_two, Shape.rowMajor_val_one]; show e.val * 1 + 0 = e.val; omega)]
    exact extractStridedSlice_apply _ E hs _ (ix2 (⟨e.val, h⟩ : Fin 262144) a) (by
      intro b
      match b with
      | ⟨0, _⟩ => show e.val = 0 + e.val; omega
      | ⟨1, _⟩ => show a.val = o + 0; omega)
  · rename_i h
    have h' : e.val - 262144 < 8192 := by have := e.isLt; omega
    rw [concatenate_pair_apply_right (s₁ := S262144) (s₂ := S8192) (0 : Fin 1) _ _ _ (ix1 e) rfl rfl (ix1 (⟨e.val - 262144, h'⟩ : Fin 8192))
      (by intro b hb; exact absurd (Subsingleton.elim _ _) hb)
      (by show e.val - 262144 + 262144 = e.val; omega)]
    rfl

/-! ## The operations before the products, as functions of their operands -/

/-- The wrap of the 270336 edge words. -/
def wrapV (t : IVec S270336 32) : IVec S270336 32 :=
  select (cmpi .slt t (broadcastInDim S270336 ![] bcast_S_S270336 (constantI S_ 32 0#32)))
    (addi t (broadcastInDim S270336 ![] bcast_S_S270336 (constantI S_ 32 8192#32))) t

theorem wrapV_apply (t : IVec S270336 32) (e : Fin 270336) : wrapV t (ix1 e) = Cert.Spec.wrapW (t (ix1 e)) :=
  wrap_word (t (ix1 e))

/-- The count: ones added into a zero vector at the positions the words t name. -/
def degV (t : IVec S270336 32) : FVec Ideal S8192 .f32 :=
  Host.scatterAdd scatter_S8192_S270336x1_S270336_n_0_0_1
    (broadcastInDim S8192 ![] bcast_S_S8192 (constant (F := Ideal) S_ .f32 0x00000000#32))
    (broadcastInDim S270336x1 ![0] bcast_S270336_S270336x1_0 t)
    (broadcastInDim S270336 ![] bcast_S_S270336 (constant (F := Ideal) S_ .f32 0x3F800000#32))

/-- Entry v of the count is the number of positions whose signed word is v. -/
theorem degV_apply (t : IVec S270336 32) (v : Fin 8192) :
    degV t (ix1 v) = 0 + ∑ e : Fin 270336, if (t (ix1 e)).toInt = (v.val : ℤ) then (1 : EReal) else 0 := by
  unfold degV
  rw [Cert.LibVecScatter.vecScatterAdd_apply _ rfl rfl rfl rfl]
  have hz : (broadcastInDim S8192 ![] bcast_S_S8192 (constant (F := Ideal) S_ .f32 0x00000000#32) : FVec Ideal S8192 .f32) (ix1 v)
      = (0 : EReal) := Ideal.ofBits_zero_f32
  rw [hz]
  refine congrArg ((0 : EReal) + ·) (Finset.sum_congr rfl fun e _ => ?_)
  rw [bcast_col_apply]
  exact if_congr Iff.rfl Ideal.ofBits_one_f32 rfl

/-- The guarded inverse square root: rsqrt where the operand is positive, zero elsewhere. -/
def disV (g : FVec Ideal S8192 .f32) : FVec Ideal S8192 .f32 :=
  select (cmpf .ogt g (broadcastInDim S8192 ![] bcast_S_S8192 (constant (F := Ideal) S_ .f32 0x00000000#32)))
    (Host.rsqrt g) (broadcastInDim S8192 ![] bcast_S_S8192 (id (constant (F := Ideal) S_ .f32 0x00000000#32)))

theorem disV_apply (g : FVec Ideal S8192 .f32) (v : Fin 8192) :
    disV g (ix1 v) = if 0 < g (ix1 v) then Ideal.rsqrt (g (ix1 v)) else 0 := by
  show Scalar.select (Ideal.cmp .ogt (g (ix1 v)) (Ideal.ofBits .f32 0x00000000#32)) (Ideal.rsqrt (g (ix1 v)))
    (Ideal.ofBits .f32 0x00000000#32) = _
  rw [Ideal.ofBits_zero_f32]
  unfold Scalar.select
  exact if_congr (ofBool_decide_eq_one _) rfl rfl

/-- The take of a vector x at the wrapped words t. -/
def gatV (x : FVec Ideal S8192 .f32) (t : IVec S270336 32) : FVec Ideal S270336 .f32 :=
  Host.gather gather_S8192_S270336x1_S270336_n_0_n_n_0_1_1 x
    (broadcastInDim S270336x1 ![0] bcast_S270336_S270336x1_0 (wrapV t))

/-- Entry e of the take is x at the clamped row the wrapped word of e names. -/
theorem gatV_apply (x : FVec Ideal S8192 .f32) (t : IVec S270336 32) (e : Fin 270336) :
    gatV x t (ix1 e)
      = x (ix1 ⟨min (Cert.Spec.wrapW (t (ix1 e))).toInt.toNat (8192 - 1), by omega⟩) := by
  unfold gatV
  have h := StableHlo.Predicate.gather_take gather_S8192_S270336x1_S270336_n_0_n_n_0_1_1 rfl rfl rfl rfl x
    (broadcastInDim S270336x1 ![0] bcast_S270336_S270336x1_0 (wrapV t)) e (by decide)
  rw [ofFin_eq_ix1, ofFin_eq_ix1] at h
  rw [h]
  refine congrArg (fun k => x (ix1 k)) (Fin.ext ?_)
  show min ((broadcastInDim S270336x1 ![0] bcast_S270336_S270336x1_0 (wrapV t)) (StableHlo.Predicate.ixP e)).toInt.toNat (8192 - 1) = _
  rw [ixP_eq_ix2, bcast_col_apply, wrapV_apply]

/-- The edge weight: the product of the two takes. -/
def nrmV (x : FVec Ideal S8192 .f32) (s t : IVec S270336 32) : FVec Ideal S270336 .f32 := mulf (gatV x s) (gatV x t)

/-- The two-column index table: the wrapped targets, then the wrapped sources. -/
def idxT (s t : IVec S270336 32) : IVec S270336x2 32 :=
  concatenate S270336x2 1
    [⟨S270336x1, broadcastInDim S270336x1 ![0] bcast_S270336_S270336x1_0 (wrapV t)⟩,
      ⟨S270336x1, broadcastInDim S270336x1 ![0] bcast_S270336_S270336x1_0 (wrapV s)⟩]
    concatenates_S270336x1_S270336x1_S270336x2_d1

theorem idxT_fst (s t : IVec S270336 32) (e : Fin 270336) :
    idxT s t (ix2 e (0 : Fin 2)) = Cert.Spec.wrapW (t (ix1 e)) := by
  unfold idxT
  rw [concatenate_pair_apply_left (s₁ := S270336x1) (s₂ := S270336x1) (1 : Fin 2) _ _ _ (ix2 e (0 : Fin 2)) rfl (ix2 e (0 : Fin 1))
    (by intro b; match b with | ⟨0, _⟩ => rfl | ⟨1, _⟩ => rfl)]
  rw [bcast_col_apply, wrapV_apply]

theorem idxT_snd (s t : IVec S270336 32) (e : Fin 270336) :
    idxT s t (ix2 e (1 : Fin 2)) = Cert.Spec.wrapW (s (ix1 e)) := by
  unfold idxT
  rw [concatenate_pair_apply_right (s₁ := S270336x1) (s₂ := S270336x1) (1 : Fin 2) _ _ _ (ix2 e (1 : Fin 2)) rfl rfl (ix2 e (0 : Fin 1))
    (by intro b hb; match b with | ⟨0, _⟩ => rfl | ⟨1, _⟩ => exact absurd rfl hb)
    (by rfl)]
  rw [bcast_col_apply, wrapV_apply]

/-- The weighted matrix: the weights added into a zero matrix at the (target, source) pairs. -/
def adjV (x : FVec Ideal S8192 .f32) (s t : IVec S270336 32) : FVec Ideal S8192x8192 .f32 :=
  Host.scatterAdd scatter_S8192x8192_S270336x2_S270336_n_01_01_1
    (broadcastInDim S8192x8192 ![] bcast_S_S8192x8192 (constant (F := Ideal) S_ .f32 0x00000000#32))
    (idxT s t) (nrmV x s t)

theorem adjV_apply (x : FVec Ideal S8192 .f32) (s t : IVec S270336 32) (d r : Fin 8192) :
    adjV x s t (ix2 d r)
      = 0 + ∑ e : Fin 270336,
          if (Cert.Spec.wrapW (t (ix1 e))).toInt = (d.val : ℤ) ∧ (Cert.Spec.wrapW (s (ix1 e))).toInt = (r.val : ℤ)
            then gatV x s (ix1 e) * gatV x t (ix1 e) else 0 := by
  unfold adjV
  rw [Cert.LibPairScatter.pairScatterAdd_apply _ rfl rfl rfl rfl]
  have hz : (broadcastInDim S8192x8192 ![] bcast_S_S8192x8192 (constant (F := Ideal) S_ .f32 0x00000000#32) :
      FVec Ideal S8192x8192 .f32) (ix2 d r) = (0 : EReal) := Ideal.ofBits_zero_f32
  rw [hz]
  refine congrArg ((0 : EReal) + ·) (Finset.sum_congr rfl fun e _ => ?_)
  rw [idxT_fst, idxT_snd]
  rfl

/-! ## The weighted adjacency matrix of an in-range table

s and t are the extended source and target lists, entry by entry the words of the endpoints. -/

section InRange

variable {E : Cert.Spec.EdgeTab} (hr : Cert.Spec.InRange E) (s t : IVec S270336 32)
  (hs : ∀ e, s (ix1 e) = nodeW E 0 e) (ht : ∀ e, t (ix1 e) = nodeW E 1 e)

include hr ht in
/-- The count at v is the in-degree of v. -/
theorem deg_eq (v : Fin 8192) : degV t (ix1 v) = Cert.Spec.degE E v := by
  rw [degV_apply]
  unfold Cert.Spec.degE
  refine congrArg ((0 : EReal) + ·) (Finset.sum_congr rfl fun e _ => ?_)
  refine if_congr ?_ rfl rfl
  rw [ht, nodeW_toInt hr]
  exact Nat.cast_inj

include hr ht in
/-- The guarded inverse square root of the count at v is deg(v)^(-1/2). -/
theorem dis_eq (v : Fin 8192) : disV (degV t) (ix1 v) = Cert.Spec.disE E v := by
  rw [disV_apply, deg_eq hr t ht]
  rfl

include hr ht in
/-- The take at the words of endpoint a reads deg^(-1/2) at that endpoint. -/
theorem gat_eq (a : Fin 2) (u : IVec S270336 32) (hu : ∀ e, u (ix1 e) = nodeW E a e) (e : Fin 270336) :
    gatV (disV (degV t)) u (ix1 e) = Cert.Spec.disE E (Cert.Spec.nodeC E a e) := by
  rw [gatV_apply, ← dis_eq hr t ht]
  refine congrArg (fun k => disV (degV t) (ix1 k)) (Fin.ext ?_)
  show min (Cert.Spec.wrapW (u (ix1 e))).toInt.toNat (8192 - 1) = min (Cert.Spec.node E a e) 8191
  rw [hu, wrapW_nodeW hr, nodeW_toInt hr]
  simp

include hr hs ht in
/-- Entry (d, r) of the scattered matrix sums the weights of the edges from r to d. -/
theorem adj_pure (d r : Fin 8192) : adjV (disV (degV t)) s t (ix2 d r) = Cert.Spec.adjE E d r := by
  rw [adjV_apply]
  unfold Cert.Spec.adjE
  refine congrArg ((0 : EReal) + ·) (Finset.sum_congr rfl fun e _ => ?_)
  rw [gat_eq hr t ht 0 s hs, gat_eq hr t ht 1 t ht, ht, hs, wrapW_nodeW hr, wrapW_nodeW hr, nodeW_toInt hr, nodeW_toInt hr]
  exact if_congr (and_congr Nat.cast_inj Nat.cast_inj) rfl rfl

end InRange

/-! ## The program's arrays before the products -/

/-- The extended source and target lists as the program builds them from the edge table. -/
def srcL (E : IVec S262144x2 32) : IVec S270336 32 :=
  concatenate S270336 0
    [⟨S262144, shapeCast S262144 (extractStridedSlice S262144x1 ![0, 0] E slices_S262144x2_S262144x1_0_0) shapeCasts_S262144x1_S262144⟩,
      ⟨S8192, iotaInDim S8192 32 0⟩] concatenates_S262144_S8192_S270336_d0
def dstL (E : IVec S262144x2 32) : IVec S270336 32 :=
  concatenate S270336 0
    [⟨S262144, shapeCast S262144 (extractStridedSlice S262144x1 ![0, 1] E slices_S262144x2_S262144x1_0_1) shapeCasts_S262144x1_S262144⟩,
      ⟨S8192, iotaInDim S8192 32 0⟩] concatenates_S262144_S8192_S270336_d0

theorem srcL_apply (E : IVec S262144x2 32) (e : Fin 270336) : srcL E (ix1 e) = nodeW E 0 e :=
  extCol_apply 0 0 rfl slices_S262144x2_S262144x1_0_0 E e
theorem dstL_apply (E : IVec S262144x2 32) (e : Fin 270336) : dstL E (ix1 e) = nodeW E 1 e :=
  extCol_apply 1 1 rfl slices_S262144x2_S262144x1_0_1 E e

section FirstStretch
variable (W : Valuation τ sig (Elt Ideal))

/-- What the first stretch leaves in the references the later stretches read, over any start contents. -/
theorem first_v5 : (StableHlo.after hostOps0 W (Proc.devRef .tc main_v5) : IVec S270336 32)
    = srcL (W (Proc.devRef .tc main_arg1) : IVec S262144x2 32) := by
  after_results; rfl
theorem first_v6 : (StableHlo.after hostOps0 W (Proc.devRef .tc main_v6) : IVec S270336 32)
    = dstL (W (Proc.devRef .tc main_arg1) : IVec S262144x2 32) := by
  after_results; rfl
theorem first_v12 : (StableHlo.after hostOps0 W (Proc.devRef .tc main_v12) : IVec S8192 1)
    = cmpf .ogt (degV (dstL (W (Proc.devRef .tc main_arg1) : IVec S262144x2 32)))
        (broadcastInDim S8192 ![] bcast_S_S8192 (constant (F := Ideal) S_ .f32 0x00000000#32)) := by
  after_results; rfl
theorem first_v13 : (StableHlo.after hostOps0 W (Proc.devRef .tc main_v13) : FVec Ideal S8192 .f32)
    = Host.rsqrt (degV (dstL (W (Proc.devRef .tc main_arg1) : IVec S262144x2 32))) := by
  after_results; rfl
theorem first_cst2 : (StableHlo.after hostOps0 W (Proc.devRef .tc main_cst_2) : FVec Ideal S_ .f32)
    = constant (F := Ideal) S_ .f32 0x00000000#32 := by
  after_results

/-- The second stretch: the guarded select. -/
theorem second_v14 : (StableHlo.after hostOps0_1 W (Proc.devRef .tc main_v14) : FVec Ideal S8192 .f32)
    = select (W (Proc.devRef .tc main_v12) : IVec S8192 1) (W (Proc.devRef .tc main_v13) : FVec Ideal S8192 .f32)
        (broadcastInDim S8192 ![] bcast_S_S8192 (id (W (Proc.devRef .tc main_cst_2) : FVec Ideal S_ .f32))) := by
  after_results; rfl

/-- The third stretch: the scattered matrix over the lists and the vector it reads. -/
theorem third_v44 : (StableHlo.after hostOps0_2 W (Proc.devRef .tc main_v44) : FVec Ideal S8192x8192 .f32)
    = adjV (W (Proc.devRef .tc main_v14) : FVec Ideal S8192 .f32) (W (Proc.devRef .tc main_v5) : IVec S270336 32)
        (W (Proc.devRef .tc main_v6) : IVec S270336 32) := by
  after_results_simp; rfl

end FirstStretch

/-- The matrix the first and third products multiply by is the weighted adjacency matrix. -/
theorem adj_eq (hr : Cert.Spec.InRange (a1 m c)) (d s : Fin 8192) :
    (V3 m c main_v44 : S8192x8192.Idx → EReal) (ix2 d s) = Cert.Spec.adjE (a1 m c) d s := by
  -- the lists, unchanged by the second stretch
  have h5 : (V2 m c main_v5 : IVec S270336 32) = srcL (a1 m c) :=
    (V2_of m c main_v5 (by decide)).trans (first_v5 (V0 m c))
  have h6 : (V2 m c main_v6 : IVec S270336 32) = dstL (a1 m c) :=
    (V2_of m c main_v6 (by decide)).trans (first_v6 (V0 m c))
  -- the vector the takes read
  have h14 : (V2 m c main_v14 : FVec Ideal S8192 .f32) = disV (degV (dstL (a1 m c))) := by
    show (StableHlo.after hostOps0_1 (V1 m c) (Proc.devRef .tc main_v14) : FVec Ideal S8192 .f32) = _
    rw [second_v14]
    show select (StableHlo.after hostOps0 (V0 m c) (Proc.devRef .tc main_v12) : IVec S8192 1)
      (StableHlo.after hostOps0 (V0 m c) (Proc.devRef .tc main_v13) : FVec Ideal S8192 .f32)
      (broadcastInDim S8192 ![] bcast_S_S8192 (id (StableHlo.after hostOps0 (V0 m c) (Proc.devRef .tc main_cst_2) : FVec Ideal S_ .f32))) = _
    rw [first_v12, first_v13, first_cst2]
    rfl
  show (StableHlo.after hostOps0_2 (V2 m c) (Proc.devRef .tc main_v44) : FVec Ideal S8192x8192 .f32) (ix2 d s) = _
  rw [third_v44, h14, h5, h6]
  exact adj_pure hr _ _ (srcL_apply (a1 m c)) (dstL_apply (a1 m c)) d s

/-- The first bias as a row. -/
theorem bias1_eq (j : Fin 512) : (V3 m c main_v45 : S1x512.Idx → EReal) (ix2 (0 : Fin 1) j) = a3 m c (ix1 j) := by
  have e : ∀ W : Valuation τ sig (Elt Ideal), (StableHlo.after hostOps0_2 W (Proc.devRef .tc main_v45) : S1x512.Idx → EReal)
      = shapeCast S1x512 (W (Proc.devRef .tc main_arg3) : S512.Idx → EReal) shapeCasts_S512_S1x512 := by
    intro W
    after_results
    rfl
  have h3 : (V2 m c main_arg3 : S512.Idx → EReal) = a3 m c :=
    (V2_of m c main_arg3 (by decide)).trans <| (V1_of m c main_arg3 (by decide)).trans rfl
  show (StableHlo.after hostOps0_2 (V2 m c) (Proc.devRef .tc main_v45) : S1x512.Idx → EReal) (ix2 (0 : Fin 1) j) = _
  rw [e, h3]
  exact cast_row_apply _ _ j

/-- The second bias as a row. -/
theorem bias2_eq (r : Fin 128) : (V3 m c main_v46 : S1x128.Idx → EReal) (ix2 (0 : Fin 1) r) = a5 m c (ix1 r) := by
  have e : ∀ W : Valuation τ sig (Elt Ideal), (StableHlo.after hostOps0_2 W (Proc.devRef .tc main_v46) : S1x128.Idx → EReal)
      = shapeCast S1x128 (W (Proc.devRef .tc main_arg5) : S128.Idx → EReal) shapeCasts_S128_S1x128 := by
    intro W
    after_results
    rfl
  have h5 : (V2 m c main_arg5 : S128.Idx → EReal) = a5 m c :=
    (V2_of m c main_arg5 (by decide)).trans <| (V1_of m c main_arg5 (by decide)).trans rfl
  show (StableHlo.after hostOps0_2 (V2 m c) (Proc.devRef .tc main_v46) : S1x128.Idx → EReal) (ix2 (0 : Fin 1) r) = _
  rw [e, h5]
  exact cast_row_apply _ _ r

/-- The zero row the second product adds. -/
theorem zrow_eq (r : Fin 128) : (V3 m c main_v47 : S1x128.Idx → EReal) (ix2 (0 : Fin 1) r) = (0 : EReal) := by
  have e : ∀ W : Valuation τ sig (Elt Ideal), (StableHlo.after hostOps0_2 W (Proc.devRef .tc main_v47) : S1x128.Idx → EReal)
      = broadcastInDim S1x128 ![] bcast_S_S1x128 (constant (F := Ideal) S_ .f32 0x00000000#32) := by
    intro W
    after_results
  show (StableHlo.after hostOps0_2 (V2 m c) (Proc.devRef .tc main_v47) : S1x128.Idx → EReal) (ix2 (0 : Fin 1) r) = _
  rw [e]
  exact Ideal.ofBits_zero_f32

/-- The weight matrices reach the products as launched. -/
theorem w1_eq : (V3 m c main_arg2 : S8192x512.Idx → EReal) = a2 m c :=
  (V3_of m c main_arg2 (by decide)).trans <| (V2_of m c main_arg2 (by decide)).trans <| (V1_of m c main_arg2 (by decide)).trans rfl
theorem w2_eq : (V3 m c main_arg4 : S512x128.Idx → EReal) = a4 m c :=
  (V3_of m c main_arg4 (by decide)).trans <| (V2_of m c main_arg4 (by decide)).trans <| (V1_of m c main_arg4 (by decide)).trans rfl

/-- The result: the rows of the third product's array the row words name. -/
theorem tail_eq (outs : Outs (F := Ideal)) :
    (V7 m outs c main_v57 : S2048x128.Idx → EReal)
      = Cert.Spec.resE (a0 m c) (fun d r => (V6 m outs c main_v50 : S8192x128.Idx → EReal) (ix2 d r)) := by
  have e : ∀ W : Valuation τ sig (Elt Ideal), (StableHlo.after hostOps3 W (Proc.devRef .tc main_v57) : S2048x128.Idx → EReal)
      = Host.gather gather_S8192x128_S2048x1_S2048x128_1_0_n_n_0_1_1128 (W (Proc.devRef .tc main_v50) : S8192x128.Idx → EReal)
          (broadcastInDim S2048x1 ![0] bcast_S2048_S2048x1_0
            (select (cmpi .slt (W (Proc.devRef .tc main_arg0) : IVec S2048 32) (broadcastInDim S2048 ![] bcast_S_S2048 (constantI S_ 32 0#32)))
              (addi (W (Proc.devRef .tc main_arg0) : IVec S2048 32) (broadcastInDim S2048 ![] bcast_S_S2048 (constantI S_ 32 8192#32)))
              (W (Proc.devRef .tc main_arg0) : IVec S2048 32))) := by
    intro W
    after_results
  have h0 : (V6 m outs c main_arg0 : IVec S2048 32) = a0 m c :=
    (V6_of m outs c main_arg0 (by decide)).trans <| (V5_of m outs c main_arg0 (by decide)).trans <|
      (V4_of m outs c main_arg0 (by decide)).trans <| (V3_of m c main_arg0 (by decide)).trans <|
      (V2_of m c main_arg0 (by decide)).trans <| (V1_of m c main_arg0 (by decide)).trans rfl
  show (StableHlo.after hostOps3 (V6 m outs c) (Proc.devRef .tc main_v57) : S2048x128.Idx → EReal) = _
  rw [e, h0]
  funext i
  obtain ⟨p, q, rfl⟩ : ∃ p q, i = ix2 p q := ⟨i 0, i 1, eq_ix2 i⟩
  rw [Cert.LibGatherRows.gatherRows_apply (by decide : 0 < 8192) _ rfl rfl rfl rfl rfl, bcast_col_apply]
  exact congrArg (fun w => (V6 m outs c main_v50 : S8192x128.Idx → EReal) (ix2 (Cert.LibGatherRows.clampRow 8192 (by decide) w) q))
    (wrap_vec_apply bcast_S_S2048 (a0 m c) (ix1 p))

end Cert.KernelIdeal.HostValue

end
-- ==== Proof.LibBlockedSum.lean ====
/-
  A sum over the first `n * b` naturals, regrouped into `n` consecutive blocks of `b` terms each. The law holds
  in every additive commutative monoid — it only re-associates —, so on the extended reals it needs no finiteness.
  This is the step between a contraction accumulated block by block along its axis and the same contraction
  taken whole.
-/
import Mathlib.Algebra.BigOperators.Group.Finset.Basic
import Mathlib.Algebra.BigOperators.Fin

namespace BlockedSum

open Finset

/-- `∑ K < n·b, a K = ∑ s < n, ∑ k < b, a (s·b + k)`: the terms in order, cut into `n` blocks of `b`. -/
theorem sum_range_mul {β : Type*} [AddCommMonoid β] (a : ℕ → β) (b : ℕ) :
    ∀ n : ℕ, ∑ K ∈ range (n * b), a K = ∑ s ∈ range n, ∑ k ∈ range b, a (s * b + k)
  | 0 => by simp
  | n + 1 => by
    rw [Nat.succ_mul, sum_range_add, sum_range_mul a b n, sum_range_succ]

/-- The same with both the whole sum and each block's sum indexed by `Fin`, the blocks still by `range`: the form in
    which a contraction over a literal extent `N = n·b` meets a fold over `n` grid points of blocks of width `b`. -/
theorem sum_fin_blocks {β : Type*} [AddCommMonoid β] (a : ℕ → β) (n b N : ℕ) (hN : N = n * b) :
    ∑ K : Fin N, a K.val = ∑ s ∈ range n, ∑ k : Fin b, a (s * b + k.val) := by
  subst hN
  rw [← Finset.sum_range (fun K => a K), sum_range_mul a b n]
  exact Finset.sum_congr rfl fun s _ => Finset.sum_range (fun k => a (s * b + k))

end BlockedSum
-- ==== Proof.LibPlainDot.lean ====
/-
  A matrix product read at an entry.

  A product of an \`M × K\` by a \`K × N\` matrix whose dimension numbers contract the left operand's columns with the
  right operand's rows, keep the left rows and the right columns in that order, and have no batch axis. At result
  entry \`(i, j)\` and contraction position \`k\` the left operand is read at \`(i, k)\` and the right at \`(k, j)\`, and the
  one-axis contraction index set is its coordinate range \`Fin K\`; so the sum over the contraction index is the
  textbook \`∑ q, A i q * B q j\`. The same for a stack of \`B\` such products, member by member (one batch axis, the
  first of both operands and of the result). Stated for ANY dimension-number record with those lists, at the
  extended reals, for the accumulating block product into a zero accumulator and for the host's product.
-/
import Idealize.ShloMosaic.PureOps.Ideal
import Idealize.ShloMosaic.PureOps.Ideal.Laws
import Idealize.ShloMosaic.Lib.ValueIdx

noncomputable section

open scoped BigOperators

namespace Cert.LibPlainDot

open Idealize.ShloMosaic Idealize.ShloMosaic.ValueIdx

/-! ## The plain product

The contraction shape lists the sizes of the left operand's contracted axes: here the one size \`K\`. Off the contracted
axis an operand index reads the result index: the left operand's row is the result's row, the right operand's column
the result's column. Each fact is read off the record once its lists are the stated literals. -/

section Plain

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent \`K\`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry \`(i, j)\` is the matrix product's entry: at contraction position
    \`k\` with coordinate \`q\` the left operand is read at \`(i, q)\` and the right at \`(q, j)\`, and the positions
    correspond one to one to the coordinates \`q : Fin K\`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  -- the operand indices at position \`k\`, by coordinates
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)
    _ = ∑ q : Fin K, l (ix2 i q) * r (ix2 q j) := rfl

/-- A block product into the zero accumulator, read at \`(i, j)\`, is the matrix product's entry. -/
theorem matmul_zero_apply (prec : Option ContractPrecision) (l : FVec Ideal (⟨2, ![M, K]⟩ : Shape) .f32)
    (r : FVec Ideal (⟨2, ![K, N]⟩ : Shape) .f32) (i : Fin M) (j : Fin N) :
    FloatOps.matmul d prec l r (constant (⟨2, ![M, N]⟩ : Shape) .f32 0x00000000#32) (ix2 i j)
      = ∑ q : Fin K, l (ix2 i q) * r (ix2 q j) := by
  rw [Ideal.matmul_constant_zero_apply]
  exact plain_sum d hlc hrc hln hrn hlb hrb l r i j

/-- The same, with the block product spelled by its vector-level name. -/
theorem matmul_zero_apply' (prec : Option ContractPrecision) (l : FVec Ideal (⟨2, ![M, K]⟩ : Shape) .f32)
    (r : FVec Ideal (⟨2, ![K, N]⟩ : Shape) .f32) (i : Fin M) (j : Fin N) :
    matmul d prec l r (constant (⟨2, ![M, N]⟩ : Shape) .f32 0x00000000#32) (ix2 i j)
      = ∑ q : Fin K, l (ix2 i q) * r (ix2 q j) :=
  matmul_zero_apply d hlc hrc hln hrn hlb hrb prec l r i j

/-- The host's product, read at \`(i, j)\`, is the matrix product's entry. -/
theorem hostDot_apply (prec : Option ContractPrecision) (l : FVec Ideal (⟨2, ![M, K]⟩ : Shape) .f32)
    (r : FVec Ideal (⟨2, ![K, N]⟩ : Shape) .f32) (i : Fin M) (j : Fin N) :
    Host.dotGeneral d prec l r (ix2 i j) = ∑ q : Fin K, l (ix2 i q) * r (ix2 q j) := by
  show FloatOps.dotGeneral d prec .single l r (ix2 i j) = _
  rw [Ideal.dotGeneral_apply]
  exact plain_sum d hlc hrc hln hrn hlb hrb l r i j

end Plain

/-! ## The stack of products

One batch axis, the first of both operands and of the result; the left operand's last axis is contracted with the
right operand's middle one. Both operands read the result's batch coordinate; the left operand's row is the result's
row, the right operand's column the result's column. -/

section Batched

variable {B M K N : Nat}
  (d : DotDims (⟨3, ![B, M, K]⟩ : Shape) (⟨3, ![B, K, N]⟩ : Shape) (⟨3, ![B, M, N]⟩ : Shape))
  (hlc : d.lhsContracting = [2]) (hrc : d.rhsContracting = [1]) (hln : d.lhsNonContracting = [1])
  (hrn : d.rhsNonContracting = [2]) (hlb : d.lhsBatch = [0]) (hrb : d.rhsBatch = [0])

include hlc hrc hln hrn hlb hrb

/-- The contraction index set has one axis … -/
theorem contr_rank3 : d.contr.rank = 1 := by
  obtain ⟨lc, rc, ln, rn, lb, rb, wf⟩ := d
  subst hlc hrc hln hrn hlb hrb
  rfl

/-- … of extent \`K\`, the size of the left operand's last axis. -/
theorem contr_size3 (h : 0 < d.contr.rank) : d.contr.size ⟨0, h⟩ = K := by
  obtain ⟨lc, rc, ln, rn, lb, rb, wf⟩ := d
  subst hlc hrc hln hrn hlb hrb
  rfl

/-- The left operand's member is the result's member … -/
theorem lhs_batch3 (b : Fin B) (i : Fin M) (j : Fin N) (k : d.contr.Idx) :
    (d.lhsIdx (ix3 b i j) k 0).val = b.val := by
  obtain ⟨lc, rc, ln, rn, lb, rb, wf⟩ := d
  subst hlc hrc hln hrn hlb hrb
  rfl

/-- … and its row the result's row. -/
theorem lhs_row3 (b : Fin B) (i : Fin M) (j : Fin N) (k : d.contr.Idx) :
    (d.lhsIdx (ix3 b i j) k 1).val = i.val := by
  obtain ⟨lc, rc, ln, rn, lb, rb, wf⟩ := d
  subst hlc hrc hln hrn hlb hrb
  rfl

/-- The right operand's member is the result's member … -/
theorem rhs_batch3 (b : Fin B) (i : Fin M) (j : Fin N) (k : d.contr.Idx) :
    (d.rhsIdx (ix3 b i j) k 0).val = b.val := by
  obtain ⟨lc, rc, ln, rn, lb, rb, wf⟩ := d
  subst hlc hrc hln hrn hlb hrb
  rfl

/-- … and its column the result's column. -/
theorem rhs_col3 (b : Fin B) (i : Fin M) (j : Fin N) (k : d.contr.Idx) :
    (d.rhsIdx (ix3 b i j) k 2).val = j.val := by
  obtain ⟨lc, rc, ln, rn, lb, rb, wf⟩ := d
  subst hlc hrc hln hrn hlb hrb
  rfl

/-- THE HOST'S PRODUCT OF TWO STACKS, member by member, read at \`(b, i, j)\`, is entry \`(i, j)\` of the product of the
    two members \`b\`: at contraction position \`k\` with coordinate \`q\` the left stack is read at \`(b, i, q)\` and the
    right at \`(b, q, j)\`, and the sum is re-indexed by \`q : Fin K\`. -/
theorem batchDot_apply (prec : Option ContractPrecision) (l : FVec Ideal (⟨3, ![B, M, K]⟩ : Shape) .f32)
    (r : FVec Ideal (⟨3, ![B, K, N]⟩ : Shape) .f32) (b : Fin B) (i : Fin M) (j : Fin N) :
    Host.dotGeneral d prec l r (ix3 b i j)
      = ∑ q : Fin K, l (ix3 b i q) * r (ix3 b q j) := by
  have h1 := contr_rank3 d hlc hrc hln hrn hlb hrb
  have hK := contr_size3 d hlc hrc hln hrn hlb hrb (by omega)
  have hl : ∀ k : d.contr.Idx, d.lhsIdx (ix3 b i j) k = ix3 b i (contrEquiv1 d K h1 hK k) := by
    intro k
    funext a
    refine Fin.ext ?_
    match a with
    | ⟨0, _⟩ => exact lhs_batch3 d hlc hrc hln hrn hlb hrb b i j k
    | ⟨1, _⟩ => exact lhs_row3 d hlc hrc hln hrn hlb hrb b i j k
    | ⟨2, _⟩ => exact d.lhsIdx_val_of_single hlc (ix3 b i j) k
  have hr : ∀ k : d.contr.Idx, d.rhsIdx (ix3 b i j) k = ix3 b (contrEquiv1 d K h1 hK k) j := by
    intro k
    funext a
    refine Fin.ext ?_
    match a with
    | ⟨0, _⟩ => exact rhs_batch3 d hlc hrc hln hrn hlb hrb b i j k
    | ⟨1, _⟩ => exact d.rhsIdx_val_of_single hrc (ix3 b i j) k
    | ⟨2, _⟩ => exact rhs_col3 d hlc hrc hln hrn hlb hrb b i j k
  show FloatOps.dotGeneral d prec .single l r (ix3 b i j) = _
  rw [Ideal.dotGeneral_apply]
  calc (∑ k : d.contr.Idx, l (d.lhsIdx (ix3 b i j) k) * r (d.rhsIdx (ix3 b i j) k))
      = ∑ k : d.contr.Idx, (fun q : Fin K => l (ix3 b i q) * r (ix3 b q j)) (contrEquiv1 d K h1 hK k) :=
        Finset.sum_congr rfl fun k _ => by rw [hl k, hr k]
    _ = ∑ q : Fin K, l (ix3 b i q) * r (ix3 b q j) :=
        Equiv.sum_comp (contrEquiv1 d K h1 hK) fun q : Fin K => l (ix3 b i q) * r (ix3 b q j)
    _ = ∑ q : Fin K, l (ix3 b i q) * r (ix3 b q j) := rfl

end Batched

end Cert.LibPlainDot

end
-- ==== Proof.RegValue0.lean ====
/-
  What the first product leaves in its output array, at Ideal: entry (d, j) is the rectified sum over ALL 8192 columns k
  of A[d, k] · B[k, j] plus the bias.  The pipeline computes it row block by row block, 2048 columns at a time: after
  the four steps of row block d / 512 the accumulator holds 0 + the four partial sums in order, each partial sum being
  0 + the sum over its 2048 columns; on the extended reals addition is associative and commutative and 0 is neutral,
  so this is the sum over all 8192 columns.  The last step's store, written back at the block's place, is what the
  array holds at the end (every row block is written back exactly once).
-/
import proofs.«100943_j2456721293623_1_alg».proof.Proof.Region0
import proofs.«100943_j2456721293623_1_alg».proof.Proof.LibBlockedSum
import proofs.«100943_j2456721293623_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg0

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)

/-- The arrays the first product reads and the array it leaves, at their literal types. -/
abbrev lhs : FVec Ideal S8192x8192 .f32 := V c main_v44
abbrev rhs : FVec Ideal S8192x512 .f32 := V c main_arg2
abbrev bias : FVec Ideal S1x512 .f32 := V c main_v45
abbrev out : FVec Ideal S8192x512 .f32 := (dat V c).arrAt 3 cfg0.N

/-! ## The payloads at an entry -/

/-- The cleared accumulator is zero at every entry. -/
theorem pay1_apply (p q : Fin 512) : (k0_pay1 (F := Ideal) : FVec Ideal S512x512 .f32) (ix2 p q) = (0 : EReal) := by
  unfold k0_pay1
  rw [shapeCast_self]
  show Ideal.ofBits .f32 0x00000000#32 = 0
  exact Ideal.ofBits_zero_f32

/-- A step adds the block product's entry to the accumulator's. -/
theorem pay2_apply (a : Vec Ideal S512x2048 .f32) (b : Vec Ideal S2048x512 .f32) (s : Vec Ideal S512x512 .f32) (p q : Fin 512) :
    (k0_pay2 a b s : FVec Ideal S512x512 .f32) (ix2 p q)
      = (s (ix2 p q) : EReal) + ∑ k : Fin 2048, (a (ix2 p k) : EReal) * (b (ix2 k q) : EReal) := by
  unfold k0_pay2
  rw [shapeCast_self, shapeCast_self]
  show (s (ix2 p q) : EReal) + FloatOps.matmul (F := Ideal) dot_S512x2048_S2048x512_S512x512_1_0_0_1_n_n none
      (truncf .bf16 a bitsLt_bf16_f32) (truncf .bf16 b bitsLt_bf16_f32) (constant S512x512 .f32 0x00000000#32) (ix2 p q) = _
  rw [Ideal.matmul_constant_zero_apply]
  exact congrArg (fun x : EReal => (s (ix2 p q) : EReal) + x)
    (Cert.LibPlainDot.plain_sum dot_S512x2048_S2048x512_S512x512_1_0_0_1_n_n rfl rfl rfl rfl rfl rfl (fun i => a i) (fun i => b i) p q)

/-- The closing payload: the accumulator's entry plus the bias row's, rectified. -/
theorem pay3_apply (s : Vec Ideal S512x512 .f32) (bs : Vec Ideal S1x512 .f32) (p q : Fin 512) :
    (k0_pay3 s bs : FVec Ideal S512x512 .f32) (ix2 p q) = max ((s (ix2 p q) : EReal) + (bs (ix2 (0 : Fin 1) q) : EReal)) 0 := by
  unfold k0_pay3
  rw [shapeCast_self]
  show max ((s (ix2 p q) : EReal) + broadcastTo S512x512 bs broadcasts_S1x512_S512x512 (ix2 p q)) (Ideal.ofBits .f32 0x00000000#32) = _
  rw [Ideal.ofBits_zero_f32, broadcastTo_apply bs broadcasts_S1x512_S512x512 (ix2 p q) (ix2 (0 : Fin 1) q)]
  intro a
  match a with
  | ⟨0, _⟩ => rfl
  | ⟨1, _⟩ => rfl

/-! ## The arrays read at natural-number coordinates

Coordinates computed from a grid point are natural numbers; reading the arrays at them (reduced into range, which
changes nothing for the coordinates that occur) keeps the sums below free of range proofs. -/

/-- The left operand at row `i`, column `K`. -/
def aN (i K : ℕ) : EReal := lhs V c (ix2 ⟨i % 8192, Nat.mod_lt _ (by decide)⟩ ⟨K % 8192, Nat.mod_lt _ (by decide)⟩)
/-- The right operand at row `K`, column `q`. -/
def bN (K : ℕ) (q : Fin 512) : EReal := rhs V c (ix2 ⟨K % 8192, Nat.mod_lt _ (by decide)⟩ q)

theorem aN_fin (i K : Fin 8192) : aN V c i.val K.val = lhs V c (ix2 i K) := by
  unfold aN
  exact congrArg (lhs V c) (Shape.idx_ext₂ (Nat.mod_eq_of_lt i.isLt) (Nat.mod_eq_of_lt K.isLt))

theorem bN_fin (K : Fin 8192) (q : Fin 512) : bN V c K.val q = rhs V c (ix2 K q) := by
  unfold bN
  exact congrArg (rhs V c) (Shape.idx_ext₂ (Nat.mod_eq_of_lt K.isLt) rfl)

/-! ## The blocks the windows read -/

/-- The block indices over the grid: point `t` is row block `t / 4`, step `t % 4`; the right operand moves with the
    step, the bias row never, the output with the row block. -/
theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0 :=
  (by decide +kernel : ∀ t : Fin grid0.N, _)

/-- The input blocks at a point, at their literal types. -/
abbrev ablk (t : Fin cfg0.N) : Vec Ideal S512x2048 .f32 := iblk V c 0 t
abbrev bblk (t : Fin cfg0.N) : Vec Ideal S2048x512 .f32 := iblk V c 1 t
abbrev cblk (t : Fin cfg0.N) : Vec Ideal S1x512 .f32 := iblk V c 2 t

/-- The left block at point `t` is rows `512 (t / 4) …`, columns `2048 (t % 4) …` of the left operand. -/
theorem ablk_apply (t : Fin cfg0.N) (p : Fin 512) (k : Fin 2048) (i K : ℕ)
    (hi : i = t.val / 4 * 512 + p.val) (hK : K = t.val % 4 * 2048 + k.val) :
    ablk V c t (ix2 p k) = aN V c i K := by
  obtain ⟨e0, e1, -⟩ := idx_facts t
  have ht : t.val < 64 := t.isLt
  unfold ablk iblk aN lhs
  rw [View.read_apply]
  show V c main_v44 _ = V c main_v44 _
  congr 1
  funext a
  apply Fin.ext
  match a with
  | ⟨0, _⟩ => show win0_0.index t (0 : Fin 2) * 512 + 1 * p.val = i % 8192; rw [e0, hi]; omega
  | ⟨1, _⟩ => show win0_0.index t (1 : Fin 2) * 2048 + 1 * k.val = K % 8192; rw [e1, hK]; omega

/-- The right block at point `t` is rows `2048 (t % 4) …` of the right operand. -/
theorem bblk_apply (t : Fin cfg0.N) (k : Fin 2048) (q : Fin 512) (K : ℕ) (hK : K = t.val % 4 * 2048 + k.val) :
    bblk V c t (ix2 k q) = bN V c K q := by
  obtain ⟨-, -, e0, e1, -⟩ := idx_facts t
  have ht : t.val < 64 := t.isLt
  unfold bblk iblk bN rhs
  rw [View.read_apply]
  show V c main_arg2 _ = V c main_arg2 _
  congr 1
  funext a
  apply Fin.ext
  match a with
  | ⟨0, _⟩ => show win0_1.index t (0 : Fin 2) * 2048 + 1 * k.val = K % 8192; rw [e0, hK]; omega
  | ⟨1, _⟩ => show win0_1.index t (1 : Fin 2) * 512 + 1 * q.val = q.val; rw [e1]; omega

/-- The bias window's block is the bias row at every point. -/
theorem cblk_apply (t : Fin cfg0.N) (q : Fin 512) : cblk V c t (ix2 (0 : Fin 1) q) = bias V c (ix2 (0 : Fin 1) q) := by
  obtain ⟨-, -, -, -, e0, e1, -⟩ := idx_facts t
  unfold cblk iblk bias
  rw [View.read_apply]
  show V c main_v45 _ = V c main_v45 _
  congr 1
  funext a
  apply Fin.ext
  match a with
  | ⟨0, _⟩ => show win0_2.index t (0 : Fin 2) * 1 + 1 * 0 = 0; rw [e0]
  | ⟨1, _⟩ => show win0_2.index t (1 : Fin 2) * 512 + 1 * q.val = q.val; rw [e1]; omega

/-! ## The accumulator after a point -/

/-- Step `s`'s share of entry (i, q) of the product: the sum over that step's 2048 columns. -/
def part (i : ℕ) (q : Fin 512) (s : ℕ) : EReal :=
  ∑ k : Fin 2048, aN V c i (s * 2048 + k.val) * bN V c (s * 2048 + k.val) q

/-- The block product of point `n` at (p, q) is step `n % 4`'s share of row `512 (n / 4) + p`. -/
theorem step_at (n : ℕ) (hn : n < 64) (p q : Fin 512) :
    ∑ k : Fin 2048, (ablk V c (ptOf n) (ix2 p k) : EReal) * (bblk V c (ptOf n) (ix2 k q) : EReal)
      = part V c (n / 4 * 512 + p.val) q (n % 4) := by
  have e : (ptOf n).val = n := Nat.mod_eq_of_lt hn
  unfold part
  exact Finset.sum_congr rfl fun k _ => by
    rw [ablk_apply V c (ptOf n) p k _ _ rfl rfl, bblk_apply V c (ptOf n) k q _ rfl, e]

/-- After point `n` the accumulator holds, at (p, q), the shares of the steps `0 … n % 4` of `n`'s row block: the first
    step adds its share to zero, every later step to what the step before left. -/
theorem acc_apply (p q : Fin 512) : ∀ n : ℕ, n < 64 →
    (accAt V c n : Vec Ideal S512x512 .f32) (ix2 p q)
      = ∑ s ∈ Finset.range (n % 4 + 1), part V c (n / 4 * 512 + p.val) q s := by
  intro n
  induction n with
  | zero =>
    intro hn
    rw [accAt_first V c 0 rfl]
    refine (pay2_apply (ablk V c (ptOf 0)) (bblk V c (ptOf 0)) (k0_pay1 (F := Ideal)) p q).trans ?_
    rw [pay1_apply, zero_add, step_at V c 0 hn p q]
    exact (Finset.sum_range_one _).symm
  | succ n ih =>
    intro hn
    by_cases h : (n + 1) % 4 = 0
    · rw [accAt_first V c (n + 1) h]
      refine (pay2_apply (ablk V c (ptOf (n + 1))) (bblk V c (ptOf (n + 1))) (k0_pay1 (F := Ideal)) p q).trans ?_
      rw [pay1_apply, zero_add, step_at V c (n + 1) hn p q, h]
      exact (Finset.sum_range_one _).symm
    · rw [accAt_next V c (n + 1) h]
      refine (pay2_apply (ablk V c (ptOf (n + 1))) (bblk V c (ptOf (n + 1))) (accAt V c (n + 1 - 1)) p q).trans ?_
      have h1 : (n + 1) % 4 = n % 4 + 1 := by omega
      have h2 : (n + 1) / 4 = n / 4 := by omega
      rw [show n + 1 - 1 = n from rfl, ih (by omega), step_at V c (n + 1) hn p q, h1, h2,
        Finset.sum_range_succ _ (n % 4 + 1)]

/-- After the last step of row block `r` the accumulator holds the whole contraction: the four steps' shares in order
    are the sum over all 8192 columns, cut into four runs of 2048. -/
theorem acc_last (r : ℕ) (hr : r < 16) (p q : Fin 512) :
    (accAt V c (4 * r + 3) : Vec Ideal S512x512 .f32) (ix2 p q)
      = ∑ K : Fin 8192, aN V c (r * 512 + p.val) K.val * bN V c K.val q := by
  rw [acc_apply V c p q (4 * r + 3) (by omega)]
  have h1 : (4 * r + 3) % 4 + 1 = 4 := by omega
  have h2 : (4 * r + 3) / 4 = r := by omega
  rw [h1, h2]
  exact (BlockedSum.sum_fin_blocks (fun K => aN V c (r * 512 + p.val) K * bN V c K q) 4 2048 8192 rfl).symm

/-! ## From the written-back blocks to the array -/

/-- Entry (i, j) of the product plus the bias, rectified, at natural-number coordinates. -/
def GN (i j : ℕ) : EReal :=
  max ((∑ K : Fin 8192, aN V c i K.val * bN V c K.val ⟨j % 512, Nat.mod_lt _ (by decide)⟩)
    + bias V c (ix2 (0 : Fin 1) ⟨j % 512, Nat.mod_lt _ (by decide)⟩)) 0

/-- The whole output array as one function of the index. -/
def G : FVec Ideal S8192x512 .f32 := fun i => GN V c (i 0).val (i 1).val

/-- WHAT A LAST STEP WRITES BACK is its row block of `G`: the closing payload of the accumulator after that point
    and the bias row, read where the output's block sits in the array. -/
theorem flushed_eq (t : Fin cfg0.N) (hf : (cfg0.win 3).flush t = true) :
    (dat V c).flushed 3 t = ((cfg0.win 3).blk t).view.read (Elt Ideal) (G V c) := by
  have h3 : t.val % 4 = 3 := (flush0_3 t).mp hf
  have ht : t.val < 64 := t.isLt
  obtain ⟨-, -, -, -, -, -, e0, e1⟩ := idx_facts t
  show (cfg0.win 3).cut (grid0.coords t) ((dat V c).after 3 t) = _
  rw [after3]
  funext y
  obtain ⟨p, q, rfl⟩ : ∃ (p : Fin 512) (q : Fin 512), y = ix2 p q := ⟨y 0, y 1, eq_ix2 y⟩
  rw [View.read_apply]
  show (k0_pay3 (accAt V c t.val) (cblk V c t) : FVec Ideal S512x512 .f32) (ix2 p q)
    = G V c (((cfg0.win 3).blk t).view.emb (ix2 p q))
  refine (pay3_apply (accAt V c t.val) (cblk V c t) p q).trans ?_
  have hacc := acc_last V c (t.val / 4) (by omega) p q
  rw [show 4 * (t.val / 4) + 3 = t.val from by omega] at hacc
  rw [hacc, cblk_apply]
  have hE0 : ((((cfg0.win 3).blk t).view.emb (ix2 p q)) 0).val = t.val / 4 * 512 + p.val := by
    show win0_3.index t (0 : Fin 2) * 512 + 1 * p.val = _
    rw [e0]; omega
  have hE1 : ((((cfg0.win 3).blk t).view.emb (ix2 p q)) 1).val = q.val := by
    show win0_3.index t (1 : Fin 2) * 512 + 1 * q.val = _
    rw [e1]; omega
  unfold G
  rw [hE0, hE1]
  unfold GN
  rw [show (⟨q.val % 512, Nat.mod_lt _ (by decide)⟩ : Fin 512) = q from Fin.ext (Nat.mod_eq_of_lt q.isLt)]

/-- An index of the array is in point `t`'s block iff each coordinate is in the block's range on its axis. -/
theorem mem_blk (t : Fin cfg0.N) (i : S8192x512.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v48).slice (win0_3.rect t)).set ↔ _
  rw [View.set_slice_whole, Rect.mem_set_unit]
  exact Iff.rfl

/-- Every index is in the block some last step writes back: row `r` in that of the last step of row block `r / 512`. -/
theorem cover (i : S8192x512.Idx) :
    ∃ t : Fin cfg0.N, (cfg0.win 3).flush t = true ∧ i ∈ ((cfg0.win 3).blk t).view.set := by
  have hi0 : (i 0).val < 8192 := (i 0).isLt
  have hi1 : (i 1).val < 512 := (i 1).isLt
  have hlt : (i 0).val / 512 * 4 + 3 < 64 := by omega
  obtain ⟨-, -, -, -, -, -, e0, e1⟩ := idx_facts ⟨(i 0).val / 512 * 4 + 3, hlt⟩
  refine ⟨⟨(i 0).val / 512 * 4 + 3, hlt⟩, (flush0_3 _).mpr (by show ((i 0).val / 512 * 4 + 3) % 4 = 3; omega), ?_⟩
  rw [mem_blk]
  intro a
  match a with
  | ⟨0, _⟩ =>
    show win0_3.index ⟨(i 0).val / 512 * 4 + 3, hlt⟩ (0 : Fin 2) * 512 ≤ (i 0).val
      ∧ (i 0).val < win0_3.index ⟨(i 0).val / 512 * 4 + 3, hlt⟩ (0 : Fin 2) * 512 + 512
    rw [e0]
    show ((i 0).val / 512 * 4 + 3) / 4 * 512 ≤ (i 0).val ∧ (i 0).val < ((i 0).val / 512 * 4 + 3) / 4 * 512 + 512
    omega
  | ⟨1, _⟩ =>
    show win0_3.index ⟨(i 0).val / 512 * 4 + 3, hlt⟩ (1 : Fin 2) * 512 ≤ (i 1).val
      ∧ (i 1).val < win0_3.index ⟨(i 0).val / 512 * 4 + 3, hlt⟩ (1 : Fin 2) * 512 + 512
    rw [e1]; omega

/-- THE FIRST PRODUCT'S OUTPUT at (d, j). -/
theorem final (d : Fin 8192) (j : Fin 512) :
    out V c (ix2 d j) = max ((∑ k : Fin 8192, lhs V c (ix2 d k) * rhs V c (ix2 k j)) + bias V c (ix2 (0 : Fin 1) j)) (0 : EReal) := by
  have h := congrFun ((dat V c).arrAt_eq_of_cover 3 (G V c) (fun t hf => flushed_eq V c t hf) cover) (ix2 d j)
  refine h.trans ?_
  show GN V c d.val j.val = _
  unfold GN
  rw [show (⟨j.val % 512, Nat.mod_lt _ (by decide)⟩ : Fin 512) = j from Fin.ext (Nat.mod_eq_of_lt j.isLt)]
  exact congrArg (fun x : EReal => max (x + bias V c (ix2 (0 : Fin 1) j)) 0)
    (Finset.sum_congr rfl fun K _ => by rw [aN_fin, bN_fin])

end Cert.KernelIdeal.Reg0

end
-- ==== Proof.RegValue1.lean ====
/-
  What the second product leaves in its output array, at Ideal: entry (d, r) is the sum over the 512 columns j of
  h[d, j] · W2[j, r] plus the bias row's entry.  There is one step along the contracted axis, so each of the sixteen
  grid points computes its row block whole (0 + the sum, the accumulator cleared first) and stores it; every row block
  is written back exactly once.
-/
import proofs.«100943_j2456721293623_1_alg».proof.Proof.Region1
import proofs.«100943_j2456721293623_1_alg».proof.Proof.LibBlockedSum
import proofs.«100943_j2456721293623_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg1

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)

/-- The arrays the second product reads and the array it leaves, at their literal types. -/
abbrev lhs : FVec Ideal S8192x512 .f32 := V c main_v48
abbrev rhs : FVec Ideal S512x128 .f32 := V c main_arg4
abbrev bias : FVec Ideal S1x128 .f32 := V c main_v47
abbrev out : FVec Ideal S8192x128 .f32 := (dat V c).arrAt 3 cfg1.N

/-! ## The body's arithmetic at an entry -/

/-- The bias row spread over the 512 rows of a block, read at (p, q), is the row's entry in column q. -/
theorem bias_spread_apply (xbias : Vec Ideal S1x128 .f32) (p : Fin 512) (q : Fin 128) :
    broadcastTo S512x128 xbias broadcasts_S1x128_S512x128 (ix2 p q) = xbias (ix2 (0 : Fin 1) q) :=
  broadcastTo_apply xbias broadcasts_S1x128_S512x128 (ix2 p q) (ix2 (0 : Fin 1) q) fun a =>
    match a with | ⟨0, _⟩ => rfl | ⟨1, _⟩ => rfl

/-- The block product into the cleared accumulator, read at (p, q): the sum over the 512 contracted positions. The
    narrowing of the operands before the product is the identity on extended reals. -/
theorem block_product_apply (xa : Vec Ideal S512x512 .f32) (xb : Vec Ideal S512x128 .f32) (p : Fin 512) (q : Fin 128) :
    matmul (F := Ideal) dot_S512x512_S512x128_S512x128_1_0_0_1_n_n none (truncf FTy.bf16 xa bitsLt_bf16_f32)
        (truncf FTy.bf16 xb bitsLt_bf16_f32) (constant S512x128 FTy.f32 0x00000000#32) (ix2 p q)
      = ∑ k : Fin 512, xa (ix2 p k) * xb (ix2 k q) := by
  show FloatOps.matmul dot_S512x512_S512x128_S512x128_1_0_0_1_n_n none _ _ _ (ix2 p q) = _
  rw [Ideal.matmul_constant_zero_apply]
  exact Cert.LibPlainDot.plain_sum dot_S512x512_S512x128_S512x128_1_0_0_1_n_n rfl rfl rfl rfl rfl rfl
    (fun i => xa i) (fun i => xb i) p q

/-- The body's arithmetic at entry (p, q): the accumulator is cleared, so it is the block product's entry, the sum over the
    512 contracted positions, plus the bias row's entry in column q. -/
theorem pay_apply (xa : Vec Ideal S512x512 .f32) (xb : Vec Ideal S512x128 .f32) (xbias : Vec Ideal S1x128 .f32)
    (p : Fin 512) (q : Fin 128) :
    k1_pay3 (F := Ideal) (k1_pay2 (F := Ideal) xa xb (k1_pay1 (F := Ideal))) xbias (ix2 p q)
      = (∑ k : Fin 512, xa (ix2 p k) * xb (ix2 k q)) + xbias (ix2 (0 : Fin 1) q) := by
  unfold k1_pay3 k1_pay2 k1_pay1
  dsimp only
  simp only [shapeCast_self]
  rw [addf_apply, addf_apply, broadcast_apply, block_product_apply, bias_spread_apply]
  show (Ideal.ofBits .f32 0x00000000#32 + _) + _ = _
  rw [Ideal.ofBits_zero_f32, zero_add]

/-! ## The blocks, read where the index maps say -/

/-- The grid has sixteen points. -/
theorem N_eq : cfg1.N = 16 := rfl

/-- The index maps over the grid: the row blocks of h and of the output move with the point, every other block index
    is 0 (the contracted axis and the column axis have one block each). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block of h at point t is rows 512·t … 512·t + 511 of h, every column. -/
theorem hblk_apply (t : Fin cfg1.N) (x : S512x512.Idx) (k : S8192x512.Idx)
    (hk0 : (k 0).val = t.val * 512 + (x 0).val) (hk1 : (k 1).val = (x 1).val) :
    (iblk V c 0 t : Vec Ideal S512x512 .f32) x = lhs V c k := by
  obtain ⟨e0, e1, -⟩ := idx_facts t
  unfold iblk
  rw [View.read_apply]
  show V c main_v48 _ = V c main_v48 _
  congr 1
  funext a
  apply Fin.ext
  match a with
  | ⟨0, _⟩ => show win1_0.index t (0 : Fin 2) * 512 + 1 * (x 0).val = (k 0).val; rw [e0, hk0]; omega
  | ⟨1, _⟩ => show win1_0.index t (1 : Fin 2) * 512 + 1 * (x 1).val = (k 1).val; rw [e1, hk1]; omega

/-- The block of W2 is W2 whole, at every point. -/
theorem wblk_apply (t : Fin cfg1.N) (x : S512x128.Idx) :
    (iblk V c 1 t : Vec Ideal S512x128 .f32) x = rhs V c x := by
  obtain ⟨-, -, e0, e1, -⟩ := idx_facts t
  unfold iblk
  rw [View.read_apply]
  show V c main_arg4 _ = V c main_arg4 _
  congr 1
  funext a
  apply Fin.ext
  match a with
  | ⟨0, _⟩ => show win1_1.index t (0 : Fin 2) * 512 + 1 * (x 0).val = (x 0).val; rw [e0]; omega
  | ⟨1, _⟩ => show win1_1.index t (1 : Fin 2) * 128 + 1 * (x 1).val = (x 1).val; rw [e1]; omega

/-- The block of the bias row is the row whole, at every point. -/
theorem bblk_apply (t : Fin cfg1.N) (x : S1x128.Idx) :
    (iblk V c 2 t : Vec Ideal S1x128 .f32) x = bias V c x := by
  obtain ⟨-, -, -, -, e0, e1, -⟩ := idx_facts t
  unfold iblk
  rw [View.read_apply]
  show V c main_v47 _ = V c main_v47 _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 128 + 1 * (x 1).val = (x 1).val; rw [e1]; omega

/-- The whole output as one function of the three arrays: entry i is row i₀ of h times column i₁ of W2, plus the
    bias row's entry in column i₁. -/
def whole : FVec Ideal S8192x128 .f32 := fun i =>
  (∑ j : Fin 512, lhs V c (ix2 (i 0) j) * rhs V c (ix2 j (i 1))) + bias V c (ix2 (0 : Fin 1) (i 1))

/-- What point t's body leaves in the output buffer, at entry y, is the whole output at row 512·t + y₀, column y₁. -/
theorem outBlk_apply (t : Fin cfg1.N) (y : S512x128.Idx) (i : S8192x128.Idx)
    (hi0 : (i 0).val = t.val * 512 + (y 0).val) (hi1 : (i 1).val = (y 1).val) :
    outBlk V c t y = whole V c i := by
  obtain ⟨p, q, rfl⟩ : ∃ (p : Fin 512) (q : Fin 128), y = ix2 p q := ⟨y 0, y 1, eq_ix2 y⟩
  unfold outBlk whole
  refine (pay_apply (iblk V c 0 t) (iblk V c 1 t) (iblk V c 2 t) p q).trans ?_
  have hq : q = i 1 := Fin.ext hi1.symm
  subst hq
  refine congrArg₂ (· + ·) (Finset.sum_congr rfl fun j _ => congrArg₂ (· * ·) ?_ ?_) ?_
  · exact hblk_apply V c t (ix2 p j) (ix2 (i 0) j) hi0 rfl
  · exact wblk_apply V c t (ix2 j (i 1))
  · exact bblk_apply V c t (ix2 (0 : Fin 1) (i 1))

/-! ## From the blocks to the array -/

/-- What point t writes back is block t of the whole output. -/
theorem flushed_eq (t : Fin cfg1.N) :
    (dat V c).flushed 3 t = ((cfg1.win 3).blk t).view.read (Elt Ideal) (whole V c) := by
  show (cfg1.win 3).cut (grid1.coords t) ((dat V c).after 3 t) = _
  rw [after3]
  obtain ⟨-, -, -, -, -, -, e0, e1⟩ := idx_facts t
  funext j
  rw [View.read_apply]
  show outBlk V c t _ = whole V c (((cfg1.win 3).blk t).view.emb j)
  refine outBlk_apply V c t _ _ ?_ ?_
  · show win1_3.index t (0 : Fin 2) * 512 + 1 * (j 0).val = t.val * 512 + (j 0).val; rw [e0]; omega
  · show win1_3.index t (1 : Fin 2) * 128 + 1 * (j 1).val = (j 1).val; rw [e1]; omega

/-- An index of the output is in point t's block iff each coordinate is in the block's range on its axis. -/
theorem mem_blk (t : Fin cfg1.N) (i : S8192x128.Idx) :
    i ∈ ((cfg1.win 3).blk t).view.set
      ↔ ∀ a : Fin 2, win1_3.index t a * S512x128.size a ≤ (i a).val
          ∧ (i a).val < win1_3.index t a * S512x128.size a + S512x128.size a := by
  show i ∈ ((View.whole main_v49).slice (win1_3.rect t)).set ↔ _
  rw [View.set_slice_whole, Rect.mem_set_unit]
  exact Iff.rfl

/-- Every entry of the output is in the block of the point its row block names, and that point writes back. -/
theorem cover (i : S8192x128.Idx) :
    ∃ t : Fin cfg1.N, (cfg1.win 3).flush t = true ∧ i ∈ ((cfg1.win 3).blk t).view.set := by
  have h0 : (i 0).val < 8192 := (i 0).isLt
  have h1 : (i 1).val < 128 := (i 1).isLt
  obtain ⟨t, ht⟩ : ∃ t : Fin cfg1.N, t.val = (i 0).val / 512 := ⟨⟨(i 0).val / 512, by rw [N_eq]; omega⟩, rfl⟩
  obtain ⟨-, -, -, -, -, -, e0, e1⟩ := idx_facts t
  refine ⟨t, flush1_3 t, ?_⟩
  rw [mem_blk]
  intro a
  match a with
  | ⟨0, _⟩ =>
    show win1_3.index t (0 : Fin 2) * 512 ≤ (i 0).val ∧ (i 0).val < win1_3.index t (0 : Fin 2) * 512 + 512
    rw [e0, ht]; omega
  | ⟨1, _⟩ =>
    show win1_3.index t (1 : Fin 2) * 128 ≤ (i 1).val ∧ (i 1).val < win1_3.index t (1 : Fin 2) * 128 + 128
    rw [e1]; omega

/-- THE SECOND PRODUCT'S OUTPUT at (d, r). -/
theorem final (d : Fin 8192) (r : Fin 128) :
    out V c (ix2 d r) = (∑ j : Fin 512, lhs V c (ix2 d j) * rhs V c (ix2 j r)) + bias V c (ix2 (0 : Fin 1) r) := by
  have h : (dat V c).arrAt 3 cfg1.N = whole V c :=
    (dat V c).arrAt_eq_of_cover 3 (whole V c) (fun t _ => flushed_eq V c t) (cover)
  show (dat V c).arrAt 3 cfg1.N (ix2 d r) = _
  rw [h]
  rfl

end Cert.KernelIdeal.Reg1

end
-- ==== Proof.RegValue2.lean ====
/-
  What the third product leaves in its output array, at Ideal: entry (d, r) is the sum over ALL 8192 columns k of
  A[d, k] · B[k, r] plus the bias.  The pipeline computes it row block by row block, 2048 columns at a time: after the
  four steps of row block d / 512 the accumulator holds 0 + the four partial sums in order, each partial sum being
  0 + the sum over its 2048 columns; on the extended reals addition is associative and commutative and 0 is neutral,
  so this is the sum over all 8192 columns.  The last step's store, written back at the block's place, is what the
  array holds at the end (every row block is written back exactly once).
-/
import proofs.«100943_j2456721293623_1_alg».proof.Proof.Region2
import proofs.«100943_j2456721293623_1_alg».proof.Proof.LibBlockedSum
import proofs.«100943_j2456721293623_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg2

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)

/-- The arrays the third product reads and the array it leaves, at their literal types. -/
abbrev lhs : FVec Ideal S8192x8192 .f32 := V c main_v44
abbrev rhs : FVec Ideal S8192x128 .f32 := V c main_v49
abbrev bias : FVec Ideal S1x128 .f32 := V c main_v46
abbrev out : FVec Ideal S8192x128 .f32 := (dat V c).arrAt 3 cfg2.N

/-! ## The body's arithmetic at one entry -/

/-- The cleared accumulator is zero everywhere. -/
theorem pay1_apply (p : Fin 512) (q : Fin 128) : (k2_pay1 (F := Ideal) : S512x128.Idx → EReal) (ix2 p q) = 0 := by
  unfold k2_pay1
  simp only [shapeCast_self]
  exact Ideal.ofBits_zero_f32

/-- One step: the accumulator's entry plus the entry of the product of the two blocks. -/
theorem pay2_apply (a : Vec Ideal S512x2048 .f32) (b : Vec Ideal S2048x128 .f32) (s : Vec Ideal S512x128 .f32)
    (p : Fin 512) (q : Fin 128) :
    (k2_pay2 a b s : S512x128.Idx → EReal) (ix2 p q)
      = (s : S512x128.Idx → EReal) (ix2 p q)
        + ∑ k : Fin 2048, (a : S512x2048.Idx → EReal) (ix2 p k) * (b : S2048x128.Idx → EReal) (ix2 k q) := by
  unfold k2_pay2
  simp only [shapeCast_self]
  refine congrArg ((s : S512x128.Idx → EReal) (ix2 p q) + ·) ?_
  refine (Ideal.matmul_constant_zero_apply dot_S512x2048_S2048x128_S512x128_1_0_0_1_n_n none
    (truncf .bf16 a bitsLt_bf16_f32) (truncf .bf16 b bitsLt_bf16_f32) (ix2 p q)).trans ?_
  exact Cert.LibPlainDot.plain_sum dot_S512x2048_S2048x128_S512x128_1_0_0_1_n_n rfl rfl rfl rfl rfl rfl
    (a : S512x2048.Idx → EReal) (b : S2048x128.Idx → EReal) p q

/-- The closing payload: the accumulator's entry plus the bias of its column. -/
theorem pay3_apply (s : Vec Ideal S512x128 .f32) (bs : Vec Ideal S1x128 .f32) (p : Fin 512) (q : Fin 128) :
    (k2_pay3 s bs : S512x128.Idx → EReal) (ix2 p q)
      = (s : S512x128.Idx → EReal) (ix2 p q) + (bs : S1x128.Idx → EReal) (ix2 (0 : Fin 1) q) := by
  unfold k2_pay3
  simp only [shapeCast_self]
  refine congrArg ((s : S512x128.Idx → EReal) (ix2 p q) + ·) ?_
  exact broadcastTo_apply _ _ _ _ (fun a => by
    match a with
    | ⟨0, _⟩ => rfl
    | ⟨1, _⟩ => rfl)

/-- The three input blocks at a point and the accumulator after a point, at their literal types. -/
abbrev lblk (t : Fin cfg2.N) : FVec Ideal S512x2048 .f32 := iblk V c 0 t
abbrev rblk (t : Fin cfg2.N) : FVec Ideal S2048x128 .f32 := iblk V c 1 t
abbrev bblk (t : Fin cfg2.N) : FVec Ideal S1x128 .f32 := iblk V c 2 t
abbrev acc (n : ℕ) : FVec Ideal S512x128 .f32 := accAt V c n

/-! ## Where the blocks sit -/

/-- The block indices over the grid: point t is row block t / 4 at step t % 4 along the contracted axis. -/
theorem idx_facts : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = 0 ∧ win2_2.index t (1 : Fin 2) = 0
    ∧ win2_3.index t (0 : Fin 2) = t.val / 4 ∧ win2_3.index t (1 : Fin 2) = 0 :=
  (by decide +kernel : ∀ t : Fin grid2.N, _)

/-- The left operand's block at point t: rows of row block t / 4, columns of step t % 4. -/
theorem lblk_apply (t : Fin cfg2.N) (p : Fin 512) (k : Fin 2048) (i j : Fin 8192)
    (hi : i.val = t.val / 4 * 512 + p.val) (hj : j.val = t.val % 4 * 2048 + k.val) :
    lblk V c t (ix2 p k) = lhs V c (ix2 i j) := by
  obtain ⟨e0, e1, -⟩ := idx_facts t
  unfold lblk iblk
  rw [View.read_apply]
  show (V c main_v44 : S8192x8192.Idx → EReal) _ = (V c main_v44 : S8192x8192.Idx → EReal) _
  congr 1
  funext a
  apply Fin.ext
  match a with
  | ⟨0, _⟩ => show win2_0.index t (0 : Fin 2) * 512 + 1 * p.val = i.val; omega
  | ⟨1, _⟩ => show win2_0.index t (1 : Fin 2) * 2048 + 1 * k.val = j.val; omega

/-- The right operand's block at point t: rows of step t % 4, all 128 columns. -/
theorem rblk_apply (t : Fin cfg2.N) (k : Fin 2048) (q : Fin 128) (j : Fin 8192)
    (hj : j.val = t.val % 4 * 2048 + k.val) :
    rblk V c t (ix2 k q) = rhs V c (ix2 j q) := by
  obtain ⟨-, -, e2, e3, -⟩ := idx_facts t
  unfold rblk iblk
  rw [View.read_apply]
  show (V c main_v49 : S8192x128.Idx → EReal) _ = (V c main_v49 : S8192x128.Idx → EReal) _
  congr 1
  funext a
  apply Fin.ext
  match a with
  | ⟨0, _⟩ => show win2_1.index t (0 : Fin 2) * 2048 + 1 * k.val = j.val; omega
  | ⟨1, _⟩ => show win2_1.index t (1 : Fin 2) * 128 + 1 * q.val = q.val; omega

/-- The bias window's block is the whole bias row at every point. -/
theorem bblk_apply (t : Fin cfg2.N) (q : Fin 128) :
    bblk V c t (ix2 (0 : Fin 1) q) = bias V c (ix2 (0 : Fin 1) q) := by
  obtain ⟨-, -, -, -, e4, e5, -⟩ := idx_facts t
  unfold bblk iblk
  rw [View.read_apply]
  show (V c main_v46 : S1x128.Idx → EReal) _ = (V c main_v46 : S1x128.Idx → EReal) _
  congr 1
  funext a
  apply Fin.ext
  match a with
  | ⟨0, _⟩ => show win2_2.index t (0 : Fin 2) * 1 + 1 * 0 = 0; omega
  | ⟨1, _⟩ => show win2_2.index t (1 : Fin 2) * 128 + 1 * q.val = q.val; omega

/-! ## The accumulator after a point, at one entry -/

/-- The K-th term of entry (d, r)'s contraction, K a natural number (zero past the axis' end). -/
def term (d : Fin 8192) (r : Fin 128) (K : ℕ) : EReal :=
  if h : K < 8192 then lhs V c (ix2 d ⟨K, h⟩) * rhs V c (ix2 ⟨K, h⟩ r) else 0

/-- The two blocks' product at point t, entry (p, q), is the sum of row d's terms over the 2048 columns of step t % 4. -/
theorem step_sum (t : Fin cfg2.N) (p : Fin 512) (q : Fin 128) (d : Fin 8192) (hd : d.val = t.val / 4 * 512 + p.val) :
    (∑ k : Fin 2048, lblk V c t (ix2 p k) * rblk V c t (ix2 k q))
      = ∑ k : Fin 2048, term V c d q (t.val % 4 * 2048 + k.val) := by
  refine Finset.sum_congr rfl fun k _ => ?_
  have hK : t.val % 4 * 2048 + k.val < 8192 := by have := k.isLt; omega
  unfold term
  rw [dif_pos hK, lblk_apply V c t p k d ⟨_, hK⟩ hd rfl, rblk_apply V c t k q ⟨_, hK⟩ rfl]

/-- AFTER POINT n the accumulator's entry (p, q) is the sum of row d's terms over the steps 0 … n % 4 of n's row block. -/
theorem acc_apply (p : Fin 512) (q : Fin 128) : ∀ (n : ℕ), n < 64 → ∀ (d : Fin 8192), d.val = n / 4 * 512 + p.val →
    acc V c n (ix2 p q) = ∑ s ∈ Finset.range (n % 4 + 1), ∑ k : Fin 2048, term V c d q (s * 2048 + k.val) := by
  intro n
  induction n with
  | zero =>
    intro hn d hd
    show (accAt V c 0 : FVec Ideal S512x128 .f32) (ix2 p q) = _
    rw [accAt_first V c 0 rfl]
    refine (pay2_apply (lblk V c (ptOf 0)) (rblk V c (ptOf 0)) (k2_pay1 (F := Ideal)) p q).trans ?_
    rw [pay1_apply, zero_add, step_sum V c (ptOf 0) p q d hd]
    exact (Finset.sum_range_one (fun s => ∑ k : Fin 2048, term V c d q (s * 2048 + k.val))).symm
  | succ m ih =>
    intro hn d hd
    have hv : (ptOf (m + 1)).val = m + 1 := Nat.mod_eq_of_lt hn
    show (accAt V c (m + 1) : FVec Ideal S512x128 .f32) (ix2 p q) = _
    by_cases h0 : (m + 1) % 4 = 0
    · rw [accAt_first V c (m + 1) h0]
      refine (pay2_apply (lblk V c (ptOf (m + 1))) (rblk V c (ptOf (m + 1))) (k2_pay1 (F := Ideal)) p q).trans ?_
      rw [pay1_apply, zero_add, step_sum V c (ptOf (m + 1)) p q d (by rw [hv]; exact hd), hv, h0]
      exact (Finset.sum_range_one (fun s => ∑ k : Fin 2048, term V c d q (s * 2048 + k.val))).symm
    · rw [accAt_next V c (m + 1) h0]
      refine (pay2_apply (lblk V c (ptOf (m + 1))) (rblk V c (ptOf (m + 1))) (acc V c m) p q).trans ?_
      rw [step_sum V c (ptOf (m + 1)) p q d (by rw [hv]; exact hd), hv,
        ih (by omega) d (by omega), show m % 4 + 1 = (m + 1) % 4 from by omega]
      exact (Finset.sum_range_succ (fun s => ∑ k : Fin 2048, term V c d q (s * 2048 + k.val)) ((m + 1) % 4)).symm

/-- AFTER THE LAST STEP of a row block the accumulator's entry is the contraction over all 8192 columns. -/
theorem acc_last (t : Fin cfg2.N) (h3 : t.val % 4 = 3) (p : Fin 512) (q : Fin 128) (d : Fin 8192)
    (hd : d.val = t.val / 4 * 512 + p.val) :
    acc V c t.val (ix2 p q) = ∑ k : Fin 8192, lhs V c (ix2 d k) * rhs V c (ix2 k q) := by
  rw [acc_apply V c p q t.val t.isLt d hd, h3]
  refine (BlockedSum.sum_fin_blocks (term V c d q) 4 2048 8192 rfl).symm.trans ?_
  refine Finset.sum_congr rfl fun k _ => ?_
  unfold term
  rw [dif_pos k.isLt]

/-! ## From the blocks to the array -/

/-- What the output array ends holding, as one function of the index: the contraction over all 8192 columns plus the bias. -/
def G : FVec Ideal S8192x128 .f32 := fun i =>
  (∑ k : Fin 8192, lhs V c (ix2 (i 0 : Fin 8192) k) * rhs V c (ix2 k (i 1 : Fin 128))) + bias V c (ix2 (0 : Fin 1) (i 1 : Fin 128))

/-- WHAT A LAST STEP WRITES BACK is its block of G: the closing payload of the accumulator after the row block's
    four steps and the bias row, entry by entry. -/
theorem flushed_eq (t : Fin cfg2.N) (hf : (cfg2.win 3).flush t = true) :
    (dat V c).flushed 3 t = ((cfg2.win 3).blk t).view.read (Elt Ideal) (G V c) := by
  have h3 : t.val % 4 = 3 := (flush2_3 t).1 hf
  have ht : t.val < 64 := t.isLt
  obtain ⟨-, -, -, -, -, -, e6, e7⟩ := idx_facts t
  show (cfg2.win 3).cut (grid2.coords t) ((dat V c).after 3 t) = _
  rw [after3]
  refine funext fun (j : S512x128.Idx) => ?_
  obtain ⟨p, q, rfl⟩ : ∃ (p : Fin 512) (q : Fin 128), j = ix2 p q := ⟨j 0, j 1, eq_ix2 j⟩
  rw [View.read_apply]
  have hd : t.val / 4 * 512 + p.val < 8192 := by have := p.isLt; omega
  have hemb : ((cfg2.win 3).blk t).view.emb (ix2 p q) = (ix2 (⟨t.val / 4 * 512 + p.val, hd⟩ : Fin 8192) q : S8192x128.Idx) := by
    funext a
    apply Fin.ext
    match a with
    | ⟨0, _⟩ => show win2_3.index t (0 : Fin 2) * 512 + 1 * p.val = t.val / 4 * 512 + p.val; omega
    | ⟨1, _⟩ => show win2_3.index t (1 : Fin 2) * 128 + 1 * q.val = q.val; omega
  show (k2_pay3 (acc V c t.val) (bblk V c t) : FVec Ideal S512x128 .f32) (ix2 p q) = G V c (((cfg2.win 3).blk t).view.emb (ix2 p q))
  rw [hemb]
  refine (pay3_apply (acc V c t.val) (bblk V c t) p q).trans ?_
  rw [acc_last V c t h3 p q ⟨_, hd⟩ rfl, bblk_apply]
  rfl

/-- An index of the array is in point t's block iff each coordinate is in the block's range on its axis. -/
theorem mem_blk (t : Fin cfg2.N) (i : S8192x128.Idx) :
    i ∈ ((cfg2.win 3).blk t).view.set ↔ ∀ a : Fin 2, win2_3.index t a * S512x128.size a ≤ (i a).val
      ∧ (i a).val < win2_3.index t a * S512x128.size a + S512x128.size a := by
  show i ∈ ((View.whole main_v50).slice (win2_3.rect t)).set ↔ _
  rw [View.set_slice_whole, Rect.mem_set_unit]
  exact Iff.rfl

/-- EVERY INDEX is in the block of a point that writes back: row r lies in row block r / 512, whose last step is
    point 4 (r / 512) + 3. -/
theorem cover (i : S8192x128.Idx) :
    ∃ t : Fin cfg2.N, (cfg2.win 3).flush t = true ∧ i ∈ ((cfg2.win 3).blk t).view.set := by
  have hi0 : (i 0).val < 8192 := (i 0).isLt
  have hi1 : (i 1).val < 128 := (i 1).isLt
  have hlt : (i 0).val / 512 * 4 + 3 < 64 := by omega
  obtain ⟨t, hv⟩ : ∃ t : Fin cfg2.N, t.val = (i 0).val / 512 * 4 + 3 := ⟨⟨_, hlt⟩, rfl⟩
  obtain ⟨-, -, -, -, -, -, e6, e7⟩ := idx_facts t
  refine ⟨t, (flush2_3 t).2 (by omega), ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 128 ≤ (i 1).val ∧ (i 1).val < win2_3.index t (1 : Fin 2) * 128 + 128; omega

/-- THE THIRD PRODUCT'S OUTPUT at (d, r). -/
theorem final (d : Fin 8192) (r : Fin 128) :
    out V c (ix2 d r) = (∑ k : Fin 8192, lhs V c (ix2 d k) * rhs V c (ix2 k r)) + bias V c (ix2 (0 : Fin 1) r) := by
  exact congrFun ((dat V c).arrAt_eq_of_cover 3 (G V c) (fun t hf => flushed_eq V c t hf) cover) (ix2 d r)

end Cert.KernelIdeal.Reg2

end
-- ==== Proof.KValue.lean ====
/-
  The kernel program's result at Ideal, as the specification's function of the arguments.  The result is the rows of
  the third product's output the row words name; the third product multiplies the weighted adjacency matrix with the
  second product's output and adds the second bias; the second multiplies the first product's output with W2 (and
  adds a zero row); the first multiplies the adjacency matrix with W1, adds the first bias and rectifies.  Each
  product reads what the items before it left: the adjacency matrix, the bias rows and the weight matrices as the
  host operations made or kept them, and an earlier product's output where that product left it.
-/
import proofs.«100943_j2456721293623_1_alg».proof.Proof.KAsm
import proofs.«100943_j2456721293623_1_alg».proof.Proof.KernelHost
import proofs.«100943_j2456721293623_1_alg».proof.Proof.RegValue0
import proofs.«100943_j2456721293623_1_alg».proof.Proof.RegValue1
import proofs.«100943_j2456721293623_1_alg».proof.Proof.RegValue2
import proofs.«100943_j2456721293623_1_alg».proof.Proof.Spec

set_option maxRecDepth 16384

noncomputable section

open scoped BigOperators

namespace Cert.KernelIdeal.KValue

open Cert.KernelIdeal Cert.KernelIdeal.Gen Cert.KernelIdeal.Asm Cert.KernelIdeal.HostValue
open Idealize.ShloMosaic Idealize.ShloMosaic.TcCoe Idealize.ShloMosaic.ValueIdx

variable (m : (ℓ : Loc nD τ sig) → Buf (Elt Ideal) ℓ) (c : Dev nD)

/-! ## What each product reads, traced back through the contents between the products -/

theorem lhs0 : Reg0.lhs (E0 m) c = (V3 m c main_v44 : S8192x8192.Idx → EReal) := rfl
theorem rhs0 : Reg0.rhs (E0 m) c = (V3 m c main_arg2 : S8192x512.Idx → EReal) := rfl
theorem bias0 : Reg0.bias (E0 m) c = (V3 m c main_v45 : S1x512.Idx → EReal) := rfl

theorem lhs1 : Reg1.lhs (E1 m) c = Reg0.out (E0 m) c :=
  (E1_eq m c main_v48).trans (V4_out m c)
theorem rhs1 : Reg1.rhs (E1 m) c = (V3 m c main_arg4 : S512x128.Idx → EReal) :=
  (E1_eq m c main_arg4).trans (V4_keeps m c main_arg4 (by decide))
theorem bias1 : Reg1.bias (E1 m) c = (V3 m c main_v47 : S1x128.Idx → EReal) :=
  (E1_eq m c main_v47).trans (V4_keeps m c main_v47 (by decide))

theorem lhs2 : Reg2.lhs (E2 m) c = (V3 m c main_v44 : S8192x8192.Idx → EReal) :=
  (E2_eq m c main_v44).trans ((V5_keeps m c main_v44 (by decide)).trans (V4_keeps m c main_v44 (by decide)))
theorem rhs2 : Reg2.rhs (E2 m) c = Reg1.out (E1 m) c :=
  (E2_eq m c main_v49).trans (V5_out m c)
theorem bias2 : Reg2.bias (E2 m) c = (V3 m c main_v46 : S1x128.Idx → EReal) :=
  (E2_eq m c main_v46).trans ((V5_keeps m c main_v46 (by decide)).trans (V4_keeps m c main_v46 (by decide)))

/-! ## The three outputs as the specification's layers -/

/-- The weight matrices and biases as the specification takes them. -/
abbrev W1 : Fin 8192 → Fin 512 → EReal := fun i j => a2 m c (ix2 i j)
abbrev B1 : Fin 512 → EReal := fun j => a3 m c (ix1 j)
abbrev W2 : Fin 512 → Fin 128 → EReal := fun i j => a4 m c (ix2 i j)
abbrev B2 : Fin 128 → EReal := fun j => a5 m c (ix1 j)

/-- The first product's output is the hidden layer. -/
theorem out0_eq (hr : Cert.Spec.InRange (a1 m c)) (d : Fin 8192) (j : Fin 512) :
    Reg0.out (E0 m) c (ix2 d j) = Cert.Spec.hK (a1 m c) (W1 m c) (B1 m c) d j := by
  rw [Reg0.final (E0 m) c d j, lhs0, rhs0, bias0, bias1_eq m c j, w1_eq m c]
  unfold Cert.Spec.hK Cert.Spec.mmE
  simp only [adj_eq m c hr]

/-- The second product's output is the hidden layer times W2 (plus zero). -/
theorem out1_eq (hr : Cert.Spec.InRange (a1 m c)) (d : Fin 8192) (r : Fin 128) :
    Reg1.out (E1 m) c (ix2 d r) = Cert.Spec.gK (a1 m c) (W1 m c) (B1 m c) (W2 m c) d r := by
  rw [Reg1.final (E1 m) c d r, lhs1, rhs1, bias1, zrow_eq m c r, w2_eq m c]
  unfold Cert.Spec.gK Cert.Spec.mmE
  simp only [out0_eq m c hr]

/-- The third product's output is the specification's. -/
theorem out2_eq (hr : Cert.Spec.InRange (a1 m c)) (d : Fin 8192) (r : Fin 128) :
    Reg2.out (E2 m) c (ix2 d r) = Cert.Spec.outK (a1 m c) (W1 m c) (B1 m c) (W2 m c) (B2 m c) d r := by
  rw [Reg2.final (E2 m) c d r, lhs2, rhs2, bias2, bias2_eq m c r]
  unfold Cert.Spec.outK Cert.Spec.mmE
  simp only [adj_eq m c hr, out1_eq m c hr]

/-- THE KERNEL'S RESULT is the specification's output read at the named rows. -/
theorem result_eq (hr : Cert.Spec.InRange (a1 m c)) :
    (V7 m (outs m) c main_v57 : S2048x128.Idx → EReal)
      = Cert.Spec.resE (a0 m c) (Cert.Spec.outK (a1 m c) (W1 m c) (B1 m c) (W2 m c) (B2 m c)) := by
  rw [tail_eq m c (outs m)]
  refine congrArg (Cert.Spec.resE (a0 m c)) ?_
  funext d r
  have h : (V6 m (outs m) c main_v50 : S8192x128.Idx → EReal) = Reg2.out (E2 m) c := V6_out m c
  rw [h]
  exact out2_eq m c hr d r

end Cert.KernelIdeal.KValue

end
-- ==== Proof.SpecAlg.lean ====
/-
  The algebra that joins the two programs: summing weights over the edges from s to d and then multiplying by X[s]
  is the same as sending X[source] · weight along every edge into d, because every weight and every entry of X is a
  real number (on the extended reals the distributive law needs that).
-/
import proofs.«100943_j2456721293623_1_alg».proof.Proof.Spec
import Mathlib.Data.EReal.Basic
import Mathlib.Algebra.BigOperators.Group.Finset.Basic

noncomputable section

open scoped BigOperators

namespace Cert.Spec

open Idealize.ShloMosaic Idealize.ShloMosaic.ValueIdx

/-! ## Real numbers inside the extended reals -/

/-- A finite sum of real numbers, read in the extended reals, is the real sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A finite sum of real-valued terms is real-valued. -/
theorem real_sum {ι : Type*} [Fintype ι] (f : ι → EReal) (hf : ∀ i, ∃ r : ℝ, f i = (r : EReal)) :
    ∃ r : ℝ, ∑ i, f i = (r : EReal) := by
  choose g hg using hf
  exact ⟨∑ i, g i, by rw [← coe_sum]; exact Finset.sum_congr rfl fun i _ => hg i⟩

/-- The exchange of the two sums over the reals. -/
theorem real_exchange {ι κ : Type*} [Fintype ι] [Fintype κ] [DecidableEq κ] (Q : ι → Prop) [DecidablePred Q]
    (c : ι → κ) (w : ι → ℝ) (x : κ → ℝ) :
    ∑ s, (∑ e, if Q e ∧ c e = s then w e else 0) * x s = ∑ e, if Q e then x (c e) * w e else 0 := by
  simp_rw [Finset.sum_mul]
  rw [Finset.sum_comm]
  refine Finset.sum_congr rfl fun e _ => ?_
  by_cases hq : Q e
  · simp [hq, ite_mul, Finset.sum_ite_eq, mul_comm]
  · simp [hq]

theorem rsqrt_coe_pos (r : ℝ) (h : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr h.le), if_neg h.ne']

theorem toInt_small (w : BitVec 32) (h : w.toNat < 8192) : w.toInt = w.toNat := by
  unfold BitVec.toInt
  split
  · rfl
  · omega

/-- The maximum of a real number and zero is a real number. -/
theorem real_max_zero (x : EReal) (hx : ∃ r : ℝ, x = (r : EReal)) : ∃ r : ℝ, max x 0 = (r : EReal) := by
  obtain ⟨r, rfl⟩ := hx
  rcases le_total (r : EReal) 0 with h | h
  · exact ⟨0, by rw [max_eq_right h, EReal.coe_zero]⟩
  · exact ⟨r, max_eq_left h⟩

/-- The sum of two real numbers is a real number. -/
theorem real_add (x y : EReal) (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- The product of two real numbers is a real number. -/
theorem real_mul (x y : EReal) (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A guarded real number is a real number. -/
theorem real_ite (p : Prop) [Decidable p] (x : EReal) (hx : ∃ r : ℝ, x = (r : EReal)) :
    ∃ r : ℝ, (if p then x else 0) = (r : EReal) := by
  split
  · exact hx
  · exact ⟨0, EReal.coe_zero.symm⟩

/-- THE EXCHANGE over the extended reals, for real-valued weights W and entries X: the guard P e s says that
    s is the source c e of edge e. -/
theorem ereal_exchange {ι κ : Type*} [Fintype ι] [Fintype κ] [DecidableEq κ] (Q : ι → Prop) [DecidablePred Q]
    (P : ι → κ → Prop) [∀ e s, Decidable (P e s)] (c : ι → κ) (hP : ∀ e s, P e s ↔ c e = s)
    (W : ι → EReal) (X : κ → EReal) (hW : ∀ e, ∃ r : ℝ, W e = (r : EReal)) (hX : ∀ s, ∃ r : ℝ, X s = (r : EReal)) :
    ∑ s, (0 + ∑ e, if Q e ∧ P e s then W e else 0) * X s = 0 + ∑ e, if Q e then X (c e) * W e else 0 := by
  choose w hw using hW
  choose x hx using hX
  -- the left side is the coercion of a real double sum
  have hL : ∀ s, (0 + ∑ e, if Q e ∧ P e s then W e else 0) * X s
      = (((∑ e, if Q e ∧ c e = s then w e else 0) * x s : ℝ) : EReal) := by
    intro s
    rw [zero_add, hx s, EReal.coe_mul, ← coe_sum]
    congr 1
    refine Finset.sum_congr rfl fun e _ => ?_
    rw [hw e, if_congr (and_congr_right fun _ => hP e s) rfl rfl]
    split
    · rfl
    · exact EReal.coe_zero.symm
  -- the right side is the coercion of a real sum
  have hR : ∀ e, (if Q e then X (c e) * W e else 0) = ((if Q e then x (c e) * w e else 0 : ℝ) : EReal) := by
    intro e
    rw [hx (c e), hw e]
    split
    · exact (EReal.coe_mul _ _).symm
    · exact EReal.coe_zero.symm
  rw [zero_add, Finset.sum_congr rfl fun s _ => hL s, Finset.sum_congr rfl fun e _ => hR e, coe_sum, coe_sum,
    real_exchange Q c w fun s => x s]

/-! ## The facts the neighbours use -/

/-- An in-degree is a real number: a finite count (a sum of ones and zeros). -/
theorem deg_real (ei : EdgeTab) (v : Fin 8192) : ∃ r : ℝ, degE ei v = (r : EReal) := by
  unfold degE
  rw [zero_add]
  exact real_sum _ fun e => by
    split
    · exact ⟨1, EReal.coe_one.symm⟩
    · exact ⟨0, EReal.coe_zero.symm⟩

/-- deg^(-1/2) is a real number. -/
theorem dis_real (ei : EdgeTab) (v : Fin 8192) : ∃ r : ℝ, disE ei v = (r : EReal) := by
  obtain ⟨r, hr⟩ := deg_real ei v
  unfold disE
  rw [hr]
  split
  · rename_i hpos
    exact ⟨_, rsqrt_coe_pos r (EReal.coe_pos.mp hpos)⟩
  · exact ⟨0, EReal.coe_zero.symm⟩

/-- Every edge weight is a real number. -/
theorem nrm_real (ei : EdgeTab) (e : Fin 270336) : ∃ r : ℝ, nrmE ei e = (r : EReal) :=
  real_mul _ _ (dis_real ei _) (dis_real ei _)

/-- A word below 8192 is its own wrap and names the row that is its value. -/
theorem rowOf_of_lt (w : BitVec 32) (h : w.toNat < 8192) : (rowOf w).val = w.toNat := by
  have hti : w.toInt = w.toNat := toInt_small w h
  have hwrap : wrapW w = w := by
    unfold wrapW
    rw [if_neg (by omega)]
  show min (wrapW w).toInt.toNat (8192 - 1) = w.toNat
  rw [hwrap, hti]
  omega

/-- THE EXCHANGE: the product with the weighted adjacency matrix is message passing, for a real-valued X. -/
theorem mm_adj_eq_agg {C : ℕ} (ei : EdgeTab) (hr : InRange ei) (X : Fin 8192 → Fin C → EReal) (hX : Real2 X)
    (d : Fin 8192) (j : Fin C) : mmE (adjE ei) X d j = aggE ei X d j := by
  have hP : ∀ (e : Fin 270336) (s : Fin 8192), node ei 0 e = s.val ↔ nodeC ei 0 e = s := by
    intro e s
    rw [Fin.ext_iff, nodeC_val hr]
  have key := ereal_exchange (fun e : Fin 270336 => node ei 1 e = d.val)
    (fun (e : Fin 270336) (s : Fin 8192) => node ei 0 e = s.val) (nodeC ei 0) hP
    (nrmE ei) (fun s => X s j) (nrm_real ei) (fun s => hX s j)
  unfold mmE adjE aggE
  exact key

/-- Message passing of a real-valued X is real-valued. -/
theorem agg_real {C : ℕ} (ei : EdgeTab) (X : Fin 8192 → Fin C → EReal) (hX : Real2 X) : Real2 (aggE ei X) := by
  intro d j
  unfold aggE
  rw [zero_add]
  exact real_sum _ fun e => real_ite _ _ (real_mul _ _ (hX _ j) (nrm_real ei e))

/-- A product of real-valued matrices is real-valued. -/
theorem mm_real {M K N : ℕ} (A : Fin M → Fin K → EReal) (B : Fin K → Fin N → EReal) (hA : Real2 A) (hB : Real2 B) :
    Real2 (mmE A B) := by
  intro i j
  exact real_sum _ fun k => real_mul _ _ (hA i k) (hB k j)

/-- The hidden layer is real-valued. -/
theorem hR_real (ei : EdgeTab) (W1 : Fin 8192 → Fin 512 → EReal) (b1 : Fin 512 → EReal) (hW1 : Real2 W1) (hb1 : Real1 b1) :
    Real2 (hR ei W1 b1) := by
  intro d j
  exact real_max_zero _ (real_add _ _ (agg_real ei W1 hW1 d j) (hb1 j))

/-- The two programs' outputs agree on in-range tables and real-valued weights. -/
theorem out_eq (ei : EdgeTab) (hr : InRange ei) (W1 : Fin 8192 → Fin 512 → EReal) (b1 : Fin 512 → EReal)
    (W2 : Fin 512 → Fin 128 → EReal) (b2 : Fin 128 → EReal) (hW1 : Real2 W1) (hb1 : Real1 b1) (hW2 : Real2 W2) :
    outK ei W1 b1 W2 b2 = outR ei W1 b1 W2 b2 := by
  -- the hidden layers agree: the first exchange
  have hh : hK ei W1 b1 = hR ei W1 b1 := by
    funext d j
    unfold hK hR
    rw [mm_adj_eq_agg ei hr W1 hW1 d j]
  -- so do the second layer's inputs
  have hg : gK ei W1 b1 W2 = gR ei W1 b1 W2 := by
    funext d r
    unfold gK gR
    rw [hh, add_zero]
  -- which are real-valued, so the second exchange applies
  have hgr : Real2 (gR ei W1 b1 W2) := mm_real _ _ (hR_real ei W1 b1 hW1 hb1) hW2
  funext d r
  unfold outK outR
  rw [hg, mm_adj_eq_agg ei hr _ hgr d r]

end Cert.Spec

end
-- ==== Proof.RefEdges.lean ====
/-
  The reference's edge data at Ideal, read one edge at a time: the weight of every edge of the extended list (both
  times the reference computes it), the row its source names in a row gather, and the node its target names in a
  row scatter-add.  On an in-range table a word is its own wrap and its own clamp, so these are the
  specification's node, nodeC and nrmE.
-/
import proofs.«100943_j2456721293623_1_alg».proof.Proof.RefRunP
import proofs.«100943_j2456721293623_1_alg».proof.Proof.RefReadP
import proofs.«100943_j2456721293623_1_alg».proof.Proof.Spec
import proofs.«100943_j2456721293623_1_alg».proof.Proof.LibGatherRows
import proofs.«100943_j2456721293623_1_alg».proof.Proof.LibVecScatter
import Idealize.ShloMosaic.Lib.StableHlo.Predicate

set_option maxRecDepth 16384

noncomputable section

open scoped BigOperators

namespace Cert.ReferenceIdeal.RefEdges

open Idealize.ShloMosaic Idealize.ShloMosaic.ValueIdx Cert.ReferenceIdeal

variable [Cert.ReferenceIdeal.Facts]

/-! ## Words below 8192 -/

/-- A word below 8192 reads the same signed and unsigned. -/
theorem toInt_of_lt {w : BitVec 32} (hw : w.toNat < 8192) : w.toInt = (w.toNat : ℤ) :=
  StableHlo.Predicate.toInt_eq_toNat_of_lt (by omega)

/-- A word below 8192 is not negative: the wrap, which adds 8192 to a negative word, keeps it. -/
theorem wrap_keep {w : BitVec 32} (hw : w.toNat < 8192) :
    Scalar.select (IntOp.cmpi .slt w 0#32) (IntOp.addi w 8192#32) w = w := by
  have h : ¬ IntOp.cmpi .slt w 0#32 = 1#1 := by
    rw [StableHlo.Predicate.slt_iff_toNat (by omega) (by decide)]
    simp
  rw [eq_zero_of_ne_one h, select_zero]

/-- … and so does the clamp into [0, 8191]. -/
theorem clampRow_keep {w : BitVec 32} (hw : w.toNat < 8192) :
    (Cert.LibGatherRows.clampRow 8192 (by decide) w).val = w.toNat := by
  show min w.toInt.toNat (8192 - 1) = w.toNat
  rw [toInt_of_lt hw]; omega

/-- A word below 8192 names node d, read signed, exactly when its value is d. -/
theorem toInt_eq_iff {w : BitVec 32} (hw : w.toNat < 8192) (d : ℕ) : w.toInt = (d : ℤ) ↔ w.toNat = d := by
  rw [toInt_of_lt hw]; omega

/-! ## The extended lists -/

/-- Two vectors joined: the first below its length, the second after it. -/
theorem concat_apply (a : IVec S262144 32) (b : IVec S8192 32) (hc : Shape.Concatenates [S262144, S8192] S270336 0)
    (e : Fin 270336) :
    concatenate S270336 0 [⟨S262144, a⟩, ⟨S8192, b⟩] hc (ix1 e)
      = if h : e.val < 262144 then a (ix1 ⟨e.val, h⟩) else b (ix1 ⟨e.val - 262144, by omega⟩) := by
  split
  · next h =>
    exact concatenate_pair_apply_left 0 a b _ (ix1 e) rfl (ix1 ⟨e.val, h⟩) (fun b => by match b with | ⟨0, _⟩ => rfl)
  · next h =>
    exact concatenate_pair_apply_right 0 a b _ (ix1 e) rfl rfl (ix1 ⟨e.val - 262144, by omega⟩)
      (fun b hb => by match b with | ⟨0, _⟩ => exact absurd rfl hb) (by show e.val - 262144 + 262144 = e.val; omega)

/-- The reference's first column of the table (a slice, then a reshape) at row e. -/
theorem col0 (x1 : IVec S262144x2 32) (e : Fin 262144) :
    Read.val_main_v1 (F := Ideal) x1 (ix1 e) = x1 (ix2 e (0 : Fin 2)) := by
  rw [Read.val_main_v1_apply, Read.val_main_v0_apply]
  refine congrArg x1 (funext fun a => Fin.ext ?_)
  match a with
  | ⟨0, _⟩ => show e.val / 1 = e.val; omega
  | ⟨1, _⟩ => rfl

/-- The reference's second column of the table at row e. -/
theorem col1 (x1 : IVec S262144x2 32) (e : Fin 262144) :
    Read.val_main_v3 (F := Ideal) x1 (ix1 e) = x1 (ix2 e (1 : Fin 2)) := by
  rw [Read.val_main_v3_apply, Read.val_main_v2_apply]
  refine congrArg x1 (funext fun a => Fin.ext ?_)
  match a with
  | ⟨0, _⟩ => show e.val / 1 = e.val; omega
  | ⟨1, _⟩ => rfl

/-- A column of the table followed by the node numbers is that endpoint of every edge of the extended list. -/
theorem list_toNat (x1 : IVec S262144x2 32) (a : Fin 2) (col : IVec S262144 32)
    (hcol : ∀ e : Fin 262144, col (ix1 e) = x1 (ix2 e a))
    (io : IVec S8192 32) (hio : ∀ i : Fin 8192, io (ix1 i) = BitVec.ofNat 32 i.val)
    (hc : Shape.Concatenates [S262144, S8192] S270336 0) (e : Fin 270336) :
    (concatenate S270336 0 [⟨S262144, col⟩, ⟨S8192, io⟩] hc (ix1 e)).toNat = Cert.Spec.node x1 a e := by
  rw [concat_apply]
  unfold Cert.Spec.node
  split
  · next h => rw [hcol]
  · next h =>
    rw [hio, BitVec.toNat_ofNat]
    show (e.val - 262144) % 2 ^ 32 = e.val - 262144
    omega

/-- The four lists the reference builds: sources and targets, once per round. -/
theorem l12 (x1 : IVec S262144x2 32) (e : Fin 270336) :
    (Read.val_main_v12 (F := Ideal) x1 (ix1 e)).toNat = Cert.Spec.node x1 0 e :=
  list_toNat x1 0 _ (col0 x1) _ (fun _ => rfl) _ e
theorem l13 (x1 : IVec S262144x2 32) (e : Fin 270336) :
    (Read.val_main_v13 (F := Ideal) x1 (ix1 e)).toNat = Cert.Spec.node x1 1 e :=
  list_toNat x1 1 _ (col1 x1) _ (fun _ => rfl) _ e
theorem l56 (x1 : IVec S262144x2 32) (e : Fin 270336) :
    (Read.val_main_v56 (F := Ideal) x1 (ix1 e)).toNat = Cert.Spec.node x1 0 e :=
  list_toNat x1 0 _ (col0 x1) _ (fun _ => rfl) _ e
theorem l57 (x1 : IVec S262144x2 32) (e : Fin 270336) :
    (Read.val_main_v57 (F := Ideal) x1 (ix1 e)).toNat = Cert.Spec.node x1 1 e :=
  list_toNat x1 1 _ (col1 x1) _ (fun _ => rfl) _ e

/-! ## The reference's float literals -/

/-- The pattern of +0.0 denotes 0. -/
theorem zero_f32 : FloatOps.ofBits (F := Ideal) .f32 0x00000000#32 = 0 := Ideal.ofBits_zero_f32

/-- The pattern of 1.0 denotes 1. -/
theorem one_f32 : FloatOps.ofBits (F := Ideal) .f32 0x3F800000#32 = 1 := by
  show Ideal.ofBits .f32 0x3F800000#32 = 1
  simp [Ideal.ofBits, Ideal.ieee, -EReal.coe_mul]; norm_num

/-! ## The in-degree, its inverse square root, and reading it at an endpoint -/

/-- A scatter-add of ones into zeros at a column of target words counts, at node v, the edges that point to v. -/
theorem deg_of (x1 : IVec S262144x2 32) (hr : Cert.Spec.InRange x1)
    (z : FVec Ideal S8192 .f32) (hz : ∀ v : Fin 8192, z (ix1 v) = 0)
    (idx : IVec S270336x1 32) (hidx : ∀ e : Fin 270336, (idx (ix2 e (0 : Fin 1))).toNat = Cert.Spec.node x1 1 e)
    (one : FVec Ideal S270336 .f32) (hone : ∀ e : Fin 270336, one (ix1 e) = 1) (v : Fin 8192) :
    Host.scatterAdd scatter_S8192_S270336x1_S270336_n_0_0_1 z idx one (ix1 v) = Cert.Spec.degE x1 v := by
  rw [Cert.LibVecScatter.vecScatterAdd_apply _ rfl rfl rfl rfl, hz]
  unfold Cert.Spec.degE
  refine congrArg (0 + ·) (Finset.sum_congr rfl fun e _ => ?_)
  rw [hone]
  refine if_congr ?_ rfl rfl
  rw [toInt_eq_iff (by rw [hidx]; exact Cert.Spec.node_lt hr 1 e), hidx]

/-- Where the degree is positive its inverse square root, elsewhere 0. -/
theorem dis_of (x1 : IVec S262144x2 32) (v : Fin 8192) (d z0 z1 : Ideal .f32)
    (hd : d = Cert.Spec.degE x1 v) (h0 : z0 = 0) (h1 : z1 = 0) :
    Scalar.select (FloatOps.cmpf .ogt d z0) (FloatOps.hostUnary .rsqrt d) z1 = Cert.Spec.disE x1 v := by
  rw [hd, h0, h1]
  unfold Cert.Spec.disE
  rw [Ideal.cmpf_def, Ideal.hostUnary_rsqrt_def]
  by_cases h : (0 : EReal) < Cert.Spec.degE x1 v
  · rw [if_pos h, show Ideal.cmp .ogt (Cert.Spec.degE x1 v) 0 = 1#1 from by simp [Ideal.cmp, h], select_one]
  · rw [if_neg h, show Ideal.cmp .ogt (Cert.Spec.degE x1 v) 0 = 0#1 from by simp [Ideal.cmp, h], select_zero]

/-- A gather from a vector of 8192 entries at a column of words: where the word is a node, that node's entry. -/
theorem gather_of (x : FVec Ideal S8192 .f32) (idx : IVec S270336x1 32) (e : Fin 270336) (n : Fin 8192)
    (hn : (idx (ix2 e (0 : Fin 1))).toNat = n.val) :
    Host.gather gather_S8192_S270336x1_S270336_n_0_n_n_0_1_1 x idx (ix1 e) = x (ix1 n) := by
  have he : (ix1 e : S270336.Idx) = Shape.Idx.ofFin e := Shape.Idx.eq_ofFin (ix1 e)
  have hp : (StableHlo.Predicate.ixP e : S270336x1.Idx) = ix2 e (0 : Fin 1) :=
    funext fun a => by match a with | ⟨0, _⟩ => rfl | ⟨1, _⟩ => rfl
  rw [← hp] at hn
  rw [he, StableHlo.Predicate.gather_take _ rfl rfl rfl rfl x idx e (by decide)]
  refine congrArg x ?_
  rw [Shape.Idx.eq_ofFin (ix1 n)]
  refine congrArg Shape.Idx.ofFin (Fin.ext ?_)
  show min (idx (StableHlo.Predicate.ixP e)).toInt.toNat (8192 - 1) = n.val
  rw [toInt_of_lt (by rw [hn]; exact n.isLt), hn]
  have := n.isLt
  omega

/-! ## The columns the lists are kept as -/

/-- A list kept as a column reads, at row e, the list at e. First round: the targets (twice), the wrapped sources
    (twice) and the wrapped targets. -/
theorem v16_at (x1 : IVec S262144x2 32) (e : Fin 270336) :
    Read.val_main_v16 (F := Ideal) x1 (ix2 e (0 : Fin 1)) = Read.val_main_v13 (F := Ideal) x1 (ix1 e) := by
  rw [Read.val_main_v16_apply]
  exact congrArg (Read.val_main_v13 (F := Ideal) x1) (funext fun a => by match a with | ⟨0, _⟩ => rfl)
theorem v48_at (x1 : IVec S262144x2 32) (e : Fin 270336) :
    Read.val_main_v48 (F := Ideal) x1 (ix2 e (0 : Fin 1)) = Read.val_main_v13 (F := Ideal) x1 (ix1 e) := by
  rw [Read.val_main_v48_apply]
  exact congrArg (Read.val_main_v13 (F := Ideal) x1) (funext fun a => by match a with | ⟨0, _⟩ => rfl)
theorem v27_at (x1 : IVec S262144x2 32) (e : Fin 270336) :
    Read.val_main_v27 (F := Ideal) x1 (ix2 e (0 : Fin 1)) = Read.val_main_v26 (F := Ideal) x1 (ix1 e) := by
  rw [Read.val_main_v27_apply]
  exact congrArg (Read.val_main_v26 (F := Ideal) x1) (funext fun a => by match a with | ⟨0, _⟩ => rfl)
theorem v34_at (x1 : IVec S262144x2 32) (e : Fin 270336) :
    Read.val_main_v34 (F := Ideal) x1 (ix2 e (0 : Fin 1)) = Read.val_main_v33 (F := Ideal) x1 (ix1 e) := by
  rw [Read.val_main_v34_apply]
  exact congrArg (Read.val_main_v33 (F := Ideal) x1) (funext fun a => by match a with | ⟨0, _⟩ => rfl)
theorem v42_at (x1 : IVec S262144x2 32) (e : Fin 270336) :
    Read.val_main_v42 (F := Ideal) x1 (ix2 e (0 : Fin 1)) = Read.val_main_v41 (F := Ideal) x1 (ix1 e) := by
  rw [Read.val_main_v42_apply]
  exact congrArg (Read.val_main_v41 (F := Ideal) x1) (funext fun a => by match a with | ⟨0, _⟩ => rfl)

/-- Second round, the same. -/
theorem v60_at (x1 : IVec S262144x2 32) (e : Fin 270336) :
    Read.val_main_v60 (F := Ideal) x1 (ix2 e (0 : Fin 1)) = Read.val_main_v57 (F := Ideal) x1 (ix1 e) := by
  rw [Read.val_main_v60_apply]
  exact congrArg (Read.val_main_v57 (F := Ideal) x1) (funext fun a => by match a with | ⟨0, _⟩ => rfl)
theorem v92_at (x1 : IVec S262144x2 32) (e : Fin 270336) :
    Read.val_main_v92 (F := Ideal) x1 (ix2 e (0 : Fin 1)) = Read.val_main_v57 (F := Ideal) x1 (ix1 e) := by
  rw [Read.val_main_v92_apply]
  exact congrArg (Read.val_main_v57 (F := Ideal) x1) (funext fun a => by match a with | ⟨0, _⟩ => rfl)
theorem v71_at (x1 : IVec S262144x2 32) (e : Fin 270336) :
    Read.val_main_v71 (F := Ideal) x1 (ix2 e (0 : Fin 1)) = Read.val_main_v70 (F := Ideal) x1 (ix1 e) := by
  rw [Read.val_main_v71_apply]
  exact congrArg (Read.val_main_v70 (F := Ideal) x1) (funext fun a => by match a with | ⟨0, _⟩ => rfl)
theorem v78_at (x1 : IVec S262144x2 32) (e : Fin 270336) :
    Read.val_main_v78 (F := Ideal) x1 (ix2 e (0 : Fin 1)) = Read.val_main_v77 (F := Ideal) x1 (ix1 e) := by
  rw [Read.val_main_v78_apply]
  exact congrArg (Read.val_main_v77 (F := Ideal) x1) (funext fun a => by match a with | ⟨0, _⟩ => rfl)
theorem v86_at (x1 : IVec S262144x2 32) (e : Fin 270336) :
    Read.val_main_v86 (F := Ideal) x1 (ix2 e (0 : Fin 1)) = Read.val_main_v85 (F := Ideal) x1 (ix1 e) := by
  rw [Read.val_main_v86_apply]
  exact congrArg (Read.val_main_v85 (F := Ideal) x1) (funext fun a => by match a with | ⟨0, _⟩ => rfl)

variable (x1 : IVec S262144x2 32) (hr : Cert.Spec.InRange x1)
include hr

/-! ## First round -/

/-- Every word of the source list and of the target list is a node. -/
theorem l12_lt (e : Fin 270336) : (Read.val_main_v12 (F := Ideal) x1 (ix1 e)).toNat < 8192 := by
  rw [l12]; exact Cert.Spec.node_lt hr 0 e
theorem l13_lt (e : Fin 270336) : (Read.val_main_v13 (F := Ideal) x1 (ix1 e)).toNat < 8192 := by
  rw [l13]; exact Cert.Spec.node_lt hr 1 e

/-- So the wrap of a negative index leaves each list as it is. -/
theorem v26_at (e : Fin 270336) :
    Read.val_main_v26 (F := Ideal) x1 (ix1 e) = Read.val_main_v12 (F := Ideal) x1 (ix1 e) := by
  rw [Read.val_main_v26_apply, Read.val_main_v23_apply, Read.val_main_v25_apply, Read.val_main_v22_apply,
    Read.val_main_v24_apply, Read.val_main_c_3_apply, Read.val_main_c_4_apply]
  exact wrap_keep (l12_lt x1 hr e)
theorem v33_at (e : Fin 270336) :
    Read.val_main_v33 (F := Ideal) x1 (ix1 e) = Read.val_main_v13 (F := Ideal) x1 (ix1 e) := by
  rw [Read.val_main_v33_apply, Read.val_main_v30_apply, Read.val_main_v32_apply, Read.val_main_v29_apply,
    Read.val_main_v31_apply, Read.val_main_c_5_apply, Read.val_main_c_6_apply]
  exact wrap_keep (l13_lt x1 hr e)
theorem v41_at (e : Fin 270336) :
    Read.val_main_v41 (F := Ideal) x1 (ix1 e) = Read.val_main_v12 (F := Ideal) x1 (ix1 e) := by
  rw [Read.val_main_v41_apply, Read.val_main_v38_apply, Read.val_main_v40_apply, Read.val_main_v37_apply,
    Read.val_main_v39_apply, Read.val_main_c_7_apply, Read.val_main_c_8_apply]
  exact wrap_keep (l12_lt x1 hr e)

/-- The in-degree. -/
theorem deg17 (v : Fin 8192) : Read.val_main_v17 (F := Ideal) x1 (ix1 v) = Cert.Spec.degE x1 v := by
  unfold Read.val_main_v17
  exact deg_of x1 hr _ (fun v => by rw [Read.val_main_v15_apply, Read.val_main_cst_0_apply]; exact zero_f32) _
    (fun e => by rw [v16_at x1 e]; exact l13 x1 e) _
    (fun e => by rw [Read.val_main_v14_apply, Read.val_main_cst_apply]; exact one_f32) v

/-- Its inverse square root. -/
theorem dis21 (v : Fin 8192) : Read.val_main_v21 (F := Ideal) x1 (ix1 v) = Cert.Spec.disE x1 v := by
  rw [Read.val_main_v21_apply, Read.val_main_v19_apply, Read.val_main_v20_apply]
  exact dis_of x1 v _ _ _ (deg17 x1 hr v)
    (by rw [Read.val_main_v18_apply, Read.val_main_cst_1_apply]; exact zero_f32)
    (by rw [Read.val_main_call0_v1_apply, Read.val_main_call0_v0_apply, Read.val_main_cst_2_apply]; exact zero_f32)

/-- The weight of edge e, first round. -/
theorem w36 (e : Fin 270336) : Cert.ReferenceIdeal.Read.val_main_v36 (F := Ideal) x1 (ix1 e) = Cert.Spec.nrmE x1 e := by
  rw [Read.val_main_v36_apply]
  unfold Read.val_main_v28 Read.val_main_v35 Cert.Spec.nrmE
  rw [gather_of _ _ e (Cert.Spec.nodeC x1 0 e)
      (by rw [v27_at x1 e, v26_at x1 hr e, l12, Cert.Spec.nodeC_val hr]),
    gather_of _ _ e (Cert.Spec.nodeC x1 1 e)
      (by rw [v34_at x1 e, v33_at x1 hr e, l13, Cert.Spec.nodeC_val hr]),
    dis21 x1 hr, dis21 x1 hr]
  rfl

/-! ## Second round: the same operations again -/

/-- Every word of the source list and of the target list is a node. -/
theorem l56_lt (e : Fin 270336) : (Read.val_main_v56 (F := Ideal) x1 (ix1 e)).toNat < 8192 := by
  rw [l56]; exact Cert.Spec.node_lt hr 0 e
theorem l57_lt (e : Fin 270336) : (Read.val_main_v57 (F := Ideal) x1 (ix1 e)).toNat < 8192 := by
  rw [l57]; exact Cert.Spec.node_lt hr 1 e

/-- So the wrap of a negative index leaves each list as it is. -/
theorem v70_at (e : Fin 270336) :
    Read.val_main_v70 (F := Ideal) x1 (ix1 e) = Read.val_main_v56 (F := Ideal) x1 (ix1 e) := by
  rw [Read.val_main_v70_apply, Read.val_main_v67_apply, Read.val_main_v69_apply, Read.val_main_v66_apply,
    Read.val_main_v68_apply, Read.val_main_c_14_apply, Read.val_main_c_15_apply]
  exact wrap_keep (l56_lt x1 hr e)
theorem v77_at (e : Fin 270336) :
    Read.val_main_v77 (F := Ideal) x1 (ix1 e) = Read.val_main_v57 (F := Ideal) x1 (ix1 e) := by
  rw [Read.val_main_v77_apply, Read.val_main_v74_apply, Read.val_main_v76_apply, Read.val_main_v73_apply,
    Read.val_main_v75_apply, Read.val_main_c_16_apply, Read.val_main_c_17_apply]
  exact wrap_keep (l57_lt x1 hr e)
theorem v85_at (e : Fin 270336) :
    Read.val_main_v85 (F := Ideal) x1 (ix1 e) = Read.val_main_v56 (F := Ideal) x1 (ix1 e) := by
  rw [Read.val_main_v85_apply, Read.val_main_v82_apply, Read.val_main_v84_apply, Read.val_main_v81_apply,
    Read.val_main_v83_apply, Read.val_main_c_18_apply, Read.val_main_c_19_apply]
  exact wrap_keep (l56_lt x1 hr e)

/-- The in-degree. -/
theorem deg61 (v : Fin 8192) : Read.val_main_v61 (F := Ideal) x1 (ix1 v) = Cert.Spec.degE x1 v := by
  unfold Read.val_main_v61
  exact deg_of x1 hr _ (fun v => by rw [Read.val_main_v59_apply, Read.val_main_cst_11_apply]; exact zero_f32) _
    (fun e => by rw [v60_at x1 e]; exact l57 x1 e) _
    (fun e => by rw [Read.val_main_v58_apply, Read.val_main_cst_10_apply]; exact one_f32) v

/-- Its inverse square root. -/
theorem dis65 (v : Fin 8192) : Read.val_main_v65 (F := Ideal) x1 (ix1 v) = Cert.Spec.disE x1 v := by
  rw [Read.val_main_v65_apply, Read.val_main_v63_apply, Read.val_main_v64_apply]
  exact dis_of x1 v _ _ _ (deg61 x1 hr v)
    (by rw [Read.val_main_v62_apply, Read.val_main_cst_12_apply]; exact zero_f32)
    (by rw [Read.val_main_call2_v1_apply, Read.val_main_call2_v0_apply, Read.val_main_cst_13_apply]; exact zero_f32)

/-- The weight of edge e, second round (the same operations again). -/
theorem w80 (e : Fin 270336) : Cert.ReferenceIdeal.Read.val_main_v80 (F := Ideal) x1 (ix1 e) = Cert.Spec.nrmE x1 e := by
  rw [Read.val_main_v80_apply]
  unfold Read.val_main_v72 Read.val_main_v79 Cert.Spec.nrmE
  rw [gather_of _ _ e (Cert.Spec.nodeC x1 0 e)
      (by rw [v71_at x1 e, v70_at x1 hr e, l56, Cert.Spec.nodeC_val hr]),
    gather_of _ _ e (Cert.Spec.nodeC x1 1 e)
      (by rw [v78_at x1 e, v77_at x1 hr e, l57, Cert.Spec.nodeC_val hr]),
    dis65 x1 hr, dis65 x1 hr]
  rfl

/-- The row the first round's gather reads for edge e: its source. -/
theorem src42 (e : Fin 270336) :
    Cert.LibGatherRows.clampRow 8192 (by decide) (Cert.ReferenceIdeal.Read.val_main_v42 (F := Ideal) x1 (ix2 e (0 : Fin 1)))
      = Cert.Spec.nodeC x1 0 e := by
  apply Fin.ext
  rw [v42_at x1 e, v41_at x1 hr e, clampRow_keep (l12_lt x1 hr e), l12, Cert.Spec.nodeC_val hr]

/-- The row the second round's gather reads for edge e: its source. -/
theorem src86 (e : Fin 270336) :
    Cert.LibGatherRows.clampRow 8192 (by decide) (Cert.ReferenceIdeal.Read.val_main_v86 (F := Ideal) x1 (ix2 e (0 : Fin 1)))
      = Cert.Spec.nodeC x1 0 e := by
  apply Fin.ext
  rw [v86_at x1 e, v85_at x1 hr e, clampRow_keep (l56_lt x1 hr e), l56, Cert.Spec.nodeC_val hr]

/-- The node the first round's scatter-add sends edge e's message to: its target. -/
theorem dst48 (e : Fin 270336) (d : Fin 8192) :
    (Cert.ReferenceIdeal.Read.val_main_v48 (F := Ideal) x1 (ix2 e (0 : Fin 1))).toInt = (d.val : ℤ) ↔ Cert.Spec.node x1 1 e = d.val := by
  rw [v48_at x1 e, toInt_eq_iff (l13_lt x1 hr e), l13]

/-- The node the second round's scatter-add sends edge e's message to: its target. -/
theorem dst92 (e : Fin 270336) (d : Fin 8192) :
    (Cert.ReferenceIdeal.Read.val_main_v92 (F := Ideal) x1 (ix2 e (0 : Fin 1))).toInt = (d.val : ℤ) ↔ Cert.Spec.node x1 1 e = d.val := by
  rw [v92_at x1 e, toInt_eq_iff (l57_lt x1 hr e), l57]

end Cert.ReferenceIdeal.RefEdges

end
-- ==== Proof.LibRowsScatter.lean ====
/-
  A scatter-add of rows, read at an index, over the extended reals.

  What a segment sum of a MATRIX of updates `upd : [E, D]` at a column of indices `idx : [E, 1]` into an operand
  `x : [N, D]` lowers to: a `stablehlo.scatter` with an add body whose update window is the updates' second axis
  (update_window_dims `[1]`), whose operand row axis is inserted (inserted_window_dims `[0]`) and is the one axis
  the index vector addresses (scatter_dims_to_operand_dims `[0]`, index_vector_dim `1`): row `e` of the updates is
  added, whole, to row `idx[e, 0]` of the operand. Over the extended reals element `(v, c)` of the result is the
  operand's plus the sum of `upd[e, c]` over the positions `e` whose index `idx[e, 0]`, read as a signed integer
  and NOT clamped, is `v`: an update row whose signed index is no row of the operand is dropped.
-/
import Idealize.ShloMosaic.PureOps.Ideal
import Idealize.ShloMosaic.Lib.ValueIdx

noncomputable section

open scoped BigOperators

namespace Cert.LibRowsScatter

open Idealize.ShloMosaic Idealize.ShloMosaic.ValueIdx

/-! ## The coordinates of the landing index

For an update index `(e, c')`. The operand's row axis is inserted and addressed by the index vector: its window
coordinate is `0` and its window starts at the signed word `idx[e, 0]`. The operand's column axis is the image of the
updates' window axis and no index addresses it: its window starts at `0` and its window coordinate is the update's
column `c'`. Each fact is read off the record once its four lists are the stated literals. -/

section Coordinates

variable {N E D w : Nat}
  (s : ScatterDims (⟨2, ![N, D]⟩ : Shape) (⟨2, ![E, 1]⟩ : Shape) (⟨2, ![E, D]⟩ : Shape))
  (huw : s.updateWindowDims = [1]) (hiw : s.insertedWindowDims = [0])
  (hsd : s.scatterDimsToOperandDims = [0]) (hiv : s.indexVectorDim = 1)

include huw hiw hsd hiv

/-- On the operand's row axis the window starts at the signed index of the update's row. -/
theorem start_row (idx : IVec (⟨2, ![E, 1]⟩ : Shape) w) (e : Fin E) (c' : Fin D) :
    s.start (ix2 e c') idx 0 = (idx (ix2 e (0 : Fin 1))).toInt := by
  obtain ⟨uw, iw, sd, iv, wf⟩ := s
  subst huw hiw hsd hiv
  unfold ScatterDims.start
  rw [dif_pos (List.mem_singleton.mpr rfl)]
  refine congrArg (fun i => (idx i).toInt) ?_
  funext b
  refine Fin.ext ?_
  match b with
  | ⟨0, _⟩ => rfl
  | ⟨1, _⟩ => rfl

/-- On the operand's column axis, which no index addresses, the window starts at `0`. -/
theorem start_col (idx : IVec (⟨2, ![E, 1]⟩ : Shape) w) (e : Fin E) (c' : Fin D) :
    s.start (ix2 e c') idx 1 = 0 := by
  obtain ⟨uw, iw, sd, iv, wf⟩ := s
  subst huw hiw hsd hiv
  unfold ScatterDims.start
  exact dif_neg fun h => Nat.one_ne_zero (congrArg Fin.val (List.mem_singleton.mp h))

/-- The operand's row axis is inserted: its window coordinate is `0`. -/
theorem window_row (e : Fin E) (c' : Fin D) : s.window (ix2 e c') 0 = 0 := by
  obtain ⟨uw, iw, sd, iv, wf⟩ := s
  subst huw hiw hsd hiv
  rfl

/-- The operand's column axis carries the updates' window axis: its window coordinate is the update's column. -/
theorem window_col (e : Fin E) (c' : Fin D) : s.window (ix2 e c') 1 = c'.val := by
  obtain ⟨uw, iw, sd, iv, wf⟩ := s
  subst huw hiw hsd hiv
  rfl

/-! ## Where an update lands -/

/-- WHERE AN UPDATE LANDS: update index `(e, c')` lands on `(v, c)` exactly when the signed index of row `e` is `v`
    and the columns agree. Left to right the landing index exists, so the row start is nonnegative and its `toNat` is
    `v`, while the column coordinate is `c'` itself; right to left both coordinates are in range (`v < N`, `c < D`)
    and the index built from them is `(v, c)`. -/
theorem resultIdx?_eq_some_iff (idx : IVec (⟨2, ![E, 1]⟩ : Shape) w) (e : Fin E) (c' : Fin D) (v : Fin N)
    (c : Fin D) :
    s.resultIdx? (ix2 e c') idx = some (ix2 v c) ↔ (idx (ix2 e (0 : Fin 1))).toInt = (v.val : ℤ) ∧ c' = c := by
  have h0 := start_row s huw hiw hsd hiv idx e c'
  have h1 := start_col s huw hiw hsd hiv idx e c'
  have w0 := window_row s huw hiw hsd hiv e c'
  have w1 := window_col s huw hiw hsd hiv e c'
  unfold ScatterDims.resultIdx?
  constructor
  · intro h
    split at h
    · rename_i hr
      have hf := Option.some.inj h
      have e0 := congrArg Fin.val (congrFun hf 0)
      have e1 := congrArg Fin.val (congrFun hf 1)
      have r0 := (hr 0).1
      simp only [h0, h1, w0, w1] at e0 e1 r0
      change _ = v.val at e0
      change _ = c.val at e1
      exact ⟨by omega, Fin.ext (by omega)⟩
    · exact absurd h (by simp)
  · rintro ⟨hv, rfl⟩
    have hr : ∀ a, 0 ≤ s.start (ix2 e c') idx a + s.window (ix2 e c') a ∧
        s.start (ix2 e c') idx a + s.window (ix2 e c') a < (⟨2, ![N, D]⟩ : Shape).size a := by
      intro a
      match a with
      | ⟨0, _⟩ =>
        show 0 ≤ s.start (ix2 e c') idx 0 + s.window (ix2 e c') 0 ∧
          s.start (ix2 e c') idx 0 + s.window (ix2 e c') 0 < (N : ℤ)
        rw [h0, w0, hv]; have := v.isLt; omega
      | ⟨1, _⟩ =>
        show 0 ≤ s.start (ix2 e c') idx 1 + s.window (ix2 e c') 1 ∧
          s.start (ix2 e c') idx 1 + s.window (ix2 e c') 1 < (D : ℤ)
        rw [h1, w1]; have := c'.isLt; omega
    rw [dif_pos hr]
    refine congrArg some ?_
    funext a
    refine Fin.ext ?_
    match a with
    | ⟨0, _⟩ =>
      show (s.start (ix2 e c') idx 0 + s.window (ix2 e c') 0).toNat = v.val
      rw [h0, w0, hv]; omega
    | ⟨1, _⟩ =>
      show (s.start (ix2 e c') idx 1 + s.window (ix2 e c') 1).toNat = c'.val
      rw [h1, w1]; omega

end Coordinates

/-! ## The sum over the landing updates -/

/-- The sum of the updates that land on `(v, c)` is the sum over the update rows `e` of `upd[e, c]` guarded by "the
    signed index of `e` is `v`": the filtered sum is a sum of guarded terms over all update indices, that is the double
    sum over rows and columns; the guard is the landing condition, whose column half keeps the one column `c` of each
    row. -/
theorem sum_landing {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (idx : IVec (⟨2, ![E, 1]⟩ : Shape) w) (upd : (⟨2, ![E, D]⟩ : Shape).Idx → EReal) (v : Fin N) (c : Fin D) :
    (∑ j ∈ Finset.univ.filter (fun j => s.resultIdx? j idx = some (ix2 v c)), upd j)
      = ∑ e : Fin E, if (idx (ix2 e (0 : Fin 1))).toInt = (v.val : ℤ) then upd (ix2 e c) else 0 := by
  rw [Finset.sum_filter, sum_idx2]
  refine Finset.sum_congr rfl fun e _ => ?_
  have hg : ∀ c' : Fin D,
      (if s.resultIdx? (ix2 e c') idx = some (ix2 v c) then upd (ix2 e c') else 0)
        = if c' = c then (if (idx (ix2 e (0 : Fin 1))).toInt = (v.val : ℤ) then upd (ix2 e c') else 0) else 0 := by
    intro c'
    have hl := resultIdx?_eq_some_iff s huw hiw hsd hiv idx e c' v c
    by_cases hc : c' = c
    · rw [if_pos hc]
      exact if_congr (hl.trans (and_iff_left hc)) rfl rfl
    · rw [if_neg hc, if_neg fun h => hc (hl.mp h).2]
  rw [Finset.sum_congr rfl fun c' _ => hg c', Finset.sum_ite_eq' Finset.univ c, if_pos (Finset.mem_univ c)]

/-- THE SCATTER-ADD OF ROWS READ AT `(v, c)`: for any dimension-number record of the row segment-sum form, the
    operand's element plus the sum over the update rows `e` whose signed index is `v` of the update's element
    `(e, c)`. -/
theorem rowsScatterAdd_apply {φ : FTy} {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (x : FVec Ideal (⟨2, ![N, D]⟩ : Shape) φ) (idx : IVec (⟨2, ![E, 1]⟩ : Shape) w)
    (upd : FVec Ideal (⟨2, ![E, D]⟩ : Shape) φ) (v : Fin N) (c : Fin D) :
    Host.scatterAdd s x idx upd (ix2 v c)
      = x (ix2 v c) + ∑ e : Fin E, if (idx (ix2 e (0 : Fin 1))).toInt = (v.val : ℤ) then upd (ix2 e c) else 0 := by
  exact congrArg (x (ix2 v c) + ·) (sum_landing s huw hiw hsd hiv idx upd v c)

end Cert.LibRowsScatter

end
-- ==== Proof.RefValue.lean ====
/-
  The reference's result as a function of its arguments: two rounds of message passing over the edge list
  (features gathered at each edge's source, scaled by the edge's weight, summed at its target), a rectifier between
  them, and the rows the row words name.
-/
import proofs.«100943_j2456721293623_1_alg».proof.Proof.RefRunP
import proofs.«100943_j2456721293623_1_alg».proof.Proof.RefReadP
import proofs.«100943_j2456721293623_1_alg».proof.Proof.Spec
import proofs.«100943_j2456721293623_1_alg».proof.Proof.SpecAlg
import proofs.«100943_j2456721293623_1_alg».proof.Proof.RefEdges
import proofs.«100943_j2456721293623_1_alg».proof.Proof.LibGatherRows
import proofs.«100943_j2456721293623_1_alg».proof.Proof.LibRowsScatter
import proofs.«100943_j2456721293623_1_alg».proof.Proof.LibVecScatter
import proofs.«100943_j2456721293623_1_alg».proof.Proof.LibPlainDot

set_option maxRecDepth 16384
noncomputable section

open scoped BigOperators

namespace Cert.ReferenceIdeal.RefValue

open Idealize.ShloMosaic Idealize.ShloMosaic.ValueIdx Cert.ReferenceIdeal

variable [Cert.ReferenceIdeal.Facts]

/-! ## The edge data, one edge at a time

The weight of an edge, the row its source names and the node its target names, in both rounds: the specification's
nrmE, nodeC and node on an in-range table. -/

theorem weight1 (x1 : IVec S262144x2 32) (hr : Cert.Spec.InRange x1) (e : Fin 270336) :
    Read.val_main_v36 (F := Ideal) x1 (ix1 e) = Cert.Spec.nrmE x1 e := by
  exact RefEdges.w36 x1 hr e

theorem weight2 (x1 : IVec S262144x2 32) (hr : Cert.Spec.InRange x1) (e : Fin 270336) :
    Read.val_main_v80 (F := Ideal) x1 (ix1 e) = Cert.Spec.nrmE x1 e := by
  exact RefEdges.w80 x1 hr e

theorem source1 (x1 : IVec S262144x2 32) (hr : Cert.Spec.InRange x1) (e : Fin 270336) :
    Cert.LibGatherRows.clampRow 8192 (by decide) (Read.val_main_v42 (F := Ideal) x1 (ix2 e (0 : Fin 1)))
      = Cert.Spec.nodeC x1 0 e := by
  exact RefEdges.src42 x1 hr e

theorem source2 (x1 : IVec S262144x2 32) (hr : Cert.Spec.InRange x1) (e : Fin 270336) :
    Cert.LibGatherRows.clampRow 8192 (by decide) (Read.val_main_v86 (F := Ideal) x1 (ix2 e (0 : Fin 1)))
      = Cert.Spec.nodeC x1 0 e := by
  exact RefEdges.src86 x1 hr e

theorem target1 (x1 : IVec S262144x2 32) (hr : Cert.Spec.InRange x1) (e : Fin 270336) (d : Fin 8192) :
    (Read.val_main_v48 (F := Ideal) x1 (ix2 e (0 : Fin 1))).toInt = (d.val : ℤ) ↔ Cert.Spec.node x1 1 e = d.val := by
  exact RefEdges.dst48 x1 hr e d

theorem target2 (x1 : IVec S262144x2 32) (hr : Cert.Spec.InRange x1) (e : Fin 270336) (d : Fin 8192) :
    (Read.val_main_v92 (F := Ideal) x1 (ix2 e (0 : Fin 1))).toInt = (d.val : ℤ) ↔ Cert.Spec.node x1 1 e = d.val := by
  exact RefEdges.dst92 x1 hr e d

/-! ## The identity matrix and the first product

Entry (i, k) of the matrix the reference builds is the truth value of "row number = column number" read as a
number: 1 on the diagonal, 0 off it. Multiplying by it keeps the other factor: in row i only the term k = i is
left. -/

/-- The identity matrix, entry by entry. -/
theorem eye_apply (i k : Fin 8192) :
    Read.val_main_v9 (F := Ideal) (ix2 i k) = if i = k then (1 : EReal) else 0 := by
  rw [Read.val_main_v9_apply, Read.val_main_v8_apply, Read.val_main_v7_apply, Read.val_main_v4_apply,
    Read.val_main_v5_apply, Read.val_main_v6_apply, Read.val_main_c_apply]
  show (((IntOp.cmpi .eq (IntOp.addi (BitVec.ofNat 32 i.val) 0#32) (BitVec.ofNat 32 k.val)).toNat : ℝ) : EReal) = _
  by_cases h : i = k
  · subst h
    have hc : IntOp.cmpi .eq (IntOp.addi (BitVec.ofNat 32 i.val) 0#32) (BitVec.ofNat 32 i.val) = 1#1 :=
      IntOp.cmpi_eq.mpr (BitVec.add_zero _)
    rw [if_pos rfl, hc]
    show (((1 : ℕ) : ℝ) : EReal) = 1
    rw [Nat.cast_one, EReal.coe_one]
  · have hne : ¬ IntOp.cmpi .eq (IntOp.addi (BitVec.ofNat 32 i.val) 0#32) (BitVec.ofNat 32 k.val) = 1#1 := by
      intro hc
      have h1 : (BitVec.ofNat 32 i.val + 0#32).toNat = (BitVec.ofNat 32 k.val).toNat :=
        congrArg BitVec.toNat (IntOp.cmpi_eq.mp hc)
      rw [BitVec.add_zero, BitVec.toNat_ofNat, BitVec.toNat_ofNat] at h1
      have hi := i.isLt
      have hk := k.isLt
      exact h (Fin.ext (by omega))
    rw [if_neg h, eq_zero_of_ne_one hne]
    show (((0 : ℕ) : ℝ) : EReal) = 0
    rw [Nat.cast_zero, EReal.coe_zero]

/-- The product of the identity matrix with W1 is W1. -/
theorem first_product (x2 : FVec Ideal S8192x512 .f32) (i : Fin 8192) (j : Fin 512) :
    Read.val_main_v10 (F := Ideal) x2 (ix2 i j) = x2 (ix2 i j) := by
  have h : ∀ k : Fin 8192,
      Read.val_main_v9 (F := Ideal) (Read.lidx_main_v10 (ix2 i j) k) * x2 (Read.ridx_main_v10 (ix2 i j) k)
        = if i = k then x2 (ix2 k j) else 0 := by
    intro k
    have e1 : Read.lidx_main_v10 (ix2 i j) k = ix2 i k := by
      funext a; match a with | ⟨0, _⟩ => rfl | ⟨1, _⟩ => rfl
    have e2 : Read.ridx_main_v10 (ix2 i j) k = ix2 k j := by
      funext a; match a with | ⟨0, _⟩ => rfl | ⟨1, _⟩ => rfl
    rw [e1, e2, eye_apply]
    split
    · exact one_mul _
    · exact zero_mul _
  rw [Read.val_main_v10_apply, Finset.sum_congr rfl fun k _ => h k, Finset.sum_ite_eq Finset.univ i,
    if_pos (Finset.mem_univ i)]

/-! ## The first round

Edge e brings row source(e) of W1, scaled by its weight, to node target(e); the zeros the sums start from read 0; the
bias is added and the rectifier is the maximum with 0. -/

/-- The gathered rows: row e is W1's row at e's source. -/
theorem gathered1 (x1 : IVec S262144x2 32) (hr : Cert.Spec.InRange x1) (x2 : FVec Ideal S8192x512 .f32)
    (e : Fin 270336) (j : Fin 512) :
    Read.val_main_v43 (F := Ideal) x1 x2 (ix2 e j) = x2 (ix2 (Cert.Spec.nodeC x1 0 e) j) := by
  unfold Read.val_main_v43
  rw [Cert.LibGatherRows.gatherRows_apply (by decide) gather_S8192x512_S270336x1_S270336x512_1_0_n_n_0_1_1512
    rfl rfl rfl rfl rfl, source1 x1 hr e, first_product]

/-- The weight column spread over the 512 columns. -/
theorem spread1 (x1 : IVec S262144x2 32) (hr : Cert.Spec.InRange x1) (e : Fin 270336) (j : Fin 512) :
    Read.val_main_v45 (F := Ideal) x1 (ix2 e j) = Cert.Spec.nrmE x1 e := by
  have e1 : Read.idx_main_v44 (Read.idx_main_v45 (ix2 e j)) = ix1 e := by
    funext a; match a with | ⟨0, _⟩ => rfl
  rw [Read.val_main_v45_apply, Read.val_main_v44_apply, e1]
  exact weight1 x1 hr e

/-- The first round's sums are the specification's message passing of W1. -/
theorem summed1 (x1 : IVec S262144x2 32) (hr : Cert.Spec.InRange x1) (x2 : FVec Ideal S8192x512 .f32)
    (d : Fin 8192) (j : Fin 512) :
    Read.val_main_v49 (F := Ideal) x1 x2 (ix2 d j) = Cert.Spec.aggE x1 (fun i j => x2 (ix2 i j)) d j := by
  have h0 : Read.val_main_v47 (F := Ideal) (ix2 d j) = 0 := by
    rw [Read.val_main_v47_apply, Read.val_main_cst_9_apply]
    exact Ideal.ofBits_zero_f32
  have hs : ∀ e : Fin 270336,
      (if (Read.val_main_v48 (F := Ideal) x1 (ix2 e (0 : Fin 1))).toInt = (d.val : ℤ)
        then Read.val_main_v46 (F := Ideal) x1 x2 (ix2 e j) else 0)
        = if Cert.Spec.node x1 1 e = d.val then x2 (ix2 (Cert.Spec.nodeC x1 0 e) j) * Cert.Spec.nrmE x1 e else 0 := by
    intro e
    rw [Read.val_main_v46_apply, gathered1 x1 hr x2 e j, spread1 x1 hr e j]
    exact if_congr (target1 x1 hr e d) rfl rfl
  unfold Read.val_main_v49
  rw [Cert.LibRowsScatter.rowsScatterAdd_apply scatter_S8192x512_S270336x1_S270336x512_1_0_0_1 rfl rfl rfl rfl,
    h0, Finset.sum_congr rfl fun e _ => hs e]
  rfl

/-- The hidden layer: bias added, rectified. -/
theorem hidden (x1 : IVec S262144x2 32) (hr : Cert.Spec.InRange x1) (x2 : FVec Ideal S8192x512 .f32)
    (x3 : FVec Ideal S512 .f32) (d : Fin 8192) (j : Fin 512) :
    Read.val_main_v53 (F := Ideal) x1 x2 x3 (ix2 d j)
      = Cert.Spec.hR x1 (fun i j => x2 (ix2 i j)) (fun j => x3 (ix1 j)) d j := by
  have hb : Read.val_main_v51 (F := Ideal) x3 (ix2 d j) = x3 (ix1 j) := by
    rw [Read.val_main_v51_apply, Read.val_main_v50_apply]
    refine congrArg x3 ?_
    funext a; match a with | ⟨0, _⟩ => rfl
  have hz : Read.val_main_call1_v0 (F := Ideal) (ix2 d j) = 0 := by
    rw [Read.val_main_call1_v0_apply, Read.val_main_call1_cst_apply]
    exact Ideal.ofBits_zero_f32
  rw [Read.val_main_v53_apply, Read.val_main_v52_apply, summed1 x1 hr x2 d j, hb, hz]
  rfl

/-- The second product: the hidden layer times W2. -/
theorem second_product (x1 : IVec S262144x2 32) (hr : Cert.Spec.InRange x1) (x2 : FVec Ideal S8192x512 .f32)
    (x3 : FVec Ideal S512 .f32) (x4 : FVec Ideal S512x128 .f32) (d : Fin 8192) (r : Fin 128) :
    Read.val_main_v54 (F := Ideal) x1 x2 x3 x4 (ix2 d r)
      = Cert.Spec.gR x1 (fun i j => x2 (ix2 i j)) (fun j => x3 (ix1 j)) (fun i j => x4 (ix2 i j)) d r := by
  rw [Read.val_main_v54_apply]
  unfold Cert.Spec.gR Cert.Spec.mmE
  refine Finset.sum_congr rfl fun k _ => ?_
  have e1 : Read.lidx_main_v54 (ix2 d r) k = ix2 d k := by
    funext a; match a with | ⟨0, _⟩ => rfl | ⟨1, _⟩ => rfl
  have e2 : Read.ridx_main_v54 (ix2 d r) k = ix2 k r := by
    funext a; match a with | ⟨0, _⟩ => rfl | ⟨1, _⟩ => rfl
  rw [e1, e2, hidden x1 hr x2 x3 d k]

/-! ## The second round

The same steps on the second product's rows, 128 columns wide. -/

/-- The gathered rows: row e is the second product's row at e's source. -/
theorem gathered2 (x1 : IVec S262144x2 32) (hr : Cert.Spec.InRange x1) (x2 : FVec Ideal S8192x512 .f32)
    (x3 : FVec Ideal S512 .f32) (x4 : FVec Ideal S512x128 .f32) (e : Fin 270336) (r : Fin 128) :
    Read.val_main_v87 (F := Ideal) x1 x2 x3 x4 (ix2 e r)
      = Cert.Spec.gR x1 (fun i j => x2 (ix2 i j)) (fun j => x3 (ix1 j)) (fun i j => x4 (ix2 i j))
          (Cert.Spec.nodeC x1 0 e) r := by
  unfold Read.val_main_v87
  rw [Cert.LibGatherRows.gatherRows_apply (by decide) gather_S8192x128_S270336x1_S270336x128_1_0_n_n_0_1_1128
    rfl rfl rfl rfl rfl, source2 x1 hr e, second_product x1 hr x2 x3 x4]

/-- The weight column spread over the 128 columns. -/
theorem spread2 (x1 : IVec S262144x2 32) (hr : Cert.Spec.InRange x1) (e : Fin 270336) (r : Fin 128) :
    Read.val_main_v89 (F := Ideal) x1 (ix2 e r) = Cert.Spec.nrmE x1 e := by
  have e1 : Read.idx_main_v88 (Read.idx_main_v89 (ix2 e r)) = ix1 e := by
    funext a; match a with | ⟨0, _⟩ => rfl
  rw [Read.val_main_v89_apply, Read.val_main_v88_apply, e1]
  exact weight2 x1 hr e

/-- The second round's sums are the specification's message passing of the second product. -/
theorem summed2 (x1 : IVec S262144x2 32) (hr : Cert.Spec.InRange x1) (x2 : FVec Ideal S8192x512 .f32)
    (x3 : FVec Ideal S512 .f32) (x4 : FVec Ideal S512x128 .f32) (d : Fin 8192) (r : Fin 128) :
    Read.val_main_v93 (F := Ideal) x1 x2 x3 x4 (ix2 d r)
      = Cert.Spec.aggE x1
          (Cert.Spec.gR x1 (fun i j => x2 (ix2 i j)) (fun j => x3 (ix1 j)) (fun i j => x4 (ix2 i j))) d r := by
  have h0 : Read.val_main_v91 (F := Ideal) (ix2 d r) = 0 := by
    rw [Read.val_main_v91_apply, Read.val_main_cst_20_apply]
    exact Ideal.ofBits_zero_f32
  have hs : ∀ e : Fin 270336,
      (if (Read.val_main_v92 (F := Ideal) x1 (ix2 e (0 : Fin 1))).toInt = (d.val : ℤ)
        then Read.val_main_v90 (F := Ideal) x1 x2 x3 x4 (ix2 e r) else 0)
        = if Cert.Spec.node x1 1 e = d.val
            then Cert.Spec.gR x1 (fun i j => x2 (ix2 i j)) (fun j => x3 (ix1 j)) (fun i j => x4 (ix2 i j))
              (Cert.Spec.nodeC x1 0 e) r * Cert.Spec.nrmE x1 e
            else 0 := by
    intro e
    rw [Read.val_main_v90_apply, gathered2 x1 hr x2 x3 x4 e r, spread2 x1 hr e r]
    exact if_congr (target2 x1 hr e d) rfl rfl
  unfold Read.val_main_v93
  rw [Cert.LibRowsScatter.rowsScatterAdd_apply scatter_S8192x128_S270336x1_S270336x128_1_0_0_1 rfl rfl rfl rfl,
    h0, Finset.sum_congr rfl fun e _ => hs e]
  rfl

/-- The output layer: the second round's sums plus the bias. -/
theorem output (x1 : IVec S262144x2 32) (hr : Cert.Spec.InRange x1) (x2 : FVec Ideal S8192x512 .f32)
    (x3 : FVec Ideal S512 .f32) (x4 : FVec Ideal S512x128 .f32) (x5 : FVec Ideal S128 .f32) (d : Fin 8192) (r : Fin 128) :
    Read.val_main_v96 (F := Ideal) x1 x2 x3 x4 x5 (ix2 d r)
      = Cert.Spec.outR x1 (fun i j => x2 (ix2 i j)) (fun j => x3 (ix1 j)) (fun i j => x4 (ix2 i j))
          (fun j => x5 (ix1 j)) d r := by
  have hb : Read.val_main_v95 (F := Ideal) x5 (ix2 d r) = x5 (ix1 r) := by
    rw [Read.val_main_v95_apply, Read.val_main_v94_apply]
    refine congrArg x5 ?_
    funext a; match a with | ⟨0, _⟩ => rfl
  rw [Read.val_main_v96_apply, summed2 x1 hr x2 x3 x4 d r, hb]
  rfl

/-! ## The rows the result keeps -/

/-- The wrapped row word: a negative word counts from the end. -/
theorem wrapped (x0 : IVec S2048 32) (p : Fin 2048) :
    Read.val_main_v102 (F := Ideal) x0 (ix2 p (0 : Fin 1)) = Cert.Spec.wrapW (x0 (ix1 p)) := by
  have e1 : Read.idx_main_v102 (ix2 p (0 : Fin 1)) = ix1 p := by
    funext a; match a with | ⟨0, _⟩ => rfl
  have hz : (0#32 : BitVec 32).toInt = 0 := by decide
  rw [Read.val_main_v102_apply, e1, Read.val_main_v101_apply, Read.val_main_v98_apply, Read.val_main_v100_apply,
    Read.val_main_v97_apply, Read.val_main_v99_apply, Read.val_main_c_21_apply, Read.val_main_c_22_apply]
  unfold Cert.Spec.wrapW
  by_cases h : (x0 (ix1 p)).toInt < 0
  · have hc : IntOp.cmpi .slt (x0 (ix1 p)) 0#32 = 1#1 := IntOp.cmpi_slt.mpr (by rw [hz]; exact h)
    rw [hc, select_one, if_pos h]
    rfl
  · have hc : IntOp.cmpi .slt (x0 (ix1 p)) 0#32 = 0#1 :=
      eq_zero_of_ne_one fun hc => h (by have h1 := IntOp.cmpi_slt.mp hc; rw [hz] at h1; exact h1)
    rw [hc, select_zero, if_neg h]

/-- The reference's result at Ideal is the specification's second round read at the named rows. -/
theorem val_eq (x0 : IVec S2048 32) (x1 : IVec S262144x2 32) (x2 : FVec Ideal S8192x512 .f32) (x3 : FVec Ideal S512 .f32)
    (x4 : FVec Ideal S512x128 .f32) (x5 : FVec Ideal S128 .f32) (hr : Cert.Spec.InRange x1)
    (h2 : ∀ i, ∃ r : ℝ, x2 i = (r : EReal)) (h3 : ∀ i, ∃ r : ℝ, x3 i = (r : EReal)) (h4 : ∀ i, ∃ r : ℝ, x4 i = (r : EReal)) :
    Cert.ReferenceIdeal.Read.val_main_v103 (F := Ideal) x0 x1 x2 x3 x4 x5
      = Cert.Spec.resE x0 (Cert.Spec.outR x1 (fun i j => x2 (ix2 i j)) (fun j => x3 (ix1 j)) (fun i j => x4 (ix2 i j)) (fun j => x5 (ix1 j))) := by
  funext i
  obtain ⟨p, q, rfl⟩ : ∃ (p : Fin 2048) (q : Fin 128), i = ix2 p q := ⟨i 0, i 1, eq_ix2 i⟩
  unfold Read.val_main_v103
  rw [Cert.LibGatherRows.gatherRows_apply (by decide) gather_S8192x128_S2048x1_S2048x128_1_0_n_n_0_1_1128
    rfl rfl rfl rfl rfl, wrapped x0 p, output x1 hr x2 x3 x4 x5]
  rfl

end Cert.ReferenceIdeal.RefValue

end
-- ==== Proof.PreFacts.lean ====
/-
  What the precondition says of the argument arrays: the four float arrays hold real numbers, and every word of the
  edge table is a node id.
-/
import proofs.«100943_j2456721293623_1_alg».proof.Pre_finite_inputs
import proofs.«100943_j2456721293623_1_alg».proof.Proof.Gen.Pre_finite_inputs
import proofs.«100943_j2456721293623_1_alg».proof.Proof.Spec
import Idealize.ShloMosaic.Lib.ReduceAll
import Idealize.ShloMosaic.Lib.StableHlo.Predicate

noncomputable section

open scoped BigOperators

namespace Cert.PreFacts

open Idealize.ShloMosaic Idealize.ShloMosaic.ValueIdx Cert.Pre_finite_inputs

variable [Cert.Pre_finite_inputs.Facts]

/-- The result of a reduction over every axis has one index. -/
instance : Subsingleton S_.Idx := ⟨fun a b => funext fun d => d.elim0⟩

/-- A conjunction of two one-bit words is 1 exactly when both are. -/
theorem and1 : ∀ a b : BitVec 1, IntOp.andi a b = 1#1 ↔ a = 1#1 ∧ b = 1#1 := by decide

/-- The pattern 0x7F800000 denotes +∞. -/
theorem inf_eq : Ideal.ofBits .f32 0x7F800000#32 = (⊤ : EReal) := by simp [Ideal.ofBits, Ideal.ieee]

/-- An extended real whose absolute value max x (−x) is below +∞ is a real number: at x = ⊥ or x = ⊤ the maximum is ⊤. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change BitVec.ofBool (decide (max x (-x) < Ideal.ofBits .f32 0x7F800000#32)) = 1#1 at h
  rw [inf_eq, StableHlo.Predicate.ofBool_eq_one_iff, decide_eq_true_eq] at h
  induction x using EReal.rec with
  | bot => simp at h
  | coe r => exact ⟨r, rfl⟩
  | top => simp at h

/-- The conjunction, over every entry of x, of |x| < +∞, read back: every entry of x is a real number. -/
theorem all_real {s : Shape} {axes : List (Fin s.rank)} (hb : S_.BroadcastsInDim s (![] : Fin 0 → Fin s.rank))
    (hr : s.ReducesTo axes S_) (h0 : 0 < S_.numel) (x : FVec Ideal s .f32)
    (h : Host.reduce IntOp.andi (cmpf .olt (Host.absf x) (broadcastInDim s ![] hb (constant S_ .f32 0x7F800000#32)))
      (constantI S_ 1 1#1) hr h0 ix0 = 1#1) (i : s.Idx) : ∃ r : ℝ, x i = (r : EReal) :=
  real_of_abs_lt (x i) (Host.reduce_andi_all _ _ hr h0 ix0 h i)

/-- A 32-bit word that is ≥ 0 and < 8192 as a signed number is below 8192 as an unsigned one. -/
theorem toNat_lt_of_signed (w : BitVec 32) (h0 : IntOp.cmpi .sge w 0#32 = 1#1) (h1 : IntOp.cmpi .slt w 8192#32 = 1#1) :
    w.toNat < 8192 := by
  rw [IntOp.cmpi_sge] at h0
  rw [IntOp.cmpi_slt] at h1
  have e0 : (0#32 : BitVec 32).toInt = 0 := by decide
  have e1 : (8192#32 : BitVec 32).toInt = 8192 := by decide
  rw [e0] at h0
  rw [e1] at h1
  have hw := w.isLt
  rw [BitVec.toInt_eq_toNat_cond] at h0 h1
  split at h0 <;> omega

/-- The conjunction, over every word w of the table, of 0 ≤ w and w < 8192 (signed), read back: every word is below 8192. -/
theorem all_in_range {s : Shape} {axes : List (Fin s.rank)} (hb : S_.BroadcastsInDim s (![] : Fin 0 → Fin s.rank))
    (hr : s.ReducesTo axes S_) (h0 : 0 < S_.numel) (x : IVec s 32)
    (h : Host.reduce IntOp.andi (andi (cmpi .sge x (broadcastInDim s ![] hb (constantI S_ 32 0#32)))
        (cmpi .slt x (broadcastInDim s ![] hb (constantI S_ 32 8192#32)))) (constantI S_ 1 1#1) hr h0 ix0 = 1#1)
    (i : s.Idx) : (x i).toNat < 8192 := by
  have e := Host.reduce_andi_all _ _ hr h0 ix0 h i
  obtain ⟨e0, e1⟩ := (and1 _ _).1 e
  exact toNat_lt_of_signed (x i) e0 e1

/-- The precondition, decoded. -/
theorem of_pre (a0 : IVec S2048 32) (a1 : IVec S262144x2 32) (a2 : FVec Ideal S8192x512 .f32) (a3 : FVec Ideal S512 .f32)
    (a4 : FVec Ideal S512x128 .f32) (a5 : FVec Ideal S128 .f32)
    (h : Cert.Pre_finite_inputs.fn (F := Ideal) a0 a1 a2 a3 a4 a5 = (fun _ => 1#1)) :
    Cert.Spec.InRange a1
      ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  -- the predicate's one word, with the printed chain in view: a conjunction of five reductions by "and"
  have h0 := congrFun h ix0
  dsimp only [fn, fn_part1] at h0
  obtain ⟨h1234, h5⟩ := (and1 _ _).1 h0
  obtain ⟨h123, h4⟩ := (and1 _ _).1 h1234
  obtain ⟨h12, h3⟩ := (and1 _ _).1 h123
  obtain ⟨h1, h2⟩ := (and1 _ _).1 h12
  exact ⟨fun e a => all_in_range _ _ _ a1 h5 (ix2 e a), all_real _ _ _ a2 h1, all_real _ _ _ a3 h2,
    all_real _ _ _ a4 h3, all_real _ _ _ a5 h4⟩

end Cert.PreFacts

end
-- ==== Proof.lean ====
/-
  A two-layer graph convolution on 8192 nodes, the node features the identity matrix.  The reference sends, layer by
  layer, each edge's message (the source's features times deg(source)^(-1/2) deg(target)^(-1/2)) to the edge's target
  and sums there; the kernel builds the weighted adjacency matrix once and computes each layer as a matrix product with
  it, blocked over a grid with a running accumulator.  Over the extended reals the two agree on every edge table whose
  words are node ids and on real-valued weights: summing the weights of the edges from s to d and multiplying by X[s]
  is sending X[source] times the weight along each edge into d (the exchange of two finite sums, the distributive law
  holding because every number involved is real), and a blocked sum is the sum.

  The five claims: the three programs run to the end leaving their arguments as launched (each kernel program's run goes
  product by product through the pipeline's launch; the reference is host operations only); the idealized kernel
  program is the word-level one read at the ideal instance with no rewrite; and the two idealized programs end with
  equal results.
-/
import proofs.«100943_j2456721293623_1_alg».proof.Defs
import proofs.«100943_j2456721293623_1_alg».proof.Proof.Gen.Kernel
import proofs.«100943_j2456721293623_1_alg».proof.Proof.Gen.KernelIdeal
import proofs.«100943_j2456721293623_1_alg».proof.Proof.Gen.ReferenceIdeal
import proofs.«100943_j2456721293623_1_alg».proof.Proof.Gen.Pre_finite_inputs
import proofs.«100943_j2456721293623_1_alg».proof.Proof.BKRun
import proofs.«100943_j2456721293623_1_alg».proof.Proof.KRun
import proofs.«100943_j2456721293623_1_alg».proof.Proof.KValue
import proofs.«100943_j2456721293623_1_alg».proof.Proof.RefRunP
import proofs.«100943_j2456721293623_1_alg».proof.Proof.RefReadP
import proofs.«100943_j2456721293623_1_alg».proof.Proof.RefValue
import proofs.«100943_j2456721293623_1_alg».proof.Proof.PreFacts
import proofs.«100943_j2456721293623_1_alg».proof.Proof.SpecAlg
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Asm.frame (F := Bits) m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Asm.frame (F := Ideal) m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The two idealized programs end with equal results: the kernel's is the specification's three products read at the
    named rows, the reference's the specification's two rounds of message passing read at the same rows, and the two
    specifications agree under the precondition (node ids in range, real-valued weights). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.V7 m (Cert.KernelIdeal.Asm.outs m) c Cert.KernelIdeal.main_v57,
    Cert.KernelIdeal.Asm.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hr, h2, h3, h4, h5⟩ := Cert.PreFacts.of_pre _ _ _ _ _ _ (hpre c)
  rw [Cert.ReferenceIdeal.Read.val_main_v103_eq, (hagree c).1, (hagree c).2.1, (hagree c).2.2.1, (hagree c).2.2.2.1,
    (hagree c).2.2.2.2.1, (hagree c).2.2.2.2.2]
  rw [Cert.ReferenceIdeal.RefValue.val_eq _ _ _ _ _ _ hr h2 h3 h4]
  refine Eq.trans ?_ (Cert.KernelIdeal.KValue.result_eq m c hr).symm
  refine congrArg (Cert.Spec.resE _) ?_
  exact (Cert.Spec.out_eq _ hr _ _ _ _ (fun i j => h2 (ix2 i j)) (fun j => h3 (ix1 j)) (fun i j => h4 (ix2 i j))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
